-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1x128 .f32) (main_arg20 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg19
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S4x256 .f32) (main_arg16 : FVec F S4 .f32) (main_arg17 : FVec F S128x64 .f32) (main_arg18 : FVec F S128 .f32) (main_arg19 : FVec F S1x128 .f32) (main_arg20 : FVec F S1 .f32) (main_v63 : IVec S_ 1) (main_v67 : IVec S_ 1) : IVec S_ 1 :=
  let main_v68 : IVec S_ 1 := andi main_v63 main_v67
  let main_v69 : FVec F S4x256 .f32 := Host.absf main_arg15
  let main_cst_26 : FVec F S_ .f32 := constant S_ .f32 0x7F800000#32
  let main_v70 : FVec F S4x256 .f32 := broadcastInDim S4x256 ![] bcast_S_S4x256 main_cst_26
  let main_v71 : IVec S4x256 1 := cmpf .olt main_v69 main_v70
  let main_c_27 : IVec S_ 1 := constantI S_ 1 1#1
  let main_v72 : IVec S_ 1 := (fun x v => Host.reduce IntOp.andi x v reducesTo_S4x256_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S64x4 .f32) (main_arg6 : FVec F S64x4 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4 .f32 := Host.absf main_arg5
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x4 .f32) (main_arg1 : IVec S2x800000 32) (main_arg2 : FVec F S800000 .f32) (main_arg3 : FVec F S64x4 .f32) (main_arg4 : FVec F S64 .f32) (main_arg5 : FVec F S64x4 .f32) (main_arg6 : FVec F S64x4 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x4 .f32 := Host.absf main_arg3
  let main_cst_2 : FVec F S_ .f32 := constant S_ .f32 0x7F800000#32
  let main_v10 : FVec F S64x4 .f32 := broadcastInDim S64x4 ![] bcast_S_S64x4 main_cst_2
  let main_v11 : IVec S64x4 1 := cmpf .olt main_v9 main_v10
  let main_c_3 : IVec S_ 1 := constantI S_ 1 1#1
  let main_v12 : IVec S_ 1 := (fun x v => Host.reduce IntOp.andi x v reducesTo_S64x4_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S192x4 : Shape := ⟨2, ![192, 4]⟩
abbrev S4x192 : Shape := ⟨2, ![4, 192]⟩
abbrev S_ : Shape := ⟨0, ![]⟩
abbrev S192 : Shape := ⟨1, ![192]⟩
abbrev S1x192 : Shape := ⟨2, ![1, 192]⟩
abbrev S50000x192 : Shape := ⟨2, ![50000, 192]⟩
abbrev S2000x4 : Shape := ⟨2, ![2000, 4]⟩
abbrev S2000x192 : Shape := ⟨2, ![2000, 192]⟩
abbrev S50000x64 : Shape := ⟨2, ![50000, 64]⟩
abbrev S800000x1 : Shape := ⟨2, ![800000, 1]⟩
abbrev S800000x64 : Shape := ⟨2, ![800000, 64]⟩
abbrev S192x64 : Shape := ⟨2, ![192, 64]⟩
abbrev S64x192 : Shape := ⟨2, ![64, 192]⟩
abbrev S2000x64 : Shape := ⟨2, ![2000, 64]⟩
abbrev S800000x128 : Shape := ⟨2, ![800000, 128]⟩
abbrev S128x256 : Shape := ⟨2, ![128, 256]⟩
abbrev S256x4 : Shape := ⟨2, ![256, 4]⟩
abbrev S1x256 : Shape := ⟨2, ![1, 256]⟩
abbrev S1x4 : Shape := ⟨2, ![1, 4]⟩
abbrev S800000x4 : Shape := ⟨2, ![800000, 4]⟩
abbrev S3200x128 : Shape := ⟨2, ![3200, 128]⟩
abbrev S3200x4 : Shape := ⟨2, ![3200, 4]⟩
abbrev S3200x256 : Shape := ⟨2, ![3200, 256]⟩

abbrev nBuf : Space → Nat
  | .hbm => 123
  | .vmem => 20
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S800000, .f32⟩
  | .hbm, ⟨3, _⟩ => ⟨S64x4, .f32⟩
  | .hbm, ⟨4, _⟩ => ⟨S64, .f32⟩
  | .hbm, ⟨5, _⟩ => ⟨S64x4, .f32⟩
  | .hbm, ⟨6, _⟩ => ⟨S64x4, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S256x128, .f32⟩
  | .hbm, ⟨14, _⟩ => ⟨S256, .f32⟩
  | .hbm, ⟨15, _⟩ => ⟨S4x256, .f32⟩
  | .hbm, ⟨16, _⟩ => ⟨S4, .f32⟩
  | .hbm, ⟨17, _⟩ => ⟨S128x64, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S192x4, .f32⟩
  | .hbm, ⟨26, _⟩ => ⟨S4x192, .f32⟩
  | .hbm, ⟨27, _⟩ => ⟨S_, .f32⟩
  | .hbm, ⟨28, _⟩ => ⟨S64, .f32⟩
  | .hbm, ⟨29, _⟩ => ⟨S192, .f32⟩
  | .hbm, ⟨30, _⟩ => ⟨S1x192, .f32⟩
  | .hbm, ⟨31, _⟩ => ⟨S50000x192, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x64, .f32⟩
  | .hbm, ⟨54, _⟩ => ⟨S800000x1, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x64, .f32⟩
  | .hbm, ⟨62, _⟩ => ⟨S192x64, .f32⟩
  | .hbm, ⟨63, _⟩ => ⟨S64x192, .f32⟩
  | .hbm, ⟨64, _⟩ => ⟨S_, .f32⟩
  | .hbm, ⟨65, _⟩ => ⟨S64, .f32⟩
  | .hbm, ⟨66, _⟩ => ⟨S192, .f32⟩
  | .hbm, ⟨67, _⟩ => ⟨S1x192, .f32⟩
  | .hbm, ⟨68, _⟩ => ⟨S50000x192, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S800000x64, .f32⟩
  | .hbm, ⟨91, _⟩ => ⟨S800000x1, .f32⟩
  | .hbm, ⟨92, _⟩ => ⟨S800000x64, .f32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S50000x64, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x64, .f32⟩
  | .hbm, ⟨108, _⟩ => ⟨S_, .i32⟩
  | .hbm, ⟨109, _⟩ => ⟨S800000, .i32⟩
  | .hbm, ⟨110, _⟩ => ⟨S800000, .i1⟩
  | .hbm, ⟨111, _⟩ => ⟨S_, .i32⟩
  | .hbm, ⟨112, _⟩ => ⟨S800000, .i32⟩
  | .hbm, ⟨113, _⟩ => ⟨S800000, .i32⟩
  | .hbm, ⟨114, _⟩ => ⟨S800000, .i32⟩
  | .hbm, ⟨115, _⟩ => ⟨S800000x1, .i32⟩
  | .hbm, ⟨116, _⟩ => ⟨S800000x64, .f32⟩
  | .hbm, ⟨117, _⟩ => ⟨S800000x128, .f32⟩
  | .hbm, ⟨118, _⟩ => ⟨S128x256, .f32⟩
  | .hbm, ⟨119, _⟩ => ⟨S256x4, .f32⟩
  | .hbm, ⟨120, _⟩ => ⟨S1x256, .f32⟩
  | .hbm, ⟨121, _⟩ => ⟨S1x4, .f32⟩
  | .hbm, ⟨122, _⟩ => ⟨S800000x4, .f32⟩
  | .local _ .vmem, ⟨0, _⟩ => ⟨S2000x4, .f32⟩
  | .local _ .vmem, ⟨1, _⟩ => ⟨S2000x4, .f32⟩
  | .local _ .vmem, ⟨2, _⟩ => ⟨S4x192, .f32⟩
  | .local _ .vmem, ⟨3, _⟩ => ⟨S1x192, .f32⟩
  | .local _ .vmem, ⟨4, _⟩ => ⟨S2000x192, .f32⟩
  | .local _ .vmem, ⟨5, _⟩ => ⟨S2000x192, .f32⟩
  | .local _ .vmem, ⟨6, _⟩ => ⟨S2000x64, .f32⟩
  | .local _ .vmem, ⟨7, _⟩ => ⟨S2000x64, .f32⟩
  | .local _ .vmem, ⟨8, _⟩ => ⟨S64x192, .f32⟩
  | .local _ .vmem, ⟨9, _⟩ => ⟨S1x192, .f32⟩
  | .local _ .vmem, ⟨10, _⟩ => ⟨S2000x192, .f32⟩
  | .local _ .vmem, ⟨11, _⟩ => ⟨S2000x192, .f32⟩
  | .local _ .vmem, ⟨12, _⟩ => ⟨S3200x128, .f32⟩
  | .local _ .vmem, ⟨13, _⟩ => ⟨S3200x128, .f32⟩
  | .local _ .vmem, ⟨14, _⟩ => ⟨S128x256, .f32⟩
  | .local _ .vmem, ⟨15, _⟩ => ⟨S1x256, .f32⟩
  | .local _ .vmem, ⟨16, _⟩ => ⟨S256x4, .f32⟩
  | .local _ .vmem, ⟨17, _⟩ => ⟨S1x4, .f32⟩
  | .local _ .vmem, ⟨18, _⟩ => ⟨S3200x4, .f32⟩
  | .local _ .vmem, ⟨19, _⟩ => ⟨S3200x4, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_c_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_10 : Ref sig .tc := ⟨.hbm, 99, rfl⟩
abbrev main_v66 : Ref sig .tc := ⟨.hbm, 100, rfl⟩
abbrev main_v67 : Ref sig .tc := ⟨.hbm, 101, rfl⟩
abbrev main_c_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_12 : Ref sig .tc := ⟨.hbm, 108, rfl⟩
abbrev main_v73 : Ref sig .tc := ⟨.hbm, 109, rfl⟩
abbrev main_v74 : Ref sig .tc := ⟨.hbm, 110, rfl⟩
abbrev main_c_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3200x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S64x4_S64x4_S64x4_S192x4_d0 : Shape.Concatenates [S64x4, S64x4, S64x4] S192x4 0
  transposes_S192x4_S4x192_1_0 : S192x4.Transposes [1, 0] S4x192
  bcast_S_S64 : S_.BroadcastsInDim S64 (![] : Fin 0 → Fin S64.rank)
  concatenates_S64_S64_S64_S192_d0 : Shape.Concatenates [S64, S64, S64] S192 0
  shapeCasts_S192_S1x192 : S192.ShapeCasts S1x192
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S4x192_S4x192_0_0 : ∀ a, (![0, 0] : Fin 2 → Nat) a + S4x192.size a ≤ S4x192.size a
  h_S4x192 : 0 < S4x192.numel
  shapeCasts_S4x192_S4x192 : S4x192.ShapeCasts S4x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S64x64_S64x64_S64x64_S192x64_d0 : Shape.Concatenates [S64x64, S64x64, S64x64] S192x64 0
  transposes_S192x64_S64x192_1_0 : S192x64.Transposes [1, 0] S64x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  concatenates_S800000x64_S800000x64_S800000x128_d1 : Shape.Concatenates [S800000x64, S800000x64] S800000x128 1
  transposes_S256x128_S128x256_1_0 : S256x128.Transposes [1, 0] S128x256
  transposes_S4x256_S256x4_1_0 : S4x256.Transposes [1, 0] S256x4
  shapeCasts_S256_S1x256 : S256.ShapeCasts S1x256
  shapeCasts_S4_S1x4 : S4.ShapeCasts S1x4
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S3200x4 : S1x4.Broadcasts S3200x4
  inb_S3200x4_S3200x4_0_0 : ∀ a, (![0, 0] : Fin 2 → Nat) a + S3200x4.size a ≤ S3200x4.size a
  h_S3200x4 : 0 < S3200x4.numel
  dot_S2000x4_S4x192_S2000x192_1_0_0_1_n_n_wf : DotDims.WF S2000x4 S4x192 S2000x192 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x192_S2000x192_1_0_0_1_n_n_wf : DotDims.WF S2000x64 S64x192 S2000x192 [1] [0] [0] [1] [] []
  dot_S3200x128_S128x256_S3200x256_1_0_0_1_n_n_wf : DotDims.WF S3200x128 S128x256 S3200x256 [1] [0] [0] [1] [] []
  dot_S3200x256_S256x4_S3200x4_1_0_0_1_n_n_wf : DotDims.WF S3200x256 S256x4 S3200x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S50000x4.size a
  hwx0_0 : ∀ i : grid0.Coords, EltTy.bits .f32 = 32 ∨ (Rect.block (s := S50000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x192.size a ≤ S4x192.size a
  hwx0_1 : ∀ i : grid0.Coords, EltTy.bits .f32 = 32 ∨ (Rect.block (s := S4x192) S4x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x192.size a ≤ S50000x192.size a
  hwx0_3 : ∀ i : grid0.Coords, EltTy.bits .f32 = 32 ∨ (Rect.block (s := S50000x192) S2000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x192.size a ≤ S64x192.size a
  hwx1_1 : ∀ i : grid1.Coords, EltTy.bits .f32 = 32 ∨ (Rect.block (s := S64x192) S64x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x192.size a ≤ S50000x192.size a
  hwx1_3 : ∀ i : grid1.Coords, EltTy.bits .f32 = 32 ∨ (Rect.block (s := S50000x192) S2000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S800000x128.size a
  hwx2_0 : ∀ i : grid2.Coords, EltTy.bits .f32 = 32 ∨ (Rect.block (s := S800000x128) S3200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x4.size a ≤ S256x4.size a
  hwx2_3 : ∀ i : grid2.Coords, EltTy.bits .f32 = 32 ∨ (Rect.block (s := S256x4) S256x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3200x4.size a ≤ S800000x4.size a
  hwx2_5 : ∀ i : grid2.Coords, EltTy.bits .f32 = 32 ∨ (Rect.block (s := S800000x4) S3200x4.size (cc2_transform_5 i) (hinb2_5 i)).WholeWords (EltTy.packing .f32)

variable [Facts₀]

def dot_S2000x4_S4x192_S2000x192_1_0_0_1_n_n : DotDims S2000x4 S4x192 S2000x192 where
  lhsContracting := [1]
  rhsContracting := [0]
  lhsNonContracting := [0]
  rhsNonContracting := [1]
  lhsBatch := []
  rhsBatch := []
  wf := dot_S2000x4_S4x192_S2000x192_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S3200x128_S128x256_S3200x256_1_0_0_1_n_n : DotDims S3200x128 S128x256 S3200x256 where
  lhsContracting := [1]
  rhsContracting := [0]
  lhsNonContracting := [0]
  rhsNonContracting := [1]
  lhsBatch := []
  rhsBatch := []
  wf := dot_S3200x128_S128x256_S3200x256_1_0_0_1_n_n_wf
def dot_S3200x256_S256x4_S3200x4_1_0_0_1_n_n : DotDims S3200x256 S256x4 S3200x4 where
  lhsContracting := [1]
  rhsContracting := [0]
  lhsNonContracting := [0]
  rhsNonContracting := [1]
  lhsBatch := []
  rhsBatch := []
  wf := dot_S3200x256_S256x4_S3200x4_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v80) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S256x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S3200x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S4x64 : Shape := ⟨2, ![4, 64]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x256 : Shape := ⟨2, ![128, 256]⟩
abbrev S800000x256 : Shape := ⟨2, ![800000, 256]⟩
abbrev S1x256 : Shape := ⟨2, ![1, 256]⟩
abbrev S256x4 : Shape := ⟨2, ![256, 4]⟩
abbrev S800000x4 : Shape := ⟨2, ![800000, 4]⟩
abbrev S1x4 : Shape := ⟨2, ![1, 4]⟩

abbrev nBuf : Space → Nat
  | .hbm => 135
  | .vmem => 0
  | .smem => 0
  | _ => 0

abbrev hbmTy0_0 (i : Nat) : BufTy := match i % 128 with
  | 0 => ⟨S50000x4, .f32⟩
  | 1 => ⟨S2x800000, .i32⟩
  | 2 => ⟨S800000, .f32⟩
  | 3 => ⟨S64x4, .f32⟩
  | 4 => ⟨S64, .f32⟩
  | 5 => ⟨S64x4, .f32⟩
  | 6 => ⟨S64x4, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S256x128, .f32⟩
  | 14 => ⟨S256, .f32⟩
  | 15 => ⟨S4x256, .f32⟩
  | 16 => ⟨S4, .f32⟩
  | 17 => ⟨S128x64, .f32⟩
  | 18 => ⟨S128, .f32⟩
  | 19 => ⟨S1x128, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S4x64, .f32⟩
  | 26 => ⟨S50000x64, .f32⟩
  | 27 => ⟨S1x64, .f32⟩
  | 28 => ⟨S50000x64, .f32⟩
  | 29 => ⟨S50000x64, .f32⟩
  | 30 => ⟨S4x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x64, .f32⟩
  | 51 => ⟨S800000x1, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S4x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S64x64, .f32⟩
  | 65 => ⟨S50000x64, .f32⟩
  | 66 => ⟨S1x64, .f32⟩
  | 67 => ⟨S50000x64, .f32⟩
  | 68 => ⟨S50000x64, .f32⟩
  | 69 => ⟨S64x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x64, .f32⟩
  | 90 => ⟨S800000x1, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S64x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x128, .f32⟩
  | 122 => ⟨S128x256, .f32⟩
  | 123 => ⟨S800000x256, .f32⟩
  | 124 => ⟨S1x256, .f32⟩
  | 125 => ⟨S800000x256, .f32⟩
  | 126 => ⟨S800000x256, .f32⟩
  | 127 => ⟨S_, .f32⟩
  | _ => ⟨S50000x4, .f32⟩

abbrev hbmTy0_1 (i : Nat) : BufTy := match i % 128 with
  | 0 => ⟨S800000x256, .f32⟩
  | 1 => ⟨S800000x256, .f32⟩
  | 2 => ⟨S256x4, .f32⟩
  | 3 => ⟨S800000x4, .f32⟩
  | 4 => ⟨S1x4, .f32⟩
  | 5 => ⟨S800000x4, .f32⟩
  | 6 => ⟨S800000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_3 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_5 : Ref sig .tc := ⟨.hbm, 80, rfl⟩
abbrev main_v52 : Ref sig .tc := ⟨.hbm, 81, rfl⟩
abbrev main_v53 : Ref sig .tc := ⟨.hbm, 82, rfl⟩
abbrev main_c_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_8 : Ref sig .tc := ⟨.hbm, 103, rfl⟩
abbrev main_v72 : Ref sig .tc := ⟨.hbm, 104, rfl⟩
abbrev main_v73 : Ref sig .tc := ⟨.hbm, 105, rfl⟩
abbrev main_c_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_10 : Ref sig .tc := ⟨.hbm, 112, rfl⟩
abbrev main_v79 : Ref sig .tc := ⟨.hbm, 113, rfl⟩
abbrev main_v80 : Ref sig .tc := ⟨.hbm, 114, rfl⟩
abbrev main_c_11 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call0_cst : Ref sig .tc := ⟨.hbm, 127, rfl⟩
abbrev main_call0_v0 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x4_S4x64_1_0 : S64x4.Transposes [1, 0] S4x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  concatenates_S800000x64_S800000x64_S800000x128_d1 : Shape.Concatenates [S800000x64, S800000x64] S800000x128 1
  transposes_S256x128_S128x256_1_0 : S256x128.Transposes [1, 0] S128x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S4x256_S256x4_1_0 : S4x256.Transposes [1, 0] S256x4
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  dot_S50000x4_S4x64_S50000x64_1_0_0_1_n_n_wf : DotDims.WF S50000x4 S4x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x128_S128x256_S800000x256_1_0_0_1_n_n_wf : DotDims.WF S800000x128 S128x256 S800000x256 [1] [0] [0] [1] [] []
  dot_S800000x256_S256x4_S800000x4_1_0_0_1_n_n_wf : DotDims.WF S800000x256 S256x4 S800000x4 [1] [0] [0] [1] [] []

variable [Facts₀]

def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x4_S800000x4_1_0_0_1_n_n : DotDims S800000x256 S256x4 S800000x4 where
  lhsContracting := [1]
  rhsContracting := [0]
  lhsNonContracting := [0]
  rhsNonContracting := [1]
  lhsBatch := []
  rhsBatch := []
  wf := dot_S800000x256_S256x4_S800000x4_1_0_0_1_n_n_wf

class Facts : Prop extends Facts₀ where

variable [Facts]
-- ==== Proof.K.Proj1.lean ====
import proofs.«139596_j14499809592003_1_alg».proof.Proof.Gen.Kernel.Launch
import proofs.«139596_j14499809592003_1_alg».proof.Proof.Gen.Kernel.Skeleton
import proofs.«139596_j14499809592003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first node projection: one tiled product `x · [W1; W2; W3]ᵀ + [b1; 0; b3]`

Grid point `t` of 25 takes rows `2000 t … 2000 t + 1999` of the node features (a 2000 × 4 block), the whole 4 × 192
weight matrix and the 1 × 192 bias row, and writes rows `2000 t …` of the 50000 × 192 result. Everything is stated at a
PARAMETER `V`: what the core's buffers hold when the region is entered. -/

section
variable (V : (c : Dev nD) → (b : Ref sig .tc) → Buf (Elt F) ((c : Thread nD τ).loc b))

/-- Window `w`'s block at grid point `t`, cut out of the array the region finds. -/
def p1blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features sits in its staging buffer at every point: it is fetched at each. -/
theorem p1_before_x {c : Dev nD} (dat : Dat τ (Elt F) Unit ℕ (UR sig nD τ) ℕ cfg0 c) (hA : dat.A 0 = V c (Pipeline.arrRef spec0 0))
    (hafter : ∀ t, dat.after 0 t = p1blk V c 0 t) (t : Fin cfg0.N) (d) : dat.before 0 t d = p1blk V c 0 t :=
  (dat.before_in_eq_fetched 0 rfl (fun _ => rfl) (fun _ _ _ => rfl) (fun t => by rw [hafter]; unfold Dat.blockOf p1blk; rw [hA]; try rfl) t d).trans
    (by unfold Dat.fetched Dat.blockOf p1blk; rw [hA]; try rfl)

/-- The weight matrix is fetched once; its block index never moves, so the buffer holds it at every point. -/
theorem p1_before_w {c : Dev nD} (dat : Dat τ (Elt F) Unit ℕ (UR sig nD τ) ℕ cfg0 c) (hA : dat.A 1 = V c (Pipeline.arrRef spec0 1))
    (hafter : ∀ t, dat.after 1 t = p1blk V c 1 t) (t : Fin cfg0.N) (d) : dat.before 1 t d = p1blk V c 1 t :=
  (dat.before_in_eq_fetched 1 rfl (fun _ => rfl) (fun _ _ _ => rfl) (fun t => by rw [hafter]; unfold Dat.blockOf p1blk; rw [hA]; try rfl) t d).trans
    (by unfold Dat.fetched Dat.blockOf p1blk; rw [hA]; try rfl)

/-- The same of the bias row. -/
theorem p1_before_b {c : Dev nD} (dat : Dat τ (Elt F) Unit ℕ (UR sig nD τ) ℕ cfg0 c) (hA : dat.A 2 = V c (Pipeline.arrRef spec0 2))
    (hafter : ∀ t, dat.after 2 t = p1blk V c 2 t) (t : Fin cfg0.N) (d) : dat.before 2 t d = p1blk V c 2 t :=
  (dat.before_in_eq_fetched 2 rfl (fun _ => rfl) (fun _ _ _ => rfl) (fun t => by rw [hafter]; unfold Dat.blockOf p1blk; rw [hA]; try rfl) t d).trans
    (by unfold Dat.fetched Dat.blockOf p1blk; rw [hA]; try rfl)

/-! ## The body: three whole loads, one whole store -/

abbrev p1rx : Rect S2000x4 := Rect.unit (s := S2000x4) ![0, 0] S2000x4.size inb_S2000x4_S2000x4_0_0
abbrev p1rw : Rect S4x192 := Rect.unit (s := S4x192) ![0, 0] S4x192.size inb_S4x192_S4x192_0_0
abbrev p1rb : Rect S1x192 := Rect.unit (s := S1x192) ![0, 0] S1x192.size inb_S1x192_S1x192_0_0
abbrev p1ro : Rect S2000x192 := Rect.unit (s := S2000x192) ![0, 0] S2000x192.size inb_S2000x192_S2000x192_0_0

/-- What the body leaves in the result's staging buffer: the product of the row block with the weights plus the
    bias row, stored over the whole buffer. -/
def p1out (x0 : Vec F S2000x4 .f32) (w0 : Vec F S4x192 .f32) (b0 : Vec F S1x192 .f32) : Vec F S2000x192 .f32 :=
  View.canon [⟨p1ro, k0_pay1 (View.ld x0 p1rx) (View.ld w0 p1rw) (View.ld b0 p1rb)⟩]

/-- The one store covers the buffer. -/
theorem p1cover (p0 : Vec F S2000x192 .f32) (y : S2000x192.Idx) :
    ∃ pc ∈ ([⟨p1ro, p0⟩] : List (View.Piece (Elt F) S2000x192 .f32)), y ∈ pc.1.set :=
  View.cover_of_tiled [⟨p1ro, p0⟩] S2000x192.size (by rfl) y

set_option maxHeartbeats 1000000 in
/-- The body on whole staging buffers: the three inputs keep their contents, the result's buffer ends at `p1out`. -/
theorem p1_kernel (c : Dev nD) (E : Set ℕ) (i : grid0.Coords)
    (arg1 : Memref sig .tc .vmem S2000x4 .f32) (harg1 : arg1.IsWhole) (arg2 : Memref sig .tc .vmem S4x192 .f32) (harg2 : arg2.IsWhole)
    (arg3 : Memref sig .tc .vmem S1x192 .f32) (harg3 : arg3.IsWhole) (arg4 : Memref sig .tc .vmem S2000x192 .f32) (harg4 : arg4.IsWhole)
    (x0 : Vec F S2000x4 .f32) (w0 : Vec F S4x192 .f32) (b0 : Vec F S1x192 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (p1out x0 w0 b0)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (p1cover _)

/-! ## The proof data of the pipeline -/

/-- Arrays as the region finds them; after the body each input buffer still holds its block and the result's holds
    `p1out` of the three blocks; the class-A invariant; nothing owed; full shares. -/
def p1dat (c : Dev nD) : Dat τ (Elt F) Unit ℕ (UR sig nD τ) ℕ cfg0 c where
  A w := V c (Pipeline.arrRef spec0 w)
  after w t := match w with
    | ⟨0, _⟩ => p1blk V c 0 t
    | ⟨1, _⟩ => p1blk V c 1 t
    | ⟨2, _⟩ => p1blk V c 2 t
    | ⟨3, _⟩ => p1out (p1blk V c 0 t) (p1blk V c 1 t) (p1blk V c 2 t)
  Φ _ := Pipeline.ΦA spec0 c
  q _ := fullShare
  owed _ := 0

theorem p1dat_A (c : Dev nD) (w : Fin cfg0.W) : (p1dat V c).A w = V c (Pipeline.arrRef spec0 w) := by
  dsimp only [p1dat]
theorem p1dat_after0 (c : Dev nD) (t : Fin cfg0.N) : (p1dat V c).after 0 t = p1blk V c 0 t := by dsimp only [p1dat]
theorem p1dat_after1 (c : Dev nD) (t : Fin cfg0.N) : (p1dat V c).after 1 t = p1blk V c 1 t := by dsimp only [p1dat]
theorem p1dat_after2 (c : Dev nD) (t : Fin cfg0.N) : (p1dat V c).after 2 t = p1blk V c 2 t := by dsimp only [p1dat]
theorem p1dat_after3 (c : Dev nD) (t : Fin cfg0.N) :
    (p1dat V c).after 3 t = p1out (p1blk V c 0 t) (p1blk V c 1 t) (p1blk V c 2 t) := by dsimp only [p1dat]

theorem p1dat_before0 (c : Dev nD) (t : Fin cfg0.N) (d) : (p1dat V c).before 0 t d = p1blk V c 0 t :=
  p1_before_x V (p1dat V c) (p1dat_A V c 0) (p1dat_after0 V c) t d
theorem p1dat_before1 (c : Dev nD) (t : Fin cfg0.N) (d) : (p1dat V c).before 1 t d = p1blk V c 1 t :=
  p1_before_w V (p1dat V c) (p1dat_A V c 1) (p1dat_after1 V c) t d
theorem p1dat_before2 (c : Dev nD) (t : Fin cfg0.N) (d) : (p1dat V c).before 2 t d = p1blk V c 2 t :=
  p1_before_b V (p1dat V c) (p1dat_A V c 2) (p1dat_after2 V c) t d

/-! ## The body obligation at a generic point -/

def p1pre (c : Dev nD) (t : Fin cfg0.N) : sProp 𝕄 :=
  iprop((p1dat V c).Φ t.castSucc ∗ (p1dat V c).owesAt () t.castSucc
    ∗ (∃ d, owns (c : Thread nD τ) (st0_0 t) fullShare ((p1dat V c).before 0 t d))
    ∗ (∃ d, owns (c : Thread nD τ) (st0_1 t) fullShare ((p1dat V c).before 1 t d))
    ∗ (∃ d, owns (c : Thread nD τ) (st0_2 t) fullShare ((p1dat V c).before 2 t d))
    ∗ (∃ d, owns (c : Thread nD τ) (st0_3 t) fullShare ((p1dat V c).before 3 t d)))

def p1post (c : Dev nD) (t : Fin cfg0.N) : sProp 𝕄 :=
  iprop((p1dat V c).Φ t.succ ∗ (p1dat V c).owesAt () t.succ
    ∗ owns (c : Thread nD τ) (st0_0 t) fullShare ((p1dat V c).after 0 t)
    ∗ owns (c : Thread nD τ) (st0_1 t) fullShare ((p1dat V c).after 1 t)
    ∗ owns (c : Thread nD τ) (st0_2 t) fullShare ((p1dat V c).after 2 t)
    ∗ owns (c : Thread nD τ) (st0_3 t) fullShare ((p1dat V c).after 3 t))

theorem p1_body (c : Dev nD) (t : Fin cfg0.N) :
    p1pre V c t ⊢ wp frame (wpE (defs₀ (F := F)) Variants.none c none) Set.univ (bodyAt0 t) (fun _ => p1post V c t) := by
  unfold p1pre p1post bodyAt0
  simp only [p1dat_before0, p1dat_before1, p1dat_before2]
  rw [show (p1dat V c).Φ t.succ = (p1dat V c).Φ t.castSucc from rfl,
    show (p1dat V c).owesAt () t.succ = (p1dat V c).owesAt () t.castSucc from rfl,
    p1dat_after0, p1dat_after1, p1dat_after2, p1dat_after3]
  iintro ⟨HΦ, Ho, ⟨%d0, H0⟩, ⟨%d1, H1⟩, ⟨%d2, H2⟩, ⟨%d3, H3⟩⟩
  iapply (p1_kernel c Set.univ _ _ _ _ _ _ _ _ _ (p1blk V c 0 t) (p1blk V c 1 t) (p1blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem p1_obligation (c : Dev nD) : BodyObligation (p1dat (F := F) V c) (defs₀ (F := F)) Variants.none () Set.univ := fun t => by
  rw [bigSep_W0, bigSep_W0]
  exact p1_body V c t

end

end Cert.Kernel.Hand

end
-- ==== Proof.K.Proj2.lean ====
import proofs.«139596_j14499809592003_1_alg».proof.Proof.Gen.Kernel.Launch
import proofs.«139596_j14499809592003_1_alg».proof.Proof.Gen.Kernel.Skeleton
import proofs.«139596_j14499809592003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second node projection: one tiled product `q · [W1; W2; W3]ᵀ + [b1; 0; b3]` of the second layer

Grid point `t` of 25 takes rows `2000 t … 2000 t + 1999` of the node features (a 2000 × 64 block), the whole 64 × 192
weight matrix and the 1 × 192 bias row, and writes rows `2000 t …` of the 50000 × 192 result. Everything is stated at a
PARAMETER `V`: what the core's buffers hold when the region is entered. -/

section
variable (V : (c : Dev nD) → (b : Ref sig .tc) → Buf (Elt F) ((c : Thread nD τ).loc b))

/-- Window `w`'s block at grid point `t`, cut out of the array the region finds. -/
def p2blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the features sits in its staging buffer at every point: it is fetched at each. -/
theorem p2_before_x {c : Dev nD} (dat : Dat τ (Elt F) Unit ℕ (UR sig nD τ) ℕ cfg1 c) (hA : dat.A 0 = V c (Pipeline.arrRef spec1 0))
    (hafter : ∀ t, dat.after 0 t = p2blk V c 0 t) (t : Fin cfg1.N) (d) : dat.before 0 t d = p2blk V c 0 t :=
  (dat.before_in_eq_fetched 0 rfl (fun _ => rfl) (fun _ _ _ => rfl) (fun t => by rw [hafter]; unfold Dat.blockOf p2blk; rw [hA]; try rfl) t d).trans
    (by unfold Dat.fetched Dat.blockOf p2blk; rw [hA]; try rfl)

/-- The weight matrix is fetched once; its block index never moves, so the buffer holds it at every point. -/
theorem p2_before_w {c : Dev nD} (dat : Dat τ (Elt F) Unit ℕ (UR sig nD τ) ℕ cfg1 c) (hA : dat.A 1 = V c (Pipeline.arrRef spec1 1))
    (hafter : ∀ t, dat.after 1 t = p2blk V c 1 t) (t : Fin cfg1.N) (d) : dat.before 1 t d = p2blk V c 1 t :=
  (dat.before_in_eq_fetched 1 rfl (fun _ => rfl) (fun _ _ _ => rfl) (fun t => by rw [hafter]; unfold Dat.blockOf p2blk; rw [hA]; try rfl) t d).trans
    (by unfold Dat.fetched Dat.blockOf p2blk; rw [hA]; try rfl)

/-- The same of the bias row. -/
theorem p2_before_b {c : Dev nD} (dat : Dat τ (Elt F) Unit ℕ (UR sig nD τ) ℕ cfg1 c) (hA : dat.A 2 = V c (Pipeline.arrRef spec1 2))
    (hafter : ∀ t, dat.after 2 t = p2blk V c 2 t) (t : Fin cfg1.N) (d) : dat.before 2 t d = p2blk V c 2 t :=
  (dat.before_in_eq_fetched 2 rfl (fun _ => rfl) (fun _ _ _ => rfl) (fun t => by rw [hafter]; unfold Dat.blockOf p2blk; rw [hA]; try rfl) t d).trans
    (by unfold Dat.fetched Dat.blockOf p2blk; rw [hA]; try rfl)

/-! ## The body: three whole loads, one whole store -/

abbrev p2rx : Rect S2000x64 := Rect.unit (s := S2000x64) ![0, 0] S2000x64.size inb_S2000x64_S2000x64_0_0
abbrev p2rw : Rect S64x192 := Rect.unit (s := S64x192) ![0, 0] S64x192.size inb_S64x192_S64x192_0_0
abbrev p2rb : Rect S1x192 := Rect.unit (s := S1x192) ![0, 0] S1x192.size inb_S1x192_S1x192_0_0
abbrev p2ro : Rect S2000x192 := Rect.unit (s := S2000x192) ![0, 0] S2000x192.size inb_S2000x192_S2000x192_0_0

/-- What the body leaves in the result's staging buffer: the product of the row block with the weights plus the
    bias row, stored over the whole buffer. -/
def p2out (x0 : Vec F S2000x64 .f32) (w0 : Vec F S64x192 .f32) (b0 : Vec F S1x192 .f32) : Vec F S2000x192 .f32 :=
  View.canon [⟨p2ro, k1_pay1 (View.ld x0 p2rx) (View.ld w0 p2rw) (View.ld b0 p2rb)⟩]

/-- The one store covers the buffer. -/
theorem p2cover (p0 : Vec F S2000x192 .f32) (y : S2000x192.Idx) :
    ∃ pc ∈ ([⟨p2ro, p0⟩] : List (View.Piece (Elt F) S2000x192 .f32)), y ∈ pc.1.set :=
  View.cover_of_tiled [⟨p2ro, p0⟩] S2000x192.size (by rfl) y

set_option maxHeartbeats 1000000 in
/-- The body on whole staging buffers: the three inputs keep their contents, the result's buffer ends at `p2out`. -/
theorem p2_kernel (c : Dev nD) (E : Set ℕ) (i : grid1.Coords)
    (arg1 : Memref sig .tc .vmem S2000x64 .f32) (harg1 : arg1.IsWhole) (arg2 : Memref sig .tc .vmem S64x192 .f32) (harg2 : arg2.IsWhole)
    (arg3 : Memref sig .tc .vmem S1x192 .f32) (harg3 : arg3.IsWhole) (arg4 : Memref sig .tc .vmem S2000x192 .f32) (harg4 : arg4.IsWhole)
    (x0 : Vec F S2000x64 .f32) (w0 : Vec F S64x192 .f32) (b0 : Vec F S1x192 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (p2out x0 w0 b0)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (p2cover _)

/-! ## The proof data of the pipeline -/

/-- Arrays as the region finds them; after the body each input buffer still holds its block and the result's holds
    `p2out` of the three blocks; the class-A invariant; nothing owed; full shares. -/
def p2dat (c : Dev nD) : Dat τ (Elt F) Unit ℕ (UR sig nD τ) ℕ cfg1 c where
  A w := V c (Pipeline.arrRef spec1 w)
  after w t := match w with
    | ⟨0, _⟩ => p2blk V c 0 t
    | ⟨1, _⟩ => p2blk V c 1 t
    | ⟨2, _⟩ => p2blk V c 2 t
    | ⟨3, _⟩ => p2out (p2blk V c 0 t) (p2blk V c 1 t) (p2blk V c 2 t)
  Φ _ := Pipeline.ΦA spec1 c
  q _ := fullShare
  owed _ := 0

theorem p2dat_A (c : Dev nD) (w : Fin cfg1.W) : (p2dat V c).A w = V c (Pipeline.arrRef spec1 w) := by
  dsimp only [p2dat]
theorem p2dat_after0 (c : Dev nD) (t : Fin cfg1.N) : (p2dat V c).after 0 t = p2blk V c 0 t := by dsimp only [p2dat]
theorem p2dat_after1 (c : Dev nD) (t : Fin cfg1.N) : (p2dat V c).after 1 t = p2blk V c 1 t := by dsimp only [p2dat]
theorem p2dat_after2 (c : Dev nD) (t : Fin cfg1.N) : (p2dat V c).after 2 t = p2blk V c 2 t := by dsimp only [p2dat]
theorem p2dat_after3 (c : Dev nD) (t : Fin cfg1.N) :
    (p2dat V c).after 3 t = p2out (p2blk V c 0 t) (p2blk V c 1 t) (p2blk V c 2 t) := by dsimp only [p2dat]

theorem p2dat_before0 (c : Dev nD) (t : Fin cfg1.N) (d) : (p2dat V c).before 0 t d = p2blk V c 0 t :=
  p2_before_x V (p2dat V c) (p2dat_A V c 0) (p2dat_after0 V c) t d
theorem p2dat_before1 (c : Dev nD) (t : Fin cfg1.N) (d) : (p2dat V c).before 1 t d = p2blk V c 1 t :=
  p2_before_w V (p2dat V c) (p2dat_A V c 1) (p2dat_after1 V c) t d
theorem p2dat_before2 (c : Dev nD) (t : Fin cfg1.N) (d) : (p2dat V c).before 2 t d = p2blk V c 2 t :=
  p2_before_b V (p2dat V c) (p2dat_A V c 2) (p2dat_after2 V c) t d

/-! ## The body obligation at a generic point -/

def p2pre (c : Dev nD) (t : Fin cfg1.N) : sProp 𝕄 :=
  iprop((p2dat V c).Φ t.castSucc ∗ (p2dat V c).owesAt () t.castSucc
    ∗ (∃ d, owns (c : Thread nD τ) (st1_0 t) fullShare ((p2dat V c).before 0 t d))
    ∗ (∃ d, owns (c : Thread nD τ) (st1_1 t) fullShare ((p2dat V c).before 1 t d))
    ∗ (∃ d, owns (c : Thread nD τ) (st1_2 t) fullShare ((p2dat V c).before 2 t d))
    ∗ (∃ d, owns (c : Thread nD τ) (st1_3 t) fullShare ((p2dat V c).before 3 t d)))

def p2post (c : Dev nD) (t : Fin cfg1.N) : sProp 𝕄 :=
  iprop((p2dat V c).Φ t.succ ∗ (p2dat V c).owesAt () t.succ
    ∗ owns (c : Thread nD τ) (st1_0 t) fullShare ((p2dat V c).after 0 t)
    ∗ owns (c : Thread nD τ) (st1_1 t) fullShare ((p2dat V c).after 1 t)
    ∗ owns (c : Thread nD τ) (st1_2 t) fullShare ((p2dat V c).after 2 t)
    ∗ owns (c : Thread nD τ) (st1_3 t) fullShare ((p2dat V c).after 3 t))

theorem p2_body (c : Dev nD) (t : Fin cfg1.N) :
    p2pre V c t ⊢ wp frame (wpE (defs₀ (F := F)) Variants.none c none) Set.univ (bodyAt1 t) (fun _ => p2post V c t) := by
  unfold p2pre p2post bodyAt1
  simp only [p2dat_before0, p2dat_before1, p2dat_before2]
  rw [show (p2dat V c).Φ t.succ = (p2dat V c).Φ t.castSucc from rfl,
    show (p2dat V c).owesAt () t.succ = (p2dat V c).owesAt () t.castSucc from rfl,
    p2dat_after0, p2dat_after1, p2dat_after2, p2dat_after3]
  iintro ⟨HΦ, Ho, ⟨%d0, H0⟩, ⟨%d1, H1⟩, ⟨%d2, H2⟩, ⟨%d3, H3⟩⟩
  iapply (p2_kernel c Set.univ _ _ _ _ _ _ _ _ _ (p2blk V c 0 t) (p2blk V c 1 t) (p2blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem p2_obligation (c : Dev nD) : BodyObligation (p2dat (F := F) V c) (defs₀ (F := F)) Variants.none () Set.univ := fun t => by
  rw [bigSep_W1, bigSep_W1]
  exact p2_body V c t

end

end Cert.Kernel.Hand

end
-- ==== Proof.K.Emlp.lean ====
import proofs.«139596_j14499809592003_1_alg».proof.Proof.Gen.Kernel.Launch
import proofs.«139596_j14499809592003_1_alg».proof.Proof.Gen.Kernel.Skeleton
import proofs.«139596_j14499809592003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge network: `relu(e · W1ᵀ + b1) · W2ᵀ + b2` over blocks of 3200 edges

Grid point `t` of 250 takes rows `3200 t …` of the 800000 × 128 edge representation, both weight matrices and both
bias rows whole, and writes rows `3200 t …` of the 800000 × 4 result; the 3200 × 256 hidden activation lives only
inside the body. Everything is stated at a PARAMETER `V`: what the core's buffers hold when the region is entered. -/

section
variable (V : (c : Dev nD) → (b : Ref sig .tc) → Buf (Elt F) ((c : Thread nD τ).loc b))

/-- Window `w`'s block at grid point `t`, cut out of the array the region finds. -/
def emblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block is fetched at every point. -/
theorem em_before_e {c : Dev nD} (dat : Dat τ (Elt F) Unit ℕ (UR sig nD τ) ℕ cfg2 c) (hA : dat.A 0 = V c (Pipeline.arrRef spec2 0))
    (hafter : ∀ t, dat.after 0 t = emblk V c 0 t) (t : Fin cfg2.N) (d) : dat.before 0 t d = emblk V c 0 t :=
  (dat.before_in_eq_fetched 0 rfl (fun _ => rfl) (fun _ _ _ => rfl) (fun t => by rw [hafter]; unfold Dat.blockOf emblk; rw [hA]; try rfl) t d).trans
    (by unfold Dat.fetched Dat.blockOf emblk; rw [hA]; try rfl)

/-- The four parameter arrays are fetched once and their block index never moves: each buffer holds its array at
    every point. -/
theorem em_before_w1 {c : Dev nD} (dat : Dat τ (Elt F) Unit ℕ (UR sig nD τ) ℕ cfg2 c) (hA : dat.A 1 = V c (Pipeline.arrRef spec2 1))
    (hafter : ∀ t, dat.after 1 t = emblk V c 1 t) (t : Fin cfg2.N) (d) : dat.before 1 t d = emblk V c 1 t :=
  (dat.before_in_eq_fetched 1 rfl (fun _ => rfl) (fun _ _ _ => rfl) (fun t => by rw [hafter]; unfold Dat.blockOf emblk; rw [hA]; try rfl) t d).trans
    (by unfold Dat.fetched Dat.blockOf emblk; rw [hA]; try rfl)
theorem em_before_b1 {c : Dev nD} (dat : Dat τ (Elt F) Unit ℕ (UR sig nD τ) ℕ cfg2 c) (hA : dat.A 2 = V c (Pipeline.arrRef spec2 2))
    (hafter : ∀ t, dat.after 2 t = emblk V c 2 t) (t : Fin cfg2.N) (d) : dat.before 2 t d = emblk V c 2 t :=
  (dat.before_in_eq_fetched 2 rfl (fun _ => rfl) (fun _ _ _ => rfl) (fun t => by rw [hafter]; unfold Dat.blockOf emblk; rw [hA]; try rfl) t d).trans
    (by unfold Dat.fetched Dat.blockOf emblk; rw [hA]; try rfl)
theorem em_before_w2 {c : Dev nD} (dat : Dat τ (Elt F) Unit ℕ (UR sig nD τ) ℕ cfg2 c) (hA : dat.A 3 = V c (Pipeline.arrRef spec2 3))
    (hafter : ∀ t, dat.after 3 t = emblk V c 3 t) (t : Fin cfg2.N) (d) : dat.before 3 t d = emblk V c 3 t :=
  (dat.before_in_eq_fetched 3 rfl (fun _ => rfl) (fun _ _ _ => rfl) (fun t => by rw [hafter]; unfold Dat.blockOf emblk; rw [hA]; try rfl) t d).trans
    (by unfold Dat.fetched Dat.blockOf emblk; rw [hA]; try rfl)
theorem em_before_b2 {c : Dev nD} (dat : Dat τ (Elt F) Unit ℕ (UR sig nD τ) ℕ cfg2 c) (hA : dat.A 4 = V c (Pipeline.arrRef spec2 4))
    (hafter : ∀ t, dat.after 4 t = emblk V c 4 t) (t : Fin cfg2.N) (d) : dat.before 4 t d = emblk V c 4 t :=
  (dat.before_in_eq_fetched 4 rfl (fun _ => rfl) (fun _ _ _ => rfl) (fun t => by rw [hafter]; unfold Dat.blockOf emblk; rw [hA]; try rfl) t d).trans
    (by unfold Dat.fetched Dat.blockOf emblk; rw [hA]; try rfl)

/-! ## The body: five whole loads, one whole store -/

abbrev emre : Rect S3200x128 := Rect.unit (s := S3200x128) ![0, 0] S3200x128.size inb_S3200x128_S3200x128_0_0
abbrev emrw1 : Rect S128x256 := Rect.unit (s := S128x256) ![0, 0] S128x256.size inb_S128x256_S128x256_0_0
abbrev emrb1 : Rect S1x256 := Rect.unit (s := S1x256) ![0, 0] S1x256.size inb_S1x256_S1x256_0_0
abbrev emrw2 : Rect S256x4 := Rect.unit (s := S256x4) ![0, 0] S256x4.size inb_S256x4_S256x4_0_0
abbrev emrb2 : Rect S1x4 := Rect.unit (s := S1x4) ![0, 0] S1x4.size inb_S1x4_S1x4_0_0
abbrev emro : Rect S3200x4 := Rect.unit (s := S3200x4) ![0, 0] S3200x4.size inb_S3200x4_S3200x4_0_0

/-- What the body leaves in the result's staging buffer: the two-layer network of the edge block, stored over the
    whole buffer. -/
def emout (e0 : Vec F S3200x128 .f32) (w1 : Vec F S128x256 .f32) (b1 : Vec F S1x256 .f32) (w2 : Vec F S256x4 .f32) (b2 : Vec F S1x4 .f32) :
    Vec F S3200x4 .f32 :=
  View.canon [⟨emro, k2_pay1 (View.ld e0 emre) (View.ld w1 emrw1) (View.ld b1 emrb1) (View.ld w2 emrw2) (View.ld b2 emrb2)⟩]

/-- The one store covers the buffer. -/
theorem emcover (p0 : Vec F S3200x4 .f32) (y : S3200x4.Idx) :
    ∃ pc ∈ ([⟨emro, p0⟩] : List (View.Piece (Elt F) S3200x4 .f32)), y ∈ pc.1.set :=
  View.cover_of_tiled [⟨emro, p0⟩] S3200x4.size (by rfl) y

set_option maxHeartbeats 1000000 in
/-- The body on whole staging buffers: the five inputs keep their contents, the result's buffer ends at `emout`. -/
theorem em_kernel (c : Dev nD) (E : Set ℕ) (i : grid2.Coords)
    (arg1 : Memref sig .tc .vmem S3200x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x4 .f32) (harg4 : arg4.IsWhole)
    (arg5 : Memref sig .tc .vmem S1x4 .f32) (harg5 : arg5.IsWhole) (arg6 : Memref sig .tc .vmem S3200x4 .f32) (harg6 : arg6.IsWhole)
    (e0 : Vec F S3200x128 .f32) (w1 : Vec F S128x256 .f32) (b1 : Vec F S1x256 .f32) (w2 : Vec F S256x4 .f32) (b2 : Vec F S1x4 .f32)
    (K : PUnit → sProp 𝕄) :
    iprop(owns (c : Thread nD τ) arg1 fullShare e0 ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d)
        ∗ (iprop(owns (c : Thread nD τ) arg1 fullShare e0 ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (emout e0 w1 b1 w2 b2)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (emcover _)

/-! ## The proof data of the pipeline -/

/-- Arrays as the region finds them; after the body each input buffer still holds its block and the result's holds
    `emout` of the five blocks; the class-A invariant; nothing owed; full shares. -/
def emdat (c : Dev nD) : Dat τ (Elt F) Unit ℕ (UR sig nD τ) ℕ cfg2 c where
  A w := V c (Pipeline.arrRef spec2 w)
  after w t := match w with
    | ⟨0, _⟩ => emblk V c 0 t
    | ⟨1, _⟩ => emblk V c 1 t
    | ⟨2, _⟩ => emblk V c 2 t
    | ⟨3, _⟩ => emblk V c 3 t
    | ⟨4, _⟩ => emblk V c 4 t
    | ⟨5, _⟩ => emout (emblk V c 0 t) (emblk V c 1 t) (emblk V c 2 t) (emblk V c 3 t) (emblk V c 4 t)
  Φ _ := Pipeline.ΦA spec2 c
  q _ := fullShare
  owed _ := 0

theorem emdat_A (c : Dev nD) (w : Fin cfg2.W) : (emdat V c).A w = V c (Pipeline.arrRef spec2 w) := by
  dsimp only [emdat]
theorem emdat_after0 (c : Dev nD) (t : Fin cfg2.N) : (emdat V c).after 0 t = emblk V c 0 t := by dsimp only [emdat]
theorem emdat_after1 (c : Dev nD) (t : Fin cfg2.N) : (emdat V c).after 1 t = emblk V c 1 t := by dsimp only [emdat]
theorem emdat_after2 (c : Dev nD) (t : Fin cfg2.N) : (emdat V c).after 2 t = emblk V c 2 t := by dsimp only [emdat]
theorem emdat_after3 (c : Dev nD) (t : Fin cfg2.N) : (emdat V c).after 3 t = emblk V c 3 t := by dsimp only [emdat]
theorem emdat_after4 (c : Dev nD) (t : Fin cfg2.N) : (emdat V c).after 4 t = emblk V c 4 t := by dsimp only [emdat]
theorem emdat_after5 (c : Dev nD) (t : Fin cfg2.N) :
    (emdat V c).after 5 t = emout (emblk V c 0 t) (emblk V c 1 t) (emblk V c 2 t) (emblk V c 3 t) (emblk V c 4 t) := by dsimp only [emdat]

theorem emdat_before0 (c : Dev nD) (t : Fin cfg2.N) (d) : (emdat V c).before 0 t d = emblk V c 0 t :=
  em_before_e V (emdat V c) (emdat_A V c 0) (emdat_after0 V c) t d
theorem emdat_before1 (c : Dev nD) (t : Fin cfg2.N) (d) : (emdat V c).before 1 t d = emblk V c 1 t :=
  em_before_w1 V (emdat V c) (emdat_A V c 1) (emdat_after1 V c) t d
theorem emdat_before2 (c : Dev nD) (t : Fin cfg2.N) (d) : (emdat V c).before 2 t d = emblk V c 2 t :=
  em_before_b1 V (emdat V c) (emdat_A V c 2) (emdat_after2 V c) t d
theorem emdat_before3 (c : Dev nD) (t : Fin cfg2.N) (d) : (emdat V c).before 3 t d = emblk V c 3 t :=
  em_before_w2 V (emdat V c) (emdat_A V c 3) (emdat_after3 V c) t d
theorem emdat_before4 (c : Dev nD) (t : Fin cfg2.N) (d) : (emdat V c).before 4 t d = emblk V c 4 t :=
  em_before_b2 V (emdat V c) (emdat_A V c 4) (emdat_after4 V c) t d

/-! ## The body obligation at a generic point -/

def empre (c : Dev nD) (t : Fin cfg2.N) : sProp 𝕄 :=
  iprop((emdat V c).Φ t.castSucc ∗ (emdat V c).owesAt () t.castSucc
    ∗ (∃ d, owns (c : Thread nD τ) (st2_0 t) fullShare ((emdat V c).before 0 t d))
    ∗ (∃ d, owns (c : Thread nD τ) (st2_1 t) fullShare ((emdat V c).before 1 t d))
    ∗ (∃ d, owns (c : Thread nD τ) (st2_2 t) fullShare ((emdat V c).before 2 t d))
    ∗ (∃ d, owns (c : Thread nD τ) (st2_3 t) fullShare ((emdat V c).before 3 t d))
    ∗ (∃ d, owns (c : Thread nD τ) (st2_4 t) fullShare ((emdat V c).before 4 t d))
    ∗ (∃ d, owns (c : Thread nD τ) (st2_5 t) fullShare ((emdat V c).before 5 t d)))

def empost (c : Dev nD) (t : Fin cfg2.N) : sProp 𝕄 :=
  iprop((emdat V c).Φ t.succ ∗ (emdat V c).owesAt () t.succ
    ∗ owns (c : Thread nD τ) (st2_0 t) fullShare ((emdat V c).after 0 t)
    ∗ owns (c : Thread nD τ) (st2_1 t) fullShare ((emdat V c).after 1 t)
    ∗ owns (c : Thread nD τ) (st2_2 t) fullShare ((emdat V c).after 2 t)
    ∗ owns (c : Thread nD τ) (st2_3 t) fullShare ((emdat V c).after 3 t)
    ∗ owns (c : Thread nD τ) (st2_4 t) fullShare ((emdat V c).after 4 t)
    ∗ owns (c : Thread nD τ) (st2_5 t) fullShare ((emdat V c).after 5 t))

theorem em_body (c : Dev nD) (t : Fin cfg2.N) :
    empre V c t ⊢ wp frame (wpE (defs₀ (F := F)) Variants.none c none) Set.univ (bodyAt2 t) (fun _ => empost V c t) := by
  unfold empre empost bodyAt2
  simp only [emdat_before0, emdat_before1, emdat_before2, emdat_before3, emdat_before4]
  rw [show (emdat V c).Φ t.succ = (emdat V c).Φ t.castSucc from rfl,
    show (emdat V c).owesAt () t.succ = (emdat V c).owesAt () t.castSucc from rfl,
    emdat_after0, emdat_after1, emdat_after2, emdat_after3, emdat_after4, emdat_after5]
  iintro ⟨HΦ, Ho, ⟨%d0, H0⟩, ⟨%d1, H1⟩, ⟨%d2, H2⟩, ⟨%d3, H3⟩, ⟨%d4, H4⟩, ⟨%d5, H5⟩⟩
  iapply (em_kernel c Set.univ _ _ _ _ _ _ _ _ _ _ _ _ _ (emblk V c 0 t) (emblk V c 1 t) (emblk V c 2 t) (emblk V c 3 t) (emblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem em_obligation (c : Dev nD) : BodyObligation (emdat (F := F) V c) (defs₀ (F := F)) Variants.none () Set.univ := fun t => by
  rw [bigSep_W2, bigSep_W2]
  exact em_body V c t

end

end Cert.Kernel.Hand

end
-- ==== Proof.K.Run.lean ====
import proofs.«139596_j14499809592003_1_alg».proof.Proof.Gen.Kernel.Launch
import proofs.«139596_j14499809592003_1_alg».proof.Proof.Gen.Kernel.Skeleton
import proofs.«139596_j14499809592003_1_alg».proof.Proof.Gen.Kernel.Points
import proofs.«139596_j14499809592003_1_alg».proof.Proof.Gen.Kernel.Regions
import proofs.«139596_j14499809592003_1_alg».proof.Proof.K.Proj1
import proofs.«139596_j14499809592003_1_alg».proof.Proof.K.Proj2
import proofs.«139596_j14499809592003_1_alg».proof.Proof.K.Emlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main: three host stretches and three pipelines, every buffer named at the end

The contents of the core's unscoped buffers are followed from the launch memory through @main: a host stretch applies
its operations (`StableHlo.after`), a pipeline replaces its arrays by what its write-backs leave and keeps the rest.
The run theorem `run_all` says that every weakly fair execution terminates with every unscoped buffer at the last
valuation `W6`; the frame claim (arguments unchanged) and the value of the result are both read off it. -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (edge endpoints split; the stacked weights and bias of layer one). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first projection: its arrays at what the pipeline leaves (inputs as entered, the result's write-backs folded),
    every other buffer as entered. -/
def W2 (c : Dev nD) : Valuation τ sig (Elt F) :=
  Pipeline.withArrays spec0 c (W1 m ρ c) fun w => (p1dat (V1 m ρ) c).arrAt w cfg0.N
theorem W2_arr (c : Dev nD) (w : Fin cfg0.W) :
    W2 m ρ c (Proc.devRef .tc (Pipeline.arrRef spec0 w)) = (p1dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem W2_left (c : Dev nD) (w : Fin cfg0.W) : (p1dat (V1 m ρ) c).arrAt w cfg0.N = V2 m ρ c (Pipeline.arrRef spec0 w) :=
  (W2_arr m ρ c w).symm
theorem W2_kept (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (messages, aggregation, layer one's output; layer two's stacked weights). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After the second projection: its arrays at what the pipeline leaves (inputs as entered, the result's write-backs folded),
    every other buffer as entered. -/
def W4 (c : Dev nD) : Valuation τ sig (Elt F) :=
  Pipeline.withArrays spec1 c (W3 m ρ c) fun w => (p2dat (V3 m ρ) c).arrAt w cfg1.N
theorem W4_arr (c : Dev nD) (w : Fin cfg1.W) :
    W4 m ρ c (Proc.devRef .tc (Pipeline.arrRef spec1 w)) = (p2dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem W4_left (c : Dev nD) (w : Fin cfg1.W) : (p2dat (V3 m ρ) c).arrAt w cfg1.N = V4 m ρ c (Pipeline.arrRef spec1 w) :=
  (W4_arr m ρ c w).symm
theorem W4_kept (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer two's output gathered at both endpoints of every edge; the network's
    transposed weights). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After the edge network: its arrays at what the pipeline leaves (inputs as entered, the result's write-backs folded),
    every other buffer as entered. -/
def W6 (c : Dev nD) : Valuation τ sig (Elt F) :=
  Pipeline.withArrays spec2 c (W5 m ρ c) fun w => (emdat (V5 m ρ) c).arrAt w cfg2.N
theorem W6_arr (c : Dev nD) (w : Fin cfg2.W) :
    W6 m ρ c (Proc.devRef .tc (Pipeline.arrRef spec2 w)) = (emdat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem W6_left (c : Dev nD) (w : Fin cfg2.W) : (emdat (V5 m ρ) c).arrAt w cfg2.N = V6 m ρ c (Pipeline.arrRef spec2 w) :=
  (W6_arr m ρ c w).symm
theorem W6_kept (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer nothing writes ends as launched -/

/-- A reference no host stretch writes and no pipeline has as an array (region 0 may have it as an INPUT: `h2`)
    reads, in the last valuation, what the launch memory holds. -/
theorem W6_launch (c : Dev nD) (b : Ref sig .tc) (h0 : b ∉ hostOps0_W) (h1 : b ∉ hostOps1_W) (h2 : b ∉ hostOps2_W)
    (hp1 : W2 m ρ c (Proc.devRef .tc b) = W1 m ρ c (Proc.devRef .tc b))
    (hp2 : ∀ w, Pipeline.arrRef spec1 w ≠ b) (hem : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b hem
    _ = W4 m ρ c (Proc.devRef .tc b) := StableHlo.after_of_writes_sub hostOps2 _ hostOps2_writes h2
    _ = W3 m ρ c (Proc.devRef .tc b) := W4_of_ne m ρ c b hp2
    _ = W2 m ρ c (Proc.devRef .tc b) := StableHlo.after_of_writes_sub hostOps1 _ hostOps1_writes h1
    _ = W1 m ρ c (Proc.devRef .tc b) := hp1
    _ = W0 m ρ c (Proc.devRef .tc b) := StableHlo.after_of_writes_sub hostOps0 _ hostOps0_writes h0
    _ = m ((c : Thread nD τ).loc b) := rfl

/-- The node features are the first projection's input array: the pipeline hands an input back as it found it. -/
theorem W2_features (c : Dev nD) : W2 m ρ c (Proc.devRef .tc main_arg0) = W1 m ρ c (Proc.devRef .tc main_arg0) :=
  (W2_arr m ρ c 0).trans (((p1dat (V1 m ρ) c).arrAt_in 0 rfl _).trans (p1dat_A (V1 m ρ) c 0))

theorem W6_main_arg0 (c : Dev nD) : W6 m ρ c (Proc.devRef .tc main_arg0) = m ((c : Thread nD τ).loc main_arg0) :=
  W6_launch m ρ c main_arg0 (by decide) (by decide) (by decide) (W2_features m ρ c) (by decide) (by decide)
theorem W6_main_arg1 (c : Dev nD) : W6 m ρ c (Proc.devRef .tc main_arg1) = m ((c : Thread nD τ).loc main_arg1) :=
  W6_launch m ρ c main_arg1 (by decide) (by decide) (by decide) (W2_of_ne m ρ c main_arg1 (by decide)) (by decide) (by decide)
theorem W6_main_arg2 (c : Dev nD) : W6 m ρ c (Proc.devRef .tc main_arg2) = m ((c : Thread nD τ).loc main_arg2) :=
  W6_launch m ρ c main_arg2 (by decide) (by decide) (by decide) (W2_of_ne m ρ c main_arg2 (by decide)) (by decide) (by decide)
theorem W6_main_arg3 (c : Dev nD) : W6 m ρ c (Proc.devRef .tc main_arg3) = m ((c : Thread nD τ).loc main_arg3) :=
  W6_launch m ρ c main_arg3 (by decide) (by decide) (by decide) (W2_of_ne m ρ c main_arg3 (by decide)) (by decide) (by decide)
theorem W6_main_arg4 (c : Dev nD) : W6 m ρ c (Proc.devRef .tc main_arg4) = m ((c : Thread nD τ).loc main_arg4) :=
  W6_launch m ρ c main_arg4 (by decide) (by decide) (by decide) (W2_of_ne m ρ c main_arg4 (by decide)) (by decide) (by decide)
theorem W6_main_arg5 (c : Dev nD) : W6 m ρ c (Proc.devRef .tc main_arg5) = m ((c : Thread nD τ).loc main_arg5) :=
  W6_launch m ρ c main_arg5 (by decide) (by decide) (by decide) (W2_of_ne m ρ c main_arg5 (by decide)) (by decide) (by decide)
theorem W6_main_arg6 (c : Dev nD) : W6 m ρ c (Proc.devRef .tc main_arg6) = m ((c : Thread nD τ).loc main_arg6) :=
  W6_launch m ρ c main_arg6 (by decide) (by decide) (by decide) (W2_of_ne m ρ c main_arg6 (by decide)) (by decide) (by decide)
theorem W6_main_arg7 (c : Dev nD) : W6 m ρ c (Proc.devRef .tc main_arg7) = m ((c : Thread nD τ).loc main_arg7) :=
  W6_launch m ρ c main_arg7 (by decide) (by decide) (by decide) (W2_of_ne m ρ c main_arg7 (by decide)) (by decide) (by decide)
theorem W6_main_arg8 (c : Dev nD) : W6 m ρ c (Proc.devRef .tc main_arg8) = m ((c : Thread nD τ).loc main_arg8) :=
  W6_launch m ρ c main_arg8 (by decide) (by decide) (by decide) (W2_of_ne m ρ c main_arg8 (by decide)) (by decide) (by decide)
theorem W6_main_arg9 (c : Dev nD) : W6 m ρ c (Proc.devRef .tc main_arg9) = m ((c : Thread nD τ).loc main_arg9) :=
  W6_launch m ρ c main_arg9 (by decide) (by decide) (by decide) (W2_of_ne m ρ c main_arg9 (by decide)) (by decide) (by decide)
theorem W6_main_arg10 (c : Dev nD) : W6 m ρ c (Proc.devRef .tc main_arg10) = m ((c : Thread nD τ).loc main_arg10) :=
  W6_launch m ρ c main_arg10 (by decide) (by decide) (by decide) (W2_of_ne m ρ c main_arg10 (by decide)) (by decide) (by decide)
theorem W6_main_arg11 (c : Dev nD) : W6 m ρ c (Proc.devRef .tc main_arg11) = m ((c : Thread nD τ).loc main_arg11) :=
  W6_launch m ρ c main_arg11 (by decide) (by decide) (by decide) (W2_of_ne m ρ c main_arg11 (by decide)) (by decide) (by decide)
theorem W6_main_arg12 (c : Dev nD) : W6 m ρ c (Proc.devRef .tc main_arg12) = m ((c : Thread nD τ).loc main_arg12) :=
  W6_launch m ρ c main_arg12 (by decide) (by decide) (by decide) (W2_of_ne m ρ c main_arg12 (by decide)) (by decide) (by decide)
theorem W6_main_arg13 (c : Dev nD) : W6 m ρ c (Proc.devRef .tc main_arg13) = m ((c : Thread nD τ).loc main_arg13) :=
  W6_launch m ρ c main_arg13 (by decide) (by decide) (by decide) (W2_of_ne m ρ c main_arg13 (by decide)) (by decide) (by decide)
theorem W6_main_arg14 (c : Dev nD) : W6 m ρ c (Proc.devRef .tc main_arg14) = m ((c : Thread nD τ).loc main_arg14) :=
  W6_launch m ρ c main_arg14 (by decide) (by decide) (by decide) (W2_of_ne m ρ c main_arg14 (by decide)) (by decide) (by decide)
theorem W6_main_arg15 (c : Dev nD) : W6 m ρ c (Proc.devRef .tc main_arg15) = m ((c : Thread nD τ).loc main_arg15) :=
  W6_launch m ρ c main_arg15 (by decide) (by decide) (by decide) (W2_of_ne m ρ c main_arg15 (by decide)) (by decide) (by decide)
theorem W6_main_arg16 (c : Dev nD) : W6 m ρ c (Proc.devRef .tc main_arg16) = m ((c : Thread nD τ).loc main_arg16) :=
  W6_launch m ρ c main_arg16 (by decide) (by decide) (by decide) (W2_of_ne m ρ c main_arg16 (by decide)) (by decide) (by decide)
theorem W6_main_arg17 (c : Dev nD) : W6 m ρ c (Proc.devRef .tc main_arg17) = m ((c : Thread nD τ).loc main_arg17) :=
  W6_launch m ρ c main_arg17 (by decide) (by decide) (by decide) (W2_of_ne m ρ c main_arg17 (by decide)) (by decide) (by decide)
theorem W6_main_arg18 (c : Dev nD) : W6 m ρ c (Proc.devRef .tc main_arg18) = m ((c : Thread nD τ).loc main_arg18) :=
  W6_launch m ρ c main_arg18 (by decide) (by decide) (by decide) (W2_of_ne m ρ c main_arg18 (by decide)) (by decide) (by decide)
theorem W6_main_arg19 (c : Dev nD) : W6 m ρ c (Proc.devRef .tc main_arg19) = m ((c : Thread nD τ).loc main_arg19) :=
  W6_launch m ρ c main_arg19 (by decide) (by decide) (by decide) (W2_of_ne m ρ c main_arg19 (by decide)) (by decide) (by decide)
theorem W6_main_arg20 (c : Dev nD) : W6 m ρ c (Proc.devRef .tc main_arg20) = m ((c : Thread nD τ).loc main_arg20) :=
  W6_launch m ρ c main_arg20 (by decide) (by decide) (by decide) (W2_of_ne m ρ c main_arg20 (by decide)) (by decide) (by decide)

/-! ## The proof data family and what rides along -/

/-- No pipeline has a prefetched table. -/
abbrev adm : (p : Fin 3) → (pcfgs (F := F) p).Adm := fun p => (cfgs p).toPCfg_adm
/-- Each pipeline's proof data at its region's entry contents (a literal match, so that the pinned configuration at a
    numeral reduces to the printed one). -/
def pdats : (p : Fin 3) → (c : Dev nD) → Dat τ (Elt F) Unit ℕ (UR sig nD τ) ℕ (Pipeline.pin (pcfgs (F := F)) adm p) c
  | ⟨0, _⟩ => fun c => p1dat (V1 m ρ) c
  | ⟨1, _⟩ => fun c => p2dat (V3 m ρ) c
  | ⟨2, _⟩ => fun c => emdat (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers every segment carries the generator register at some state and the core's `owes` at nothing. -/
abbrev Rest (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tend (c : Dev nD) : sProp 𝕄 := iprop(StableHlo.held (c : Thread nD τ) (Pipeline.ucRefs τ sig) (W6 m ρ c) ∗ ∃ r, prngReg c r)

/-! ## The pipelines as segments -/

-- a library lemma stated over the pinned configuration unifies with the printed one only when unification may
-- unfold plain definitions in a metavariable's type
set_option backward.isDefEq.respectTransparency.types false in
/-- The first projection as a segment: entered with every unscoped buffer at `W1`, left with them at `W2`. Its arrays
    are split out of the unscoped buffers and put back at what the write-backs leave; the generator register goes
    into the class-A invariant and comes back; nothing is owed; the body names no semaphore. -/
def seg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (p1_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (W2_left m ρ c) (W2_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The second projection as a segment: entered with every unscoped buffer at `W3`, left with them at `W4`. Its arrays
    are split out of the unscoped buffers and put back at what the write-backs leave; the generator register goes
    into the class-A invariant and comes back; nothing is owed; the body names no semaphore. -/
def seg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (p2_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (W4_left m ρ c) (W4_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The edge network as a segment: entered with every unscoped buffer at `W5`, left with them at `W6`. Its arrays
    are split out of the unscoped buffers and put back at what the write-backs leave; the generator register goes
    into the class-A invariant and comes back; nothing is owed; the body names no semaphore. -/
def seg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (em_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (W6_left m ρ c) (W6_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (seg0 m ρ),
    .host (hseg hostOps1 hostOps1_sub hostOps1_fresh (W2 m ρ)),
    .region (seg1 m ρ),
    .host (hseg hostOps2 hostOps2_sub hostOps2_fresh (W4 m ρ)),
    .region (seg2 m ρ) ]

set_option backward.isDefEq.respectTransparency.types false in
/-- From any memory with zero counters every weakly fair execution of @main terminates, nothing faulting, and the
    final memory holds every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame claim at any float instance: the run ends and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c),
    (h c _ (mem_uc main_arg14 (by decide))).trans (W6_main_arg14 m ρ c),
    (h c _ (mem_uc main_arg15 (by decide))).trans (W6_main_arg15 m ρ c),
    (h c _ (mem_uc main_arg16 (by decide))).trans (W6_main_arg16 m ρ c),
    (h c _ (mem_uc main_arg17 (by decide))).trans (W6_main_arg17 m ρ c),
    (h c _ (mem_uc main_arg18 (by decide))).trans (W6_main_arg18 m ρ c),
    (h c _ (mem_uc main_arg19 (by decide))).trans (W6_main_arg19 m ρ c),
    (h c _ (mem_uc main_arg20 (by decide))).trans (W6_main_arg20 m ρ c)⟩) (run_all m ρ)

end Cert.Kernel.Hand

end
-- ==== Proof.KI.Proj1.lean ====
import proofs.«139596_j14499809592003_1_alg».proof.Proof.Gen.KernelIdeal.Launch
import proofs.«139596_j14499809592003_1_alg».proof.Proof.Gen.KernelIdeal.Skeleton
import proofs.«139596_j14499809592003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first node projection: one tiled product `x · [W1; W2; W3]ᵀ + [b1; 0; b3]`

Grid point `t` of 25 takes rows `2000 t … 2000 t + 1999` of the node features (a 2000 × 4 block), the whole 4 × 192
weight matrix and the 1 × 192 bias row, and writes rows `2000 t …` of the 50000 × 192 result. Everything is stated at a
PARAMETER `V`: what the core's buffers hold when the region is entered. -/

section
variable (V : (c : Dev nD) → (b : Ref sig .tc) → Buf (Elt F) ((c : Thread nD τ).loc b))

/-- Window `w`'s block at grid point `t`, cut out of the array the region finds. -/
def p1blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features sits in its staging buffer at every point: it is fetched at each. -/
theorem p1_before_x {c : Dev nD} (dat : Dat τ (Elt F) Unit ℕ (UR sig nD τ) ℕ cfg0 c) (hA : dat.A 0 = V c (Pipeline.arrRef spec0 0))
    (hafter : ∀ t, dat.after 0 t = p1blk V c 0 t) (t : Fin cfg0.N) (d) : dat.before 0 t d = p1blk V c 0 t :=
  (dat.before_in_eq_fetched 0 rfl (fun _ => rfl) (fun _ _ _ => rfl) (fun t => by rw [hafter]; unfold Dat.blockOf p1blk; rw [hA]; try rfl) t d).trans
    (by unfold Dat.fetched Dat.blockOf p1blk; rw [hA]; try rfl)

/-- The weight matrix is fetched once; its block index never moves, so the buffer holds it at every point. -/
theorem p1_before_w {c : Dev nD} (dat : Dat τ (Elt F) Unit ℕ (UR sig nD τ) ℕ cfg0 c) (hA : dat.A 1 = V c (Pipeline.arrRef spec0 1))
    (hafter : ∀ t, dat.after 1 t = p1blk V c 1 t) (t : Fin cfg0.N) (d) : dat.before 1 t d = p1blk V c 1 t :=
  (dat.before_in_eq_fetched 1 rfl (fun _ => rfl) (fun _ _ _ => rfl) (fun t => by rw [hafter]; unfold Dat.blockOf p1blk; rw [hA]; try rfl) t d).trans
    (by unfold Dat.fetched Dat.blockOf p1blk; rw [hA]; try rfl)

/-- The same of the bias row. -/
theorem p1_before_b {c : Dev nD} (dat : Dat τ (Elt F) Unit ℕ (UR sig nD τ) ℕ cfg0 c) (hA : dat.A 2 = V c (Pipeline.arrRef spec0 2))
    (hafter : ∀ t, dat.after 2 t = p1blk V c 2 t) (t : Fin cfg0.N) (d) : dat.before 2 t d = p1blk V c 2 t :=
  (dat.before_in_eq_fetched 2 rfl (fun _ => rfl) (fun _ _ _ => rfl) (fun t => by rw [hafter]; unfold Dat.blockOf p1blk; rw [hA]; try rfl) t d).trans
    (by unfold Dat.fetched Dat.blockOf p1blk; rw [hA]; try rfl)

/-! ## The body: three whole loads, one whole store -/

abbrev p1rx : Rect S2000x4 := Rect.unit (s := S2000x4) ![0, 0] S2000x4.size inb_S2000x4_S2000x4_0_0
abbrev p1rw : Rect S4x192 := Rect.unit (s := S4x192) ![0, 0] S4x192.size inb_S4x192_S4x192_0_0
abbrev p1rb : Rect S1x192 := Rect.unit (s := S1x192) ![0, 0] S1x192.size inb_S1x192_S1x192_0_0
abbrev p1ro : Rect S2000x192 := Rect.unit (s := S2000x192) ![0, 0] S2000x192.size inb_S2000x192_S2000x192_0_0

/-- What the body leaves in the result's staging buffer: the product of the row block with the weights plus the
    bias row, stored over the whole buffer. -/
def p1out (x0 : Vec F S2000x4 .f32) (w0 : Vec F S4x192 .f32) (b0 : Vec F S1x192 .f32) : Vec F S2000x192 .f32 :=
  View.canon [⟨p1ro, k0_pay1 (View.ld x0 p1rx) (View.ld w0 p1rw) (View.ld b0 p1rb)⟩]

/-- The one store covers the buffer. -/
theorem p1cover (p0 : Vec F S2000x192 .f32) (y : S2000x192.Idx) :
    ∃ pc ∈ ([⟨p1ro, p0⟩] : List (View.Piece (Elt F) S2000x192 .f32)), y ∈ pc.1.set :=
  View.cover_of_tiled [⟨p1ro, p0⟩] S2000x192.size (by rfl) y

set_option maxHeartbeats 1000000 in
/-- The body on whole staging buffers: the three inputs keep their contents, the result's buffer ends at `p1out`. -/
theorem p1_kernel (c : Dev nD) (E : Set ℕ) (i : grid0.Coords)
    (arg1 : Memref sig .tc .vmem S2000x4 .f32) (harg1 : arg1.IsWhole) (arg2 : Memref sig .tc .vmem S4x192 .f32) (harg2 : arg2.IsWhole)
    (arg3 : Memref sig .tc .vmem S1x192 .f32) (harg3 : arg3.IsWhole) (arg4 : Memref sig .tc .vmem S2000x192 .f32) (harg4 : arg4.IsWhole)
    (x0 : Vec F S2000x4 .f32) (w0 : Vec F S4x192 .f32) (b0 : Vec F S1x192 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (p1out x0 w0 b0)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (p1cover _)

/-! ## The proof data of the pipeline -/

/-- Arrays as the region finds them; after the body each input buffer still holds its block and the result's holds
    `p1out` of the three blocks; the class-A invariant; nothing owed; full shares. -/
def p1dat (c : Dev nD) : Dat τ (Elt F) Unit ℕ (UR sig nD τ) ℕ cfg0 c where
  A w := V c (Pipeline.arrRef spec0 w)
  after w t := match w with
    | ⟨0, _⟩ => p1blk V c 0 t
    | ⟨1, _⟩ => p1blk V c 1 t
    | ⟨2, _⟩ => p1blk V c 2 t
    | ⟨3, _⟩ => p1out (p1blk V c 0 t) (p1blk V c 1 t) (p1blk V c 2 t)
  Φ _ := Pipeline.ΦA spec0 c
  q _ := fullShare
  owed _ := 0

theorem p1dat_A (c : Dev nD) (w : Fin cfg0.W) : (p1dat V c).A w = V c (Pipeline.arrRef spec0 w) := by
  dsimp only [p1dat]
theorem p1dat_after0 (c : Dev nD) (t : Fin cfg0.N) : (p1dat V c).after 0 t = p1blk V c 0 t := by dsimp only [p1dat]
theorem p1dat_after1 (c : Dev nD) (t : Fin cfg0.N) : (p1dat V c).after 1 t = p1blk V c 1 t := by dsimp only [p1dat]
theorem p1dat_after2 (c : Dev nD) (t : Fin cfg0.N) : (p1dat V c).after 2 t = p1blk V c 2 t := by dsimp only [p1dat]
theorem p1dat_after3 (c : Dev nD) (t : Fin cfg0.N) :
    (p1dat V c).after 3 t = p1out (p1blk V c 0 t) (p1blk V c 1 t) (p1blk V c 2 t) := by dsimp only [p1dat]

theorem p1dat_before0 (c : Dev nD) (t : Fin cfg0.N) (d) : (p1dat V c).before 0 t d = p1blk V c 0 t :=
  p1_before_x V (p1dat V c) (p1dat_A V c 0) (p1dat_after0 V c) t d
theorem p1dat_before1 (c : Dev nD) (t : Fin cfg0.N) (d) : (p1dat V c).before 1 t d = p1blk V c 1 t :=
  p1_before_w V (p1dat V c) (p1dat_A V c 1) (p1dat_after1 V c) t d
theorem p1dat_before2 (c : Dev nD) (t : Fin cfg0.N) (d) : (p1dat V c).before 2 t d = p1blk V c 2 t :=
  p1_before_b V (p1dat V c) (p1dat_A V c 2) (p1dat_after2 V c) t d

/-! ## The body obligation at a generic point -/

def p1pre (c : Dev nD) (t : Fin cfg0.N) : sProp 𝕄 :=
  iprop((p1dat V c).Φ t.castSucc ∗ (p1dat V c).owesAt () t.castSucc
    ∗ (∃ d, owns (c : Thread nD τ) (st0_0 t) fullShare ((p1dat V c).before 0 t d))
    ∗ (∃ d, owns (c : Thread nD τ) (st0_1 t) fullShare ((p1dat V c).before 1 t d))
    ∗ (∃ d, owns (c : Thread nD τ) (st0_2 t) fullShare ((p1dat V c).before 2 t d))
    ∗ (∃ d, owns (c : Thread nD τ) (st0_3 t) fullShare ((p1dat V c).before 3 t d)))

def p1post (c : Dev nD) (t : Fin cfg0.N) : sProp 𝕄 :=
  iprop((p1dat V c).Φ t.succ ∗ (p1dat V c).owesAt () t.succ
    ∗ owns (c : Thread nD τ) (st0_0 t) fullShare ((p1dat V c).after 0 t)
    ∗ owns (c : Thread nD τ) (st0_1 t) fullShare ((p1dat V c).after 1 t)
    ∗ owns (c : Thread nD τ) (st0_2 t) fullShare ((p1dat V c).after 2 t)
    ∗ owns (c : Thread nD τ) (st0_3 t) fullShare ((p1dat V c).after 3 t))

theorem p1_body (c : Dev nD) (t : Fin cfg0.N) :
    p1pre V c t ⊢ wp frame (wpE (defs₀ (F := F)) Variants.none c none) Set.univ (bodyAt0 t) (fun _ => p1post V c t) := by
  unfold p1pre p1post bodyAt0
  simp only [p1dat_before0, p1dat_before1, p1dat_before2]
  rw [show (p1dat V c).Φ t.succ = (p1dat V c).Φ t.castSucc from rfl,
    show (p1dat V c).owesAt () t.succ = (p1dat V c).owesAt () t.castSucc from rfl,
    p1dat_after0, p1dat_after1, p1dat_after2, p1dat_after3]
  iintro ⟨HΦ, Ho, ⟨%d0, H0⟩, ⟨%d1, H1⟩, ⟨%d2, H2⟩, ⟨%d3, H3⟩⟩
  iapply (p1_kernel c Set.univ _ _ _ _ _ _ _ _ _ (p1blk V c 0 t) (p1blk V c 1 t) (p1blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem p1_obligation (c : Dev nD) : BodyObligation (p1dat (F := F) V c) (defs₀ (F := F)) Variants.none () Set.univ := fun t => by
  rw [bigSep_W0, bigSep_W0]
  exact p1_body V c t

end

end Cert.KernelIdeal.Hand

end
-- ==== Proof.KI.Proj2.lean ====
import proofs.«139596_j14499809592003_1_alg».proof.Proof.Gen.KernelIdeal.Launch
import proofs.«139596_j14499809592003_1_alg».proof.Proof.Gen.KernelIdeal.Skeleton
import proofs.«139596_j14499809592003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second node projection: one tiled product `q · [W1; W2; W3]ᵀ + [b1; 0; b3]` of the second layer

Grid point `t` of 25 takes rows `2000 t … 2000 t + 1999` of the node features (a 2000 × 64 block), the whole 64 × 192
weight matrix and the 1 × 192 bias row, and writes rows `2000 t …` of the 50000 × 192 result. Everything is stated at a
PARAMETER `V`: what the core's buffers hold when the region is entered. -/

section
variable (V : (c : Dev nD) → (b : Ref sig .tc) → Buf (Elt F) ((c : Thread nD τ).loc b))

/-- Window `w`'s block at grid point `t`, cut out of the array the region finds. -/
def p2blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the features sits in its staging buffer at every point: it is fetched at each. -/
theorem p2_before_x {c : Dev nD} (dat : Dat τ (Elt F) Unit ℕ (UR sig nD τ) ℕ cfg1 c) (hA : dat.A 0 = V c (Pipeline.arrRef spec1 0))
    (hafter : ∀ t, dat.after 0 t = p2blk V c 0 t) (t : Fin cfg1.N) (d) : dat.before 0 t d = p2blk V c 0 t :=
  (dat.before_in_eq_fetched 0 rfl (fun _ => rfl) (fun _ _ _ => rfl) (fun t => by rw [hafter]; unfold Dat.blockOf p2blk; rw [hA]; try rfl) t d).trans
    (by unfold Dat.fetched Dat.blockOf p2blk; rw [hA]; try rfl)

/-- The weight matrix is fetched once; its block index never moves, so the buffer holds it at every point. -/
theorem p2_before_w {c : Dev nD} (dat : Dat τ (Elt F) Unit ℕ (UR sig nD τ) ℕ cfg1 c) (hA : dat.A 1 = V c (Pipeline.arrRef spec1 1))
    (hafter : ∀ t, dat.after 1 t = p2blk V c 1 t) (t : Fin cfg1.N) (d) : dat.before 1 t d = p2blk V c 1 t :=
  (dat.before_in_eq_fetched 1 rfl (fun _ => rfl) (fun _ _ _ => rfl) (fun t => by rw [hafter]; unfold Dat.blockOf p2blk; rw [hA]; try rfl) t d).trans
    (by unfold Dat.fetched Dat.blockOf p2blk; rw [hA]; try rfl)

/-- The same of the bias row. -/
theorem p2_before_b {c : Dev nD} (dat : Dat τ (Elt F) Unit ℕ (UR sig nD τ) ℕ cfg1 c) (hA : dat.A 2 = V c (Pipeline.arrRef spec1 2))
    (hafter : ∀ t, dat.after 2 t = p2blk V c 2 t) (t : Fin cfg1.N) (d) : dat.before 2 t d = p2blk V c 2 t :=
  (dat.before_in_eq_fetched 2 rfl (fun _ => rfl) (fun _ _ _ => rfl) (fun t => by rw [hafter]; unfold Dat.blockOf p2blk; rw [hA]; try rfl) t d).trans
    (by unfold Dat.fetched Dat.blockOf p2blk; rw [hA]; try rfl)

/-! ## The body: three whole loads, one whole store -/

abbrev p2rx : Rect S2000x64 := Rect.unit (s := S2000x64) ![0, 0] S2000x64.size inb_S2000x64_S2000x64_0_0
abbrev p2rw : Rect S64x192 := Rect.unit (s := S64x192) ![0, 0] S64x192.size inb_S64x192_S64x192_0_0
abbrev p2rb : Rect S1x192 := Rect.unit (s := S1x192) ![0, 0] S1x192.size inb_S1x192_S1x192_0_0
abbrev p2ro : Rect S2000x192 := Rect.unit (s := S2000x192) ![0, 0] S2000x192.size inb_S2000x192_S2000x192_0_0

/-- What the body leaves in the result's staging buffer: the product of the row block with the weights plus the
    bias row, stored over the whole buffer. -/
def p2out (x0 : Vec F S2000x64 .f32) (w0 : Vec F S64x192 .f32) (b0 : Vec F S1x192 .f32) : Vec F S2000x192 .f32 :=
  View.canon [⟨p2ro, k1_pay1 (View.ld x0 p2rx) (View.ld w0 p2rw) (View.ld b0 p2rb)⟩]

/-- The one store covers the buffer. -/
theorem p2cover (p0 : Vec F S2000x192 .f32) (y : S2000x192.Idx) :
    ∃ pc ∈ ([⟨p2ro, p0⟩] : List (View.Piece (Elt F) S2000x192 .f32)), y ∈ pc.1.set :=
  View.cover_of_tiled [⟨p2ro, p0⟩] S2000x192.size (by rfl) y

set_option maxHeartbeats 1000000 in
/-- The body on whole staging buffers: the three inputs keep their contents, the result's buffer ends at `p2out`. -/
theorem p2_kernel (c : Dev nD) (E : Set ℕ) (i : grid1.Coords)
    (arg1 : Memref sig .tc .vmem S2000x64 .f32) (harg1 : arg1.IsWhole) (arg2 : Memref sig .tc .vmem S64x192 .f32) (harg2 : arg2.IsWhole)
    (arg3 : Memref sig .tc .vmem S1x192 .f32) (harg3 : arg3.IsWhole) (arg4 : Memref sig .tc .vmem S2000x192 .f32) (harg4 : arg4.IsWhole)
    (x0 : Vec F S2000x64 .f32) (w0 : Vec F S64x192 .f32) (b0 : Vec F S1x192 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (p2out x0 w0 b0)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (p2cover _)

/-! ## The proof data of the pipeline -/

/-- Arrays as the region finds them; after the body each input buffer still holds its block and the result's holds
    `p2out` of the three blocks; the class-A invariant; nothing owed; full shares. -/
def p2dat (c : Dev nD) : Dat τ (Elt F) Unit ℕ (UR sig nD τ) ℕ cfg1 c where
  A w := V c (Pipeline.arrRef spec1 w)
  after w t := match w with
    | ⟨0, _⟩ => p2blk V c 0 t
    | ⟨1, _⟩ => p2blk V c 1 t
    | ⟨2, _⟩ => p2blk V c 2 t
    | ⟨3, _⟩ => p2out (p2blk V c 0 t) (p2blk V c 1 t) (p2blk V c 2 t)
  Φ _ := Pipeline.ΦA spec1 c
  q _ := fullShare
  owed _ := 0

theorem p2dat_A (c : Dev nD) (w : Fin cfg1.W) : (p2dat V c).A w = V c (Pipeline.arrRef spec1 w) := by
  dsimp only [p2dat]
theorem p2dat_after0 (c : Dev nD) (t : Fin cfg1.N) : (p2dat V c).after 0 t = p2blk V c 0 t := by dsimp only [p2dat]
theorem p2dat_after1 (c : Dev nD) (t : Fin cfg1.N) : (p2dat V c).after 1 t = p2blk V c 1 t := by dsimp only [p2dat]
theorem p2dat_after2 (c : Dev nD) (t : Fin cfg1.N) : (p2dat V c).after 2 t = p2blk V c 2 t := by dsimp only [p2dat]
theorem p2dat_after3 (c : Dev nD) (t : Fin cfg1.N) :
    (p2dat V c).after 3 t = p2out (p2blk V c 0 t) (p2blk V c 1 t) (p2blk V c 2 t) := by dsimp only [p2dat]

theorem p2dat_before0 (c : Dev nD) (t : Fin cfg1.N) (d) : (p2dat V c).before 0 t d = p2blk V c 0 t :=
  p2_before_x V (p2dat V c) (p2dat_A V c 0) (p2dat_after0 V c) t d
theorem p2dat_before1 (c : Dev nD) (t : Fin cfg1.N) (d) : (p2dat V c).before 1 t d = p2blk V c 1 t :=
  p2_before_w V (p2dat V c) (p2dat_A V c 1) (p2dat_after1 V c) t d
theorem p2dat_before2 (c : Dev nD) (t : Fin cfg1.N) (d) : (p2dat V c).before 2 t d = p2blk V c 2 t :=
  p2_before_b V (p2dat V c) (p2dat_A V c 2) (p2dat_after2 V c) t d

/-! ## The body obligation at a generic point -/

def p2pre (c : Dev nD) (t : Fin cfg1.N) : sProp 𝕄 :=
  iprop((p2dat V c).Φ t.castSucc ∗ (p2dat V c).owesAt () t.castSucc
    ∗ (∃ d, owns (c : Thread nD τ) (st1_0 t) fullShare ((p2dat V c).before 0 t d))
    ∗ (∃ d, owns (c : Thread nD τ) (st1_1 t) fullShare ((p2dat V c).before 1 t d))
    ∗ (∃ d, owns (c : Thread nD τ) (st1_2 t) fullShare ((p2dat V c).before 2 t d))
    ∗ (∃ d, owns (c : Thread nD τ) (st1_3 t) fullShare ((p2dat V c).before 3 t d)))

def p2post (c : Dev nD) (t : Fin cfg1.N) : sProp 𝕄 :=
  iprop((p2dat V c).Φ t.succ ∗ (p2dat V c).owesAt () t.succ
    ∗ owns (c : Thread nD τ) (st1_0 t) fullShare ((p2dat V c).after 0 t)
    ∗ owns (c : Thread nD τ) (st1_1 t) fullShare ((p2dat V c).after 1 t)
    ∗ owns (c : Thread nD τ) (st1_2 t) fullShare ((p2dat V c).after 2 t)
    ∗ owns (c : Thread nD τ) (st1_3 t) fullShare ((p2dat V c).after 3 t))

theorem p2_body (c : Dev nD) (t : Fin cfg1.N) :
    p2pre V c t ⊢ wp frame (wpE (defs₀ (F := F)) Variants.none c none) Set.univ (bodyAt1 t) (fun _ => p2post V c t) := by
  unfold p2pre p2post bodyAt1
  simp only [p2dat_before0, p2dat_before1, p2dat_before2]
  rw [show (p2dat V c).Φ t.succ = (p2dat V c).Φ t.castSucc from rfl,
    show (p2dat V c).owesAt () t.succ = (p2dat V c).owesAt () t.castSucc from rfl,
    p2dat_after0, p2dat_after1, p2dat_after2, p2dat_after3]
  iintro ⟨HΦ, Ho, ⟨%d0, H0⟩, ⟨%d1, H1⟩, ⟨%d2, H2⟩, ⟨%d3, H3⟩⟩
  iapply (p2_kernel c Set.univ _ _ _ _ _ _ _ _ _ (p2blk V c 0 t) (p2blk V c 1 t) (p2blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem p2_obligation (c : Dev nD) : BodyObligation (p2dat (F := F) V c) (defs₀ (F := F)) Variants.none () Set.univ := fun t => by
  rw [bigSep_W1, bigSep_W1]
  exact p2_body V c t

end

end Cert.KernelIdeal.Hand

end
-- ==== Proof.KI.Emlp.lean ====
import proofs.«139596_j14499809592003_1_alg».proof.Proof.Gen.KernelIdeal.Launch
import proofs.«139596_j14499809592003_1_alg».proof.Proof.Gen.KernelIdeal.Skeleton
import proofs.«139596_j14499809592003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge network: `relu(e · W1ᵀ + b1) · W2ᵀ + b2` over blocks of 3200 edges

Grid point `t` of 250 takes rows `3200 t …` of the 800000 × 128 edge representation, both weight matrices and both
bias rows whole, and writes rows `3200 t …` of the 800000 × 4 result; the 3200 × 256 hidden activation lives only
inside the body. Everything is stated at a PARAMETER `V`: what the core's buffers hold when the region is entered. -/

section
variable (V : (c : Dev nD) → (b : Ref sig .tc) → Buf (Elt F) ((c : Thread nD τ).loc b))

/-- Window `w`'s block at grid point `t`, cut out of the array the region finds. -/
def emblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block is fetched at every point. -/
theorem em_before_e {c : Dev nD} (dat : Dat τ (Elt F) Unit ℕ (UR sig nD τ) ℕ cfg2 c) (hA : dat.A 0 = V c (Pipeline.arrRef spec2 0))
    (hafter : ∀ t, dat.after 0 t = emblk V c 0 t) (t : Fin cfg2.N) (d) : dat.before 0 t d = emblk V c 0 t :=
  (dat.before_in_eq_fetched 0 rfl (fun _ => rfl) (fun _ _ _ => rfl) (fun t => by rw [hafter]; unfold Dat.blockOf emblk; rw [hA]; try rfl) t d).trans
    (by unfold Dat.fetched Dat.blockOf emblk; rw [hA]; try rfl)

/-- The four parameter arrays are fetched once and their block index never moves: each buffer holds its array at
    every point. -/
theorem em_before_w1 {c : Dev nD} (dat : Dat τ (Elt F) Unit ℕ (UR sig nD τ) ℕ cfg2 c) (hA : dat.A 1 = V c (Pipeline.arrRef spec2 1))
    (hafter : ∀ t, dat.after 1 t = emblk V c 1 t) (t : Fin cfg2.N) (d) : dat.before 1 t d = emblk V c 1 t :=
  (dat.before_in_eq_fetched 1 rfl (fun _ => rfl) (fun _ _ _ => rfl) (fun t => by rw [hafter]; unfold Dat.blockOf emblk; rw [hA]; try rfl) t d).trans
    (by unfold Dat.fetched Dat.blockOf emblk; rw [hA]; try rfl)
theorem em_before_b1 {c : Dev nD} (dat : Dat τ (Elt F) Unit ℕ (UR sig nD τ) ℕ cfg2 c) (hA : dat.A 2 = V c (Pipeline.arrRef spec2 2))
    (hafter : ∀ t, dat.after 2 t = emblk V c 2 t) (t : Fin cfg2.N) (d) : dat.before 2 t d = emblk V c 2 t :=
  (dat.before_in_eq_fetched 2 rfl (fun _ => rfl) (fun _ _ _ => rfl) (fun t => by rw [hafter]; unfold Dat.blockOf emblk; rw [hA]; try rfl) t d).trans
    (by unfold Dat.fetched Dat.blockOf emblk; rw [hA]; try rfl)
theorem em_before_w2 {c : Dev nD} (dat : Dat τ (Elt F) Unit ℕ (UR sig nD τ) ℕ cfg2 c) (hA : dat.A 3 = V c (Pipeline.arrRef spec2 3))
    (hafter : ∀ t, dat.after 3 t = emblk V c 3 t) (t : Fin cfg2.N) (d) : dat.before 3 t d = emblk V c 3 t :=
  (dat.before_in_eq_fetched 3 rfl (fun _ => rfl) (fun _ _ _ => rfl) (fun t => by rw [hafter]; unfold Dat.blockOf emblk; rw [hA]; try rfl) t d).trans
    (by unfold Dat.fetched Dat.blockOf emblk; rw [hA]; try rfl)
theorem em_before_b2 {c : Dev nD} (dat : Dat τ (Elt F) Unit ℕ (UR sig nD τ) ℕ cfg2 c) (hA : dat.A 4 = V c (Pipeline.arrRef spec2 4))
    (hafter : ∀ t, dat.after 4 t = emblk V c 4 t) (t : Fin cfg2.N) (d) : dat.before 4 t d = emblk V c 4 t :=
  (dat.before_in_eq_fetched 4 rfl (fun _ => rfl) (fun _ _ _ => rfl) (fun t => by rw [hafter]; unfold Dat.blockOf emblk; rw [hA]; try rfl) t d).trans
    (by unfold Dat.fetched Dat.blockOf emblk; rw [hA]; try rfl)

/-! ## The body: five whole loads, one whole store -/

abbrev emre : Rect S3200x128 := Rect.unit (s := S3200x128) ![0, 0] S3200x128.size inb_S3200x128_S3200x128_0_0
abbrev emrw1 : Rect S128x256 := Rect.unit (s := S128x256) ![0, 0] S128x256.size inb_S128x256_S128x256_0_0
abbrev emrb1 : Rect S1x256 := Rect.unit (s := S1x256) ![0, 0] S1x256.size inb_S1x256_S1x256_0_0
abbrev emrw2 : Rect S256x4 := Rect.unit (s := S256x4) ![0, 0] S256x4.size inb_S256x4_S256x4_0_0
abbrev emrb2 : Rect S1x4 := Rect.unit (s := S1x4) ![0, 0] S1x4.size inb_S1x4_S1x4_0_0
abbrev emro : Rect S3200x4 := Rect.unit (s := S3200x4) ![0, 0] S3200x4.size inb_S3200x4_S3200x4_0_0

/-- What the body leaves in the result's staging buffer: the two-layer network of the edge block, stored over the
    whole buffer. -/
def emout (e0 : Vec F S3200x128 .f32) (w1 : Vec F S128x256 .f32) (b1 : Vec F S1x256 .f32) (w2 : Vec F S256x4 .f32) (b2 : Vec F S1x4 .f32) :
    Vec F S3200x4 .f32 :=
  View.canon [⟨emro, k2_pay1 (View.ld e0 emre) (View.ld w1 emrw1) (View.ld b1 emrb1) (View.ld w2 emrw2) (View.ld b2 emrb2)⟩]

/-- The one store covers the buffer. -/
theorem emcover (p0 : Vec F S3200x4 .f32) (y : S3200x4.Idx) :
    ∃ pc ∈ ([⟨emro, p0⟩] : List (View.Piece (Elt F) S3200x4 .f32)), y ∈ pc.1.set :=
  View.cover_of_tiled [⟨emro, p0⟩] S3200x4.size (by rfl) y

set_option maxHeartbeats 1000000 in
/-- The body on whole staging buffers: the five inputs keep their contents, the result's buffer ends at `emout`. -/
theorem em_kernel (c : Dev nD) (E : Set ℕ) (i : grid2.Coords)
    (arg1 : Memref sig .tc .vmem S3200x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x4 .f32) (harg4 : arg4.IsWhole)
    (arg5 : Memref sig .tc .vmem S1x4 .f32) (harg5 : arg5.IsWhole) (arg6 : Memref sig .tc .vmem S3200x4 .f32) (harg6 : arg6.IsWhole)
    (e0 : Vec F S3200x128 .f32) (w1 : Vec F S128x256 .f32) (b1 : Vec F S1x256 .f32) (w2 : Vec F S256x4 .f32) (b2 : Vec F S1x4 .f32)
    (K : PUnit → sProp 𝕄) :
    iprop(owns (c : Thread nD τ) arg1 fullShare e0 ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d)
        ∗ (iprop(owns (c : Thread nD τ) arg1 fullShare e0 ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (emout e0 w1 b1 w2 b2)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (emcover _)

/-! ## The proof data of the pipeline -/

/-- Arrays as the region finds them; after the body each input buffer still holds its block and the result's holds
    `emout` of the five blocks; the class-A invariant; nothing owed; full shares. -/
def emdat (c : Dev nD) : Dat τ (Elt F) Unit ℕ (UR sig nD τ) ℕ cfg2 c where
  A w := V c (Pipeline.arrRef spec2 w)
  after w t := match w with
    | ⟨0, _⟩ => emblk V c 0 t
    | ⟨1, _⟩ => emblk V c 1 t
    | ⟨2, _⟩ => emblk V c 2 t
    | ⟨3, _⟩ => emblk V c 3 t
    | ⟨4, _⟩ => emblk V c 4 t
    | ⟨5, _⟩ => emout (emblk V c 0 t) (emblk V c 1 t) (emblk V c 2 t) (emblk V c 3 t) (emblk V c 4 t)
  Φ _ := Pipeline.ΦA spec2 c
  q _ := fullShare
  owed _ := 0

theorem emdat_A (c : Dev nD) (w : Fin cfg2.W) : (emdat V c).A w = V c (Pipeline.arrRef spec2 w) := by
  dsimp only [emdat]
theorem emdat_after0 (c : Dev nD) (t : Fin cfg2.N) : (emdat V c).after 0 t = emblk V c 0 t := by dsimp only [emdat]
theorem emdat_after1 (c : Dev nD) (t : Fin cfg2.N) : (emdat V c).after 1 t = emblk V c 1 t := by dsimp only [emdat]
theorem emdat_after2 (c : Dev nD) (t : Fin cfg2.N) : (emdat V c).after 2 t = emblk V c 2 t := by dsimp only [emdat]
theorem emdat_after3 (c : Dev nD) (t : Fin cfg2.N) : (emdat V c).after 3 t = emblk V c 3 t := by dsimp only [emdat]
theorem emdat_after4 (c : Dev nD) (t : Fin cfg2.N) : (emdat V c).after 4 t = emblk V c 4 t := by dsimp only [emdat]
theorem emdat_after5 (c : Dev nD) (t : Fin cfg2.N) :
    (emdat V c).after 5 t = emout (emblk V c 0 t) (emblk V c 1 t) (emblk V c 2 t) (emblk V c 3 t) (emblk V c 4 t) := by dsimp only [emdat]

theorem emdat_before0 (c : Dev nD) (t : Fin cfg2.N) (d) : (emdat V c).before 0 t d = emblk V c 0 t :=
  em_before_e V (emdat V c) (emdat_A V c 0) (emdat_after0 V c) t d
theorem emdat_before1 (c : Dev nD) (t : Fin cfg2.N) (d) : (emdat V c).before 1 t d = emblk V c 1 t :=
  em_before_w1 V (emdat V c) (emdat_A V c 1) (emdat_after1 V c) t d
theorem emdat_before2 (c : Dev nD) (t : Fin cfg2.N) (d) : (emdat V c).before 2 t d = emblk V c 2 t :=
  em_before_b1 V (emdat V c) (emdat_A V c 2) (emdat_after2 V c) t d
theorem emdat_before3 (c : Dev nD) (t : Fin cfg2.N) (d) : (emdat V c).before 3 t d = emblk V c 3 t :=
  em_before_w2 V (emdat V c) (emdat_A V c 3) (emdat_after3 V c) t d
theorem emdat_before4 (c : Dev nD) (t : Fin cfg2.N) (d) : (emdat V c).before 4 t d = emblk V c 4 t :=
  em_before_b2 V (emdat V c) (emdat_A V c 4) (emdat_after4 V c) t d

/-! ## The body obligation at a generic point -/

def empre (c : Dev nD) (t : Fin cfg2.N) : sProp 𝕄 :=
  iprop((emdat V c).Φ t.castSucc ∗ (emdat V c).owesAt () t.castSucc
    ∗ (∃ d, owns (c : Thread nD τ) (st2_0 t) fullShare ((emdat V c).before 0 t d))
    ∗ (∃ d, owns (c : Thread nD τ) (st2_1 t) fullShare ((emdat V c).before 1 t d))
    ∗ (∃ d, owns (c : Thread nD τ) (st2_2 t) fullShare ((emdat V c).before 2 t d))
    ∗ (∃ d, owns (c : Thread nD τ) (st2_3 t) fullShare ((emdat V c).before 3 t d))
    ∗ (∃ d, owns (c : Thread nD τ) (st2_4 t) fullShare ((emdat V c).before 4 t d))
    ∗ (∃ d, owns (c : Thread nD τ) (st2_5 t) fullShare ((emdat V c).before 5 t d)))

def empost (c : Dev nD) (t : Fin cfg2.N) : sProp 𝕄 :=
  iprop((emdat V c).Φ t.succ ∗ (emdat V c).owesAt () t.succ
    ∗ owns (c : Thread nD τ) (st2_0 t) fullShare ((emdat V c).after 0 t)
    ∗ owns (c : Thread nD τ) (st2_1 t) fullShare ((emdat V c).after 1 t)
    ∗ owns (c : Thread nD τ) (st2_2 t) fullShare ((emdat V c).after 2 t)
    ∗ owns (c : Thread nD τ) (st2_3 t) fullShare ((emdat V c).after 3 t)
    ∗ owns (c : Thread nD τ) (st2_4 t) fullShare ((emdat V c).after 4 t)
    ∗ owns (c : Thread nD τ) (st2_5 t) fullShare ((emdat V c).after 5 t))

theorem em_body (c : Dev nD) (t : Fin cfg2.N) :
    empre V c t ⊢ wp frame (wpE (defs₀ (F := F)) Variants.none c none) Set.univ (bodyAt2 t) (fun _ => empost V c t) := by
  unfold empre empost bodyAt2
  simp only [emdat_before0, emdat_before1, emdat_before2, emdat_before3, emdat_before4]
  rw [show (emdat V c).Φ t.succ = (emdat V c).Φ t.castSucc from rfl,
    show (emdat V c).owesAt () t.succ = (emdat V c).owesAt () t.castSucc from rfl,
    emdat_after0, emdat_after1, emdat_after2, emdat_after3, emdat_after4, emdat_after5]
  iintro ⟨HΦ, Ho, ⟨%d0, H0⟩, ⟨%d1, H1⟩, ⟨%d2, H2⟩, ⟨%d3, H3⟩, ⟨%d4, H4⟩, ⟨%d5, H5⟩⟩
  iapply (em_kernel c Set.univ _ _ _ _ _ _ _ _ _ _ _ _ _ (emblk V c 0 t) (emblk V c 1 t) (emblk V c 2 t) (emblk V c 3 t) (emblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem em_obligation (c : Dev nD) : BodyObligation (emdat (F := F) V c) (defs₀ (F := F)) Variants.none () Set.univ := fun t => by
  rw [bigSep_W2, bigSep_W2]
  exact em_body V c t

end

end Cert.KernelIdeal.Hand

end
-- ==== Proof.KI.Run.lean ====
import proofs.«139596_j14499809592003_1_alg».proof.Proof.Gen.KernelIdeal.Launch
import proofs.«139596_j14499809592003_1_alg».proof.Proof.Gen.KernelIdeal.Skeleton
import proofs.«139596_j14499809592003_1_alg».proof.Proof.Gen.KernelIdeal.Points
import proofs.«139596_j14499809592003_1_alg».proof.Proof.Gen.KernelIdeal.Regions
import proofs.«139596_j14499809592003_1_alg».proof.Proof.KI.Proj1
import proofs.«139596_j14499809592003_1_alg».proof.Proof.KI.Proj2
import proofs.«139596_j14499809592003_1_alg».proof.Proof.KI.Emlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main: three host stretches and three pipelines, every buffer named at the end

The contents of the core's unscoped buffers are followed from the launch memory through @main: a host stretch applies
its operations (`StableHlo.after`), a pipeline replaces its arrays by what its write-backs leave and keeps the rest.
The run theorem `run_all` says that every weakly fair execution terminates with every unscoped buffer at the last
valuation `W6`; the frame claim (arguments unchanged) and the value of the result are both read off it. -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (edge endpoints split; the stacked weights and bias of layer one). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first projection: its arrays at what the pipeline leaves (inputs as entered, the result's write-backs folded),
    every other buffer as entered. -/
def W2 (c : Dev nD) : Valuation τ sig (Elt F) :=
  Pipeline.withArrays spec0 c (W1 m ρ c) fun w => (p1dat (V1 m ρ) c).arrAt w cfg0.N
theorem W2_arr (c : Dev nD) (w : Fin cfg0.W) :
    W2 m ρ c (Proc.devRef .tc (Pipeline.arrRef spec0 w)) = (p1dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem W2_left (c : Dev nD) (w : Fin cfg0.W) : (p1dat (V1 m ρ) c).arrAt w cfg0.N = V2 m ρ c (Pipeline.arrRef spec0 w) :=
  (W2_arr m ρ c w).symm
theorem W2_kept (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (messages, aggregation, layer one's output; layer two's stacked weights). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After the second projection: its arrays at what the pipeline leaves (inputs as entered, the result's write-backs folded),
    every other buffer as entered. -/
def W4 (c : Dev nD) : Valuation τ sig (Elt F) :=
  Pipeline.withArrays spec1 c (W3 m ρ c) fun w => (p2dat (V3 m ρ) c).arrAt w cfg1.N
theorem W4_arr (c : Dev nD) (w : Fin cfg1.W) :
    W4 m ρ c (Proc.devRef .tc (Pipeline.arrRef spec1 w)) = (p2dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem W4_left (c : Dev nD) (w : Fin cfg1.W) : (p2dat (V3 m ρ) c).arrAt w cfg1.N = V4 m ρ c (Pipeline.arrRef spec1 w) :=
  (W4_arr m ρ c w).symm
theorem W4_kept (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer two's output gathered at both endpoints of every edge; the network's
    transposed weights). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After the edge network: its arrays at what the pipeline leaves (inputs as entered, the result's write-backs folded),
    every other buffer as entered. -/
def W6 (c : Dev nD) : Valuation τ sig (Elt F) :=
  Pipeline.withArrays spec2 c (W5 m ρ c) fun w => (emdat (V5 m ρ) c).arrAt w cfg2.N
theorem W6_arr (c : Dev nD) (w : Fin cfg2.W) :
    W6 m ρ c (Proc.devRef .tc (Pipeline.arrRef spec2 w)) = (emdat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem W6_left (c : Dev nD) (w : Fin cfg2.W) : (emdat (V5 m ρ) c).arrAt w cfg2.N = V6 m ρ c (Pipeline.arrRef spec2 w) :=
  (W6_arr m ρ c w).symm
theorem W6_kept (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer nothing writes ends as launched -/

/-- A reference no host stretch writes and no pipeline has as an array (region 0 may have it as an INPUT: `h2`)
    reads, in the last valuation, what the launch memory holds. -/
theorem W6_launch (c : Dev nD) (b : Ref sig .tc) (h0 : b ∉ hostOps0_W) (h1 : b ∉ hostOps1_W) (h2 : b ∉ hostOps2_W)
    (hp1 : W2 m ρ c (Proc.devRef .tc b) = W1 m ρ c (Proc.devRef .tc b))
    (hp2 : ∀ w, Pipeline.arrRef spec1 w ≠ b) (hem : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b hem
    _ = W4 m ρ c (Proc.devRef .tc b) := StableHlo.after_of_writes_sub hostOps2 _ hostOps2_writes h2
    _ = W3 m ρ c (Proc.devRef .tc b) := W4_of_ne m ρ c b hp2
    _ = W2 m ρ c (Proc.devRef .tc b) := StableHlo.after_of_writes_sub hostOps1 _ hostOps1_writes h1
    _ = W1 m ρ c (Proc.devRef .tc b) := hp1
    _ = W0 m ρ c (Proc.devRef .tc b) := StableHlo.after_of_writes_sub hostOps0 _ hostOps0_writes h0
    _ = m ((c : Thread nD τ).loc b) := rfl

/-- The node features are the first projection's input array: the pipeline hands an input back as it found it. -/
theorem W2_features (c : Dev nD) : W2 m ρ c (Proc.devRef .tc main_arg0) = W1 m ρ c (Proc.devRef .tc main_arg0) :=
  (W2_arr m ρ c 0).trans (((p1dat (V1 m ρ) c).arrAt_in 0 rfl _).trans (p1dat_A (V1 m ρ) c 0))

theorem W6_main_arg0 (c : Dev nD) : W6 m ρ c (Proc.devRef .tc main_arg0) = m ((c : Thread nD τ).loc main_arg0) :=
  W6_launch m ρ c main_arg0 (by decide) (by decide) (by decide) (W2_features m ρ c) (by decide) (by decide)
theorem W6_main_arg1 (c : Dev nD) : W6 m ρ c (Proc.devRef .tc main_arg1) = m ((c : Thread nD τ).loc main_arg1) :=
  W6_launch m ρ c main_arg1 (by decide) (by decide) (by decide) (W2_of_ne m ρ c main_arg1 (by decide)) (by decide) (by decide)
theorem W6_main_arg2 (c : Dev nD) : W6 m ρ c (Proc.devRef .tc main_arg2) = m ((c : Thread nD τ).loc main_arg2) :=
  W6_launch m ρ c main_arg2 (by decide) (by decide) (by decide) (W2_of_ne m ρ c main_arg2 (by decide)) (by decide) (by decide)
theorem W6_main_arg3 (c : Dev nD) : W6 m ρ c (Proc.devRef .tc main_arg3) = m ((c : Thread nD τ).loc main_arg3) :=
  W6_launch m ρ c main_arg3 (by decide) (by decide) (by decide) (W2_of_ne m ρ c main_arg3 (by decide)) (by decide) (by decide)
theorem W6_main_arg4 (c : Dev nD) : W6 m ρ c (Proc.devRef .tc main_arg4) = m ((c : Thread nD τ).loc main_arg4) :=
  W6_launch m ρ c main_arg4 (by decide) (by decide) (by decide) (W2_of_ne m ρ c main_arg4 (by decide)) (by decide) (by decide)
theorem W6_main_arg5 (c : Dev nD) : W6 m ρ c (Proc.devRef .tc main_arg5) = m ((c : Thread nD τ).loc main_arg5) :=
  W6_launch m ρ c main_arg5 (by decide) (by decide) (by decide) (W2_of_ne m ρ c main_arg5 (by decide)) (by decide) (by decide)
theorem W6_main_arg6 (c : Dev nD) : W6 m ρ c (Proc.devRef .tc main_arg6) = m ((c : Thread nD τ).loc main_arg6) :=
  W6_launch m ρ c main_arg6 (by decide) (by decide) (by decide) (W2_of_ne m ρ c main_arg6 (by decide)) (by decide) (by decide)
theorem W6_main_arg7 (c : Dev nD) : W6 m ρ c (Proc.devRef .tc main_arg7) = m ((c : Thread nD τ).loc main_arg7) :=
  W6_launch m ρ c main_arg7 (by decide) (by decide) (by decide) (W2_of_ne m ρ c main_arg7 (by decide)) (by decide) (by decide)
theorem W6_main_arg8 (c : Dev nD) : W6 m ρ c (Proc.devRef .tc main_arg8) = m ((c : Thread nD τ).loc main_arg8) :=
  W6_launch m ρ c main_arg8 (by decide) (by decide) (by decide) (W2_of_ne m ρ c main_arg8 (by decide)) (by decide) (by decide)
theorem W6_main_arg9 (c : Dev nD) : W6 m ρ c (Proc.devRef .tc main_arg9) = m ((c : Thread nD τ).loc main_arg9) :=
  W6_launch m ρ c main_arg9 (by decide) (by decide) (by decide) (W2_of_ne m ρ c main_arg9 (by decide)) (by decide) (by decide)
theorem W6_main_arg10 (c : Dev nD) : W6 m ρ c (Proc.devRef .tc main_arg10) = m ((c : Thread nD τ).loc main_arg10) :=
  W6_launch m ρ c main_arg10 (by decide) (by decide) (by decide) (W2_of_ne m ρ c main_arg10 (by decide)) (by decide) (by decide)
theorem W6_main_arg11 (c : Dev nD) : W6 m ρ c (Proc.devRef .tc main_arg11) = m ((c : Thread nD τ).loc main_arg11) :=
  W6_launch m ρ c main_arg11 (by decide) (by decide) (by decide) (W2_of_ne m ρ c main_arg11 (by decide)) (by decide) (by decide)
theorem W6_main_arg12 (c : Dev nD) : W6 m ρ c (Proc.devRef .tc main_arg12) = m ((c : Thread nD τ).loc main_arg12) :=
  W6_launch m ρ c main_arg12 (by decide) (by decide) (by decide) (W2_of_ne m ρ c main_arg12 (by decide)) (by decide) (by decide)
theorem W6_main_arg13 (c : Dev nD) : W6 m ρ c (Proc.devRef .tc main_arg13) = m ((c : Thread nD τ).loc main_arg13) :=
  W6_launch m ρ c main_arg13 (by decide) (by decide) (by decide) (W2_of_ne m ρ c main_arg13 (by decide)) (by decide) (by decide)
theorem W6_main_arg14 (c : Dev nD) : W6 m ρ c (Proc.devRef .tc main_arg14) = m ((c : Thread nD τ).loc main_arg14) :=
  W6_launch m ρ c main_arg14 (by decide) (by decide) (by decide) (W2_of_ne m ρ c main_arg14 (by decide)) (by decide) (by decide)
theorem W6_main_arg15 (c : Dev nD) : W6 m ρ c (Proc.devRef .tc main_arg15) = m ((c : Thread nD τ).loc main_arg15) :=
  W6_launch m ρ c main_arg15 (by decide) (by decide) (by decide) (W2_of_ne m ρ c main_arg15 (by decide)) (by decide) (by decide)
theorem W6_main_arg16 (c : Dev nD) : W6 m ρ c (Proc.devRef .tc main_arg16) = m ((c : Thread nD τ).loc main_arg16) :=
  W6_launch m ρ c main_arg16 (by decide) (by decide) (by decide) (W2_of_ne m ρ c main_arg16 (by decide)) (by decide) (by decide)
theorem W6_main_arg17 (c : Dev nD) : W6 m ρ c (Proc.devRef .tc main_arg17) = m ((c : Thread nD τ).loc main_arg17) :=
  W6_launch m ρ c main_arg17 (by decide) (by decide) (by decide) (W2_of_ne m ρ c main_arg17 (by decide)) (by decide) (by decide)
theorem W6_main_arg18 (c : Dev nD) : W6 m ρ c (Proc.devRef .tc main_arg18) = m ((c : Thread nD τ).loc main_arg18) :=
  W6_launch m ρ c main_arg18 (by decide) (by decide) (by decide) (W2_of_ne m ρ c main_arg18 (by decide)) (by decide) (by decide)
theorem W6_main_arg19 (c : Dev nD) : W6 m ρ c (Proc.devRef .tc main_arg19) = m ((c : Thread nD τ).loc main_arg19) :=
  W6_launch m ρ c main_arg19 (by decide) (by decide) (by decide) (W2_of_ne m ρ c main_arg19 (by decide)) (by decide) (by decide)
theorem W6_main_arg20 (c : Dev nD) : W6 m ρ c (Proc.devRef .tc main_arg20) = m ((c : Thread nD τ).loc main_arg20) :=
  W6_launch m ρ c main_arg20 (by decide) (by decide) (by decide) (W2_of_ne m ρ c main_arg20 (by decide)) (by decide) (by decide)

/-! ## The proof data family and what rides along -/

/-- No pipeline has a prefetched table. -/
abbrev adm : (p : Fin 3) → (pcfgs (F := F) p).Adm := fun p => (cfgs p).toPCfg_adm
/-- Each pipeline's proof data at its region's entry contents (a literal match, so that the pinned configuration at a
    numeral reduces to the printed one). -/
def pdats : (p : Fin 3) → (c : Dev nD) → Dat τ (Elt F) Unit ℕ (UR sig nD τ) ℕ (Pipeline.pin (pcfgs (F := F)) adm p) c
  | ⟨0, _⟩ => fun c => p1dat (V1 m ρ) c
  | ⟨1, _⟩ => fun c => p2dat (V3 m ρ) c
  | ⟨2, _⟩ => fun c => emdat (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers every segment carries the generator register at some state and the core's `owes` at nothing. -/
abbrev Rest (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tend (c : Dev nD) : sProp 𝕄 := iprop(StableHlo.held (c : Thread nD τ) (Pipeline.ucRefs τ sig) (W6 m ρ c) ∗ ∃ r, prngReg c r)

/-! ## The pipelines as segments -/

-- a library lemma stated over the pinned configuration unifies with the printed one only when unification may
-- unfold plain definitions in a metavariable's type
set_option backward.isDefEq.respectTransparency.types false in
/-- The first projection as a segment: entered with every unscoped buffer at `W1`, left with them at `W2`. Its arrays
    are split out of the unscoped buffers and put back at what the write-backs leave; the generator register goes
    into the class-A invariant and comes back; nothing is owed; the body names no semaphore. -/
def seg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (p1_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (W2_left m ρ c) (W2_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The second projection as a segment: entered with every unscoped buffer at `W3`, left with them at `W4`. Its arrays
    are split out of the unscoped buffers and put back at what the write-backs leave; the generator register goes
    into the class-A invariant and comes back; nothing is owed; the body names no semaphore. -/
def seg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (p2_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (W4_left m ρ c) (W4_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The edge network as a segment: entered with every unscoped buffer at `W5`, left with them at `W6`. Its arrays
    are split out of the unscoped buffers and put back at what the write-backs leave; the generator register goes
    into the class-A invariant and comes back; nothing is owed; the body names no semaphore. -/
def seg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (em_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (W6_left m ρ c) (W6_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (seg0 m ρ),
    .host (hseg hostOps1 hostOps1_sub hostOps1_fresh (W2 m ρ)),
    .region (seg1 m ρ),
    .host (hseg hostOps2 hostOps2_sub hostOps2_fresh (W4 m ρ)),
    .region (seg2 m ρ) ]

set_option backward.isDefEq.respectTransparency.types false in
/-- From any memory with zero counters every weakly fair execution of @main terminates, nothing faulting, and the
    final memory holds every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame claim at any float instance: the run ends and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c),
    (h c _ (mem_uc main_arg14 (by decide))).trans (W6_main_arg14 m ρ c),
    (h c _ (mem_uc main_arg15 (by decide))).trans (W6_main_arg15 m ρ c),
    (h c _ (mem_uc main_arg16 (by decide))).trans (W6_main_arg16 m ρ c),
    (h c _ (mem_uc main_arg17 (by decide))).trans (W6_main_arg17 m ρ c),
    (h c _ (mem_uc main_arg18 (by decide))).trans (W6_main_arg18 m ρ c),
    (h c _ (mem_uc main_arg19 (by decide))).trans (W6_main_arg19 m ρ c),
    (h c _ (mem_uc main_arg20 (by decide))).trans (W6_main_arg20 m ρ c)⟩) (run_all m ρ)

end Cert.KernelIdeal.Hand

end
-- ==== Proof.KI.Terms.lean ====
import proofs.«139596_j14499809592003_1_alg».proof.Proof.Gen.KernelIdeal
import Idealize.ShloMosaic.Lib.ValueIdx

noncomputable section

namespace Cert.KernelIdeal.Hand

open Cert.KernelIdeal Cert.KernelIdeal.Facts₀ Cert.KernelIdeal.Facts Idealize.ShloMosaic

variable {F : FTy → Type} [FloatOps F]

/-! # The host side of the kernel's program, as functions of arrays

What @main does between its three pipelines, written once as functions: splitting the edge list into its endpoint
rows, stacking the three weight matrices of a layer into one transposed matrix and its two biases (with a zero block
between them) into one row, one round of message passing over the stacked projection, and the edge representation. -/

/-- Contents of a buffer of shape `s` and element type `e`. -/
abbrev Arr (s : Shape) (e : EltTy) : Type := (⟨s, e⟩ : BufTy).Contents (Elt F)

/-- The source endpoint of every edge: row 0 of the edge list. -/
def srcRow (ei : Arr (F := F) S2x800000 .i32) : Arr (F := F) S800000 .i32 :=
  shapeCast S800000 (extractStridedSlice S1x800000 ![0, 0] ei slices_S2x800000_S1x800000_0_0) shapeCasts_S1x800000_S800000
/-- The target endpoint of every edge: row 1 of the edge list. -/
def dstRow (ei : Arr (F := F) S2x800000 .i32) : Arr (F := F) S800000 .i32 :=
  shapeCast S800000 (extractStridedSlice S1x800000 ![1, 0] ei slices_S2x800000_S1x800000_1_0) shapeCasts_S1x800000_S800000

/-- Layer one's three 64 × 4 weight matrices stacked to 192 × 4 and transposed to 4 × 192. -/
def stackW1 (w1 w2 w3 : Arr (F := F) S64x4 .f32) : Arr (F := F) S4x192 .f32 :=
  transpose S4x192 [1, 0] (concatenate S192x4 0 [⟨S64x4, w1⟩, ⟨S64x4, w2⟩, ⟨S64x4, w3⟩] concatenates_S64x4_S64x4_S64x4_S192x4_d0) transposes_S192x4_S4x192_1_0
/-- Layer two's three 64 × 64 weight matrices stacked to 192 × 64 and transposed to 64 × 192. -/
def stackW2 (w1 w2 w3 : Arr (F := F) S64x64 .f32) : Arr (F := F) S64x192 .f32 :=
  transpose S64x192 [1, 0] (concatenate S192x64 0 [⟨S64x64, w1⟩, ⟨S64x64, w2⟩, ⟨S64x64, w3⟩] concatenates_S64x64_S64x64_S64x64_S192x64_d0) transposes_S192x64_S64x192_1_0
/-- A layer's two biases with 64 zeros between them, as one 1 × 192 row. -/
def stackB (b1 b3 : Arr (F := F) S64 .f32) : Arr (F := F) S1x192 .f32 :=
  shapeCast S1x192 (concatenate S192 0 [⟨S64, b1⟩, ⟨S64, broadcastInDim S64 ![] bcast_S_S64 (constant (F := F) S_ .f32 0x00000000#32)⟩, ⟨S64, b3⟩] concatenates_S64_S64_S64_S192_d0) shapeCasts_S192_S1x192

/-- A node index made non-negative (a negative one counts from the end) and laid out as a column. -/
def nodeCol (ix : Arr (F := F) S800000 .i32) : Arr (F := F) S800000x1 .i32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- The rows of a node array at the (normalised) node of every edge. -/
def atNodes (x : Arr (F := F) S50000x64 .f32) (ix : Arr (F := F) S800000 .i32) : Arr (F := F) S800000x64 .f32 :=
  Host.gather gather_S50000x64_S800000x1_S800000x64_1_0_n_n_0_1_164 x (nodeCol ix)

/-- One round of message passing: every edge carries `(a[src] − b[dst]) · weight`, summed into its target node. -/
def aggregate (a b : Arr (F := F) S50000x64 .f32) (src dst : Arr (F := F) S800000 .i32) (ew : Arr (F := F) S800000 .f32) :
    Arr (F := F) S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf (subf (atNodes a src) (atNodes b dst))
      (broadcastInDim S800000x64 ![0, 1] bcast_S800000x1_S800000x64_0_1 (broadcastInDim S800000x1 ![0] bcast_S800000_S800000x1_0 ew)))

/-- The three 64-column panels of a stacked projection. -/
def panelA (p : Arr (F := F) S50000x192 .f32) : Arr (F := F) S50000x64 .f32 := extractStridedSlice S50000x64 ![0, 0] p slices_S50000x192_S50000x64_0_0
def panelB (p : Arr (F := F) S50000x192 .f32) : Arr (F := F) S50000x64 .f32 := extractStridedSlice S50000x64 ![0, 64] p slices_S50000x192_S50000x64_0_64
def panelC (p : Arr (F := F) S50000x192 .f32) : Arr (F := F) S50000x64 .f32 := extractStridedSlice S50000x64 ![0, 128] p slices_S50000x192_S50000x64_0_128

/-- A layer's output from its stacked projection: the aggregated messages of panels A and B, plus panel C. -/
def layerOut (p : Arr (F := F) S50000x192 .f32) (src dst : Arr (F := F) S800000 .i32) (ew : Arr (F := F) S800000 .f32) :
    Arr (F := F) S50000x64 .f32 :=
  addf (aggregate (panelA p) (panelB p) src dst ew) (panelC p)

/-- The edge representation: a node array's rows at the source and at the target of every edge, side by side. -/
def edgeRep (q : Arr (F := F) S50000x64 .f32) (src dst : Arr (F := F) S800000 .i32) : Arr (F := F) S800000x128 .f32 :=
  concatenate S800000x128 1 [⟨S800000x64, atNodes q src⟩, ⟨S800000x64, atNodes q dst⟩] concatenates_S800000x64_S800000x64_S800000x128_d1

end Cert.KernelIdeal.Hand

end
-- ==== Proof.Arr.lean ====
/-
  The two array functions the pipelines compute, entry by entry, over the extended reals.

  * `linRows x w b`: an `N × K` array times a `K × C` array plus a `1 × C` row added to every row.
  * `mlpRows e w1 b1 w2 b2`: the two-layer network `max(e · w1 + b1, 0) · w2 + b2`, row by row.
-/
import Idealize.ShloMosaic.PureOps.Ideal
import Idealize.ShloMosaic.Lib.ValueIdx

noncomputable section

open scoped BigOperators

namespace Cert.EdgeNet

open Idealize.ShloMosaic Idealize.ShloMosaic.ValueIdx

/-- Entry `(n, j)` is `∑ₖ x[n, k] · w[k, j] + b[0, j]`. -/
def linRows {N K C : Nat} (x : (⟨2, ![N, K]⟩ : Shape).Idx → EReal) (w : (⟨2, ![K, C]⟩ : Shape).Idx → EReal)
    (b : (⟨2, ![1, C]⟩ : Shape).Idx → EReal) : (⟨2, ![N, C]⟩ : Shape).Idx → EReal :=
  fun i => (∑ k : Fin K, x (ix2 (i 0) k) * w (ix2 k (i 1))) + b (ix2 (0 : Fin 1) (i 1))

/-- Entry `(n, j)` is `∑ₕ max(∑ₖ e[n, k] · w1[k, h] + b1[0, h], 0) · w2[h, j] + b2[0, j]`. -/
def mlpRows {N K H C : Nat} (e : (⟨2, ![N, K]⟩ : Shape).Idx → EReal) (w1 : (⟨2, ![K, H]⟩ : Shape).Idx → EReal)
    (b1 : (⟨2, ![1, H]⟩ : Shape).Idx → EReal) (w2 : (⟨2, ![H, C]⟩ : Shape).Idx → EReal)
    (b2 : (⟨2, ![1, C]⟩ : Shape).Idx → EReal) : (⟨2, ![N, C]⟩ : Shape).Idx → EReal :=
  fun i => (∑ h : Fin H, max ((∑ k : Fin K, e (ix2 (i 0) k) * w1 (ix2 k h)) + b1 (ix2 (0 : Fin 1) h)) 0 * w2 (ix2 h (i 1)))
    + b2 (ix2 (0 : Fin 1) (i 1))

end Cert.EdgeNet

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.KI.Proj1Val.lean ====
import proofs.«139596_j14499809592003_1_alg».proof.Proof.Arr
import proofs.«139596_j14499809592003_1_alg».proof.Proof.KI.Proj1
import proofs.«139596_j14499809592003_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.EdgeNet
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem p1_hz : (![0, 0] : Fin 2 → Nat) = fun _ => 0 := funext fun a => by fin_cases a <;> rfl

/-- The body's payload at an entry: the sum over the contracted index of the products of the row block's entries with
    the weights', plus the bias row's entry of that column. -/
theorem p1_pay_apply (x0 : Vec Ideal S2000x4 .f32) (w0 : Vec Ideal S4x192 .f32) (b0 : Vec Ideal S1x192 .f32) (j : S2000x192.Idx) :
    k0_pay1 x0 w0 b0 j = (∑ k : Fin 4, x0 (ix2 (j 0) k) * w0 (ix2 k (j 1))) + b0 (ix2 (0 : Fin 1) (j 1)) := by
  unfold k0_pay1
  simp only [shapeCast_self]
  rw [addf_apply, show (dot_S2000x4_S4x192_S2000x192_1_0_0_1_n_n : DotDims S2000x4 S4x192 S2000x192) = DotDims.plain 2000 4 192 from rfl]
  refine congrArg₂ (· + ·) ((Cert.Gnn.plain_matmul_apply 2000 4 192 none _ _ j).trans rfl) ?_
  refine broadcastTo_apply b0 _ j (ix2 (0 : Fin 1) (j 1)) fun a => ?_
  match a with
  | ⟨0, _⟩ => rfl
  | ⟨1, _⟩ => rfl

/-- The payload of blocks that read three arrays where the entry's coordinates say is the closed function's entry. -/
theorem p1_entry (X : S50000x4.Idx → EReal) (W : S4x192.Idx → EReal) (B : S1x192.Idx → EReal)
    (x0 : Vec Ideal S2000x4 .f32) (w0 : Vec Ideal S4x192 .f32) (b0 : Vec Ideal S1x192 .f32)
    (j : S2000x192.Idx) (i : S50000x192.Idx)
    (hx : ∀ k : Fin 4, x0 (ix2 (j 0) k) = X (ix2 (i 0) k))
    (hw : ∀ k : Fin 4, w0 (ix2 k (j 1)) = W (ix2 k (i 1)))
    (hb : b0 (ix2 (0 : Fin 1) (j 1)) = B (ix2 (0 : Fin 1) (i 1))) :
    k0_pay1 x0 w0 b0 j = linRows X W B i := by
  rw [p1_pay_apply]
  unfold linRows
  simp only [hx, hw, hb]

/-- The printed index maps, decided over the grid: the features' and the result's row blocks are the point's, every
    other block index is zero. -/
theorem p1_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the closed function of the arrays the region found. -/
theorem p1_flushed_eq (c : Dev nD) (t : Fin cfg0.N) :
    (p1dat V c).flushed 3 t
      = ((cfg0.win 3).blk t).view.read (Elt Ideal) (linRows (V c main_arg0) (V c main_v5) (V c main_v8)) := by
  show (cfg0.win 3).cut (grid0.coords t) ((p1dat V c).after 3 t) = _
  rw [p1dat_after3]
  unfold p1out
  rw [View.canon_unit_zero p1_hz]
  simp only [View.ld_unit_zero (S := S2000x4) p1_hz, View.ld_unit_zero (S := S4x192) p1_hz, View.ld_unit_zero (S := S1x192) p1_hz]
  obtain ⟨e0, e1, e2, e3, e4, e5, e6, e7⟩ := p1_idx_facts t
  funext j
  show k0_pay1 (p1blk V c 0 t) (p1blk V c 1 t) (p1blk V c 2 t) j
    = linRows (V c main_arg0) (V c main_v5) (V c main_v8) (((cfg0.win 3).blk t).view.emb j)
  have hj0 : (j 0).val < 2000 := (j 0).isLt
  have hj1 : (j 1).val < 192 := (j 1).isLt
  refine p1_entry _ _ _ _ _ _ j _ (fun k => ?_) (fun k => ?_) ?_
  · show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 4 + 1 * k.val = k.val; omega
  · show V c main_v5 (((cfg0.win 1).blk t).view.emb (ix2 k (j 1))) = _
    refine congrArg (V c main_v5) (funext fun a => Fin.ext ?_)
    match a with
    | ⟨0, _⟩ => show win0_1.index t (0 : Fin 2) * 4 + 1 * k.val = k.val; omega
    | ⟨1, _⟩ => show win0_1.index t (1 : Fin 2) * 192 + 1 * (j 1).val = win0_3.index t (1 : Fin 2) * 192 + 1 * (j 1).val; omega
  · show V c main_v8 (((cfg0.win 2).blk t).view.emb (ix2 (0 : Fin 1) (j 1))) = _
    refine congrArg (V c main_v8) (funext fun a => Fin.ext ?_)
    match a with
    | ⟨0, _⟩ => show win0_2.index t (0 : Fin 2) * 1 + 1 * 0 = 0; omega
    | ⟨1, _⟩ => show win0_2.index t (1 : Fin 2) * 192 + 1 * (j 1).val = win0_3.index t (1 : Fin 2) * 192 + 1 * (j 1).val; omega

/-- An index of the result array is in point `t`'s block iff each coordinate is in the block's range on its axis. -/
theorem p1_mem_blk (t : Fin cfg0.N) (i : S50000x192.Idx) :
    i ∈ ((cfg0.win 3).blk t).view.set
      ↔ ∀ a : Fin 2, win0_3.index t a * S2000x192.size a ≤ (i a).val
          ∧ (i a).val < win0_3.index t a * S2000x192.size a + S2000x192.size a := by
  show i ∈ ((View.whole main_v9).slice (win0_3.rect t)).set ↔ _
  rw [View.set_slice_whole, Rect.mem_set_unit]
  exact Iff.rfl

/-- Every index of the result array lies in the block of the point its row falls in, and every point writes back. -/
theorem p1_covered (i : S50000x192.Idx) :
    ∃ t : Fin cfg0.N, (cfg0.win 3).flush t = true ∧ i ∈ ((cfg0.win 3).blk t).view.set := by
  have hi0 : (i 0).val < 50000 := (i 0).isLt
  have hi1 : (i 1).val < 192 := (i 1).isLt
  have hN : cfg0.N = 25 := N_0
  obtain ⟨t, ht⟩ : ∃ t : Fin cfg0.N, t.val = (i 0).val / 2000 :=
    ⟨⟨(i 0).val / 2000, (by omega : (i 0).val / 2000 < 25).trans_eq hN.symm⟩, rfl⟩
  obtain ⟨-, -, -, -, -, -, e6, e7⟩ := p1_idx_facts t
  refine ⟨t, flush0_3 t, ?_⟩
  rw [p1_mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 192 ≤ (i 1).val ∧ (i 1).val < win0_3.index t (1 : Fin 2) * 192 + 192
    omega

/-- After the first projection's pipeline the result array holds, entry by entry, the product of the features the
    region found with the weights it found plus the bias row it found. -/
theorem p1_final (c : Dev nD) :
    (p1dat V c).arrAt 3 cfg0.N = linRows (V c main_arg0) (V c main_v5) (V c main_v8) :=
  (p1dat V c).arrAt_eq_of_cover 3 _ (fun t _ => p1_flushed_eq V c t) p1_covered

end Cert.KernelIdeal.Hand

end
-- ==== Proof.KI.Proj2Val.lean ====
import proofs.«139596_j14499809592003_1_alg».proof.Proof.Arr
import proofs.«139596_j14499809592003_1_alg».proof.Proof.KI.Proj2
import proofs.«139596_j14499809592003_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.EdgeNet
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem p2_hz : (![0, 0] : Fin 2 → Nat) = fun _ => 0 := funext fun a => by fin_cases a <;> rfl

/-- The body's payload at an entry: the sum over the contracted index of the products of the row block's entries with
    the weights', plus the bias row's entry of that column. -/
theorem p2_pay_apply (x0 : Vec Ideal S2000x64 .f32) (w0 : Vec Ideal S64x192 .f32) (b0 : Vec Ideal S1x192 .f32) (j : S2000x192.Idx) :
    k1_pay1 x0 w0 b0 j = (∑ k : Fin 64, x0 (ix2 (j 0) k) * w0 (ix2 k (j 1))) + b0 (ix2 (0 : Fin 1) (j 1)) := by
  unfold k1_pay1
  simp only [shapeCast_self]
  rw [addf_apply, show (dot_S2000x64_S64x192_S2000x192_1_0_0_1_n_n : DotDims S2000x64 S64x192 S2000x192) = DotDims.plain 2000 64 192 from rfl]
  refine congrArg₂ (· + ·) ((Cert.Gnn.plain_matmul_apply 2000 64 192 none _ _ j).trans rfl) ?_
  refine broadcastTo_apply b0 _ j (ix2 (0 : Fin 1) (j 1)) fun a => ?_
  match a with
  | ⟨0, _⟩ => rfl
  | ⟨1, _⟩ => rfl

/-- The payload of blocks that read three arrays where the entry's coordinates say is the closed function's entry. -/
theorem p2_entry (X : S50000x64.Idx → EReal) (W : S64x192.Idx → EReal) (B : S1x192.Idx → EReal)
    (x0 : Vec Ideal S2000x64 .f32) (w0 : Vec Ideal S64x192 .f32) (b0 : Vec Ideal S1x192 .f32)
    (j : S2000x192.Idx) (i : S50000x192.Idx)
    (hx : ∀ k : Fin 64, x0 (ix2 (j 0) k) = X (ix2 (i 0) k))
    (hw : ∀ k : Fin 64, w0 (ix2 k (j 1)) = W (ix2 k (i 1)))
    (hb : b0 (ix2 (0 : Fin 1) (j 1)) = B (ix2 (0 : Fin 1) (i 1))) :
    k1_pay1 x0 w0 b0 j = linRows X W B i := by
  rw [p2_pay_apply]
  unfold linRows
  simp only [hx, hw, hb]

/-- The printed index maps, decided over the grid: the features' and the result's row blocks are the point's, every
    other block index is zero. -/
theorem p2_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the closed function of the arrays the region found. -/
theorem p2_flushed_eq (c : Dev nD) (t : Fin cfg1.N) :
    (p2dat V c).flushed 3 t
      = ((cfg1.win 3).blk t).view.read (Elt Ideal) (linRows (V c main_v34) (V c main_v36) (V c main_v39)) := by
  show (cfg1.win 3).cut (grid1.coords t) ((p2dat V c).after 3 t) = _
  rw [p2dat_after3]
  unfold p2out
  rw [View.canon_unit_zero p2_hz]
  simp only [View.ld_unit_zero (S := S2000x64) p2_hz, View.ld_unit_zero (S := S64x192) p2_hz, View.ld_unit_zero (S := S1x192) p2_hz]
  obtain ⟨e0, e1, e2, e3, e4, e5, e6, e7⟩ := p2_idx_facts t
  funext j
  show k1_pay1 (p2blk V c 0 t) (p2blk V c 1 t) (p2blk V c 2 t) j
    = linRows (V c main_v34) (V c main_v36) (V c main_v39) (((cfg1.win 3).blk t).view.emb j)
  have hj0 : (j 0).val < 2000 := (j 0).isLt
  have hj1 : (j 1).val < 192 := (j 1).isLt
  refine p2_entry _ _ _ _ _ _ j _ (fun k => ?_) (fun k => ?_) ?_
  · show V c main_v34 (((cfg1.win 0).blk t).view.emb (ix2 (j 0) k)) = _
    refine congrArg (V c main_v34) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * k.val = k.val; omega
  · show V c main_v36 (((cfg1.win 1).blk t).view.emb (ix2 k (j 1))) = _
    refine congrArg (V c main_v36) (funext fun a => Fin.ext ?_)
    match a with
    | ⟨0, _⟩ => show win1_1.index t (0 : Fin 2) * 64 + 1 * k.val = k.val; omega
    | ⟨1, _⟩ => show win1_1.index t (1 : Fin 2) * 192 + 1 * (j 1).val = win1_3.index t (1 : Fin 2) * 192 + 1 * (j 1).val; omega
  · show V c main_v39 (((cfg1.win 2).blk t).view.emb (ix2 (0 : Fin 1) (j 1))) = _
    refine congrArg (V c main_v39) (funext fun a => Fin.ext ?_)
    match a with
    | ⟨0, _⟩ => show win1_2.index t (0 : Fin 2) * 1 + 1 * 0 = 0; omega
    | ⟨1, _⟩ => show win1_2.index t (1 : Fin 2) * 192 + 1 * (j 1).val = win1_3.index t (1 : Fin 2) * 192 + 1 * (j 1).val; omega

/-- An index of the result array is in point `t`'s block iff each coordinate is in the block's range on its axis. -/
theorem p2_mem_blk (t : Fin cfg1.N) (i : S50000x192.Idx) :
    i ∈ ((cfg1.win 3).blk t).view.set
      ↔ ∀ a : Fin 2, win1_3.index t a * S2000x192.size a ≤ (i a).val
          ∧ (i a).val < win1_3.index t a * S2000x192.size a + S2000x192.size a := by
  show i ∈ ((View.whole main_v9).slice (win1_3.rect t)).set ↔ _
  rw [View.set_slice_whole, Rect.mem_set_unit]
  exact Iff.rfl

/-- Every index of the result array lies in the block of the point its row falls in, and every point writes back. -/
theorem p2_covered (i : S50000x192.Idx) :
    ∃ t : Fin cfg1.N, (cfg1.win 3).flush t = true ∧ i ∈ ((cfg1.win 3).blk t).view.set := by
  have hi0 : (i 0).val < 50000 := (i 0).isLt
  have hi1 : (i 1).val < 192 := (i 1).isLt
  have hN : cfg1.N = 25 := N_1
  obtain ⟨t, ht⟩ : ∃ t : Fin cfg1.N, t.val = (i 0).val / 2000 :=
    ⟨⟨(i 0).val / 2000, (by omega : (i 0).val / 2000 < 25).trans_eq hN.symm⟩, rfl⟩
  obtain ⟨-, -, -, -, -, -, e6, e7⟩ := p2_idx_facts t
  refine ⟨t, flush1_3 t, ?_⟩
  rw [p2_mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 192 ≤ (i 1).val ∧ (i 1).val < win1_3.index t (1 : Fin 2) * 192 + 192
    omega

/-- After the second projection's pipeline the result array holds, entry by entry, the product of the layer-one output the
    region found with the weights it found plus the bias row it found. -/
theorem p2_final (c : Dev nD) :
    (p2dat V c).arrAt 3 cfg1.N = linRows (V c main_v34) (V c main_v36) (V c main_v39) :=
  (p2dat V c).arrAt_eq_of_cover 3 _ (fun t _ => p2_flushed_eq V c t) p2_covered

end Cert.KernelIdeal.Hand

end
-- ==== Proof.KI.EmlpVal.lean ====
import proofs.«139596_j14499809592003_1_alg».proof.Proof.Arr
import proofs.«139596_j14499809592003_1_alg».proof.Proof.KI.Emlp
import proofs.«139596_j14499809592003_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.EdgeNet
open Idealize.ShloMosaic Idealize.ShloMosaic.TcCoe Idealize.ShloMosaic.ValueIdx
open Idealize.SL Idealize.SL.Sem
open Idealize.ShloMosaic.Pipeline (Dat Cfg Window)

/-- The matrix unit's two dimension records are the plain `M × K` by `K × N` product's. -/
theorem em_dot1_eq : dot_S3200x128_S128x256_S3200x256_1_0_0_1_n_n = DotDims.plain 3200 128 256 := rfl
theorem em_dot2_eq : dot_S3200x256_S256x4_S3200x4_1_0_0_1_n_n = DotDims.plain 3200 256 4 := rfl

/-- A plain matrix product into a zero accumulator, read at an entry: the sum over the contracted index. -/
theorem em_mm_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    matmul (DotDims.plain M K N) prec x w (constant ⟨2, ![M, N]⟩ .f32 0x00000000#32) j
      = ∑ k : Fin K, x (ix2 (j 0) k) * w (ix2 k (j 1)) :=
  Cert.Gnn.plain_matmul_apply M K N prec x w j

/-- A row (`[1, C]`) broadcast to `[R, C]`, read at `(p, q)`, is the row's entry at column `q`. -/
theorem em_row_apply {α : Type} {R C : ℕ} (v : (⟨2, ![1, C]⟩ : Shape).Idx → α)
    (h : (⟨2, ![1, C]⟩ : Shape).Broadcasts ⟨2, ![R, C]⟩) (p : Fin R) (q : Fin C) :
    broadcastTo ⟨2, ![R, C]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if C = 1 then 0 else q.val
    split
    · have := q.isLt; omega
    · rfl

theorem em_pay_apply (x0 : Vec Ideal S3200x128 .f32) (w1 : Vec Ideal S128x256 .f32) (b1 : Vec Ideal S1x256 .f32)
    (w2 : Vec Ideal S256x4 .f32) (b2 : Vec Ideal S1x4 .f32) (p : Fin 3200) (q : Fin 4) :
    k2_pay1 (F := Ideal) x0 w1 b1 w2 b2 (ix2 p q)
      = (∑ h : Fin 256, max ((∑ k : Fin 128, x0 (ix2 p k) * w1 (ix2 k h)) + b1 (ix2 (0 : Fin 1) h)) 0 * w2 (ix2 h q))
        + b2 (ix2 (0 : Fin 1) q) := by
  unfold k2_pay1
  simp only [shapeCast_self]
  rw [addf_apply, em_dot2_eq, em_dot1_eq, em_mm_apply 3200 256 4, em_row_apply]
  refine congrArg (· + b2 (ix2 (0 : Fin 1) q)) (Finset.sum_congr rfl fun h _ => ?_)
  rw [truncf_apply, truncf_apply, maximumf_apply, addf_apply, broadcast_apply]
  rw [show (ix2 p q : S3200x4.Idx) 0 = p from rfl, show (ix2 p q : S3200x4.Idx) 1 = q from rfl, em_mm_apply 3200 128 256, em_row_apply]
  rw [show (ix2 p h : S3200x256.Idx) 0 = p from rfl, show (ix2 p h : S3200x256.Idx) 1 = h from rfl]
  simp only [truncf_apply]
  rw [show (FloatOps.ofBits (F := Ideal) FTy.f32 0#32) = 0 from Ideal.ofBits_zero_f32]

variable (V : (c : Dev nD) → (b : Ref sig .tc) → Buf (Elt Ideal) ((c : Thread nD τ).loc b))

theorem em_hz : (![0, 0] : Fin 2 → Nat) = fun _ => 0 := funext fun a => by fin_cases a <;> rfl

/-- The index maps over the grid: the edge block and the result block sit at row block `t`, the four parameter
    arrays at block `(0, 0)`. -/
theorem em_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The payload at an entry of the block, by the entry's two coordinates. -/
theorem em_pay_at (x0 : Vec Ideal S3200x128 .f32) (w1 : Vec Ideal S128x256 .f32) (b1 : Vec Ideal S1x256 .f32)
    (w2 : Vec Ideal S256x4 .f32) (b2 : Vec Ideal S1x4 .f32) (j : S3200x4.Idx) :
    k2_pay1 (F := Ideal) x0 w1 b1 w2 b2 j
      = (∑ h : Fin 256, max ((∑ k : Fin 128, x0 (ix2 (j 0) k) * w1 (ix2 k h)) + b1 (ix2 (0 : Fin 1) h)) 0 * w2 (ix2 h (j 1)))
        + b2 (ix2 (0 : Fin 1) (j 1)) := by
  conv_lhs => rw [eq_ix2 j]
  exact em_pay_apply x0 w1 b1 w2 b2 (j 0) (j 1)

/-- Row `p` of the edge block at point `t` is row `3200 t + p` of the edge representation: the row the result's block
    has at `p`. -/
theorem em_rd_e (c : Dev nD) (t : Fin cfg2.N) (j : S3200x4.Idx) (k : Fin 128) :
    emblk V c 0 t (ix2 (j 0) k) = V c main_v80 (ix2 ((((cfg2.win 5).blk t).view.emb j) 0) k) := by
  show V c main_v80 (((cfg2.win 0).blk t).view.emb (ix2 (j 0) k)) = _
  refine congrArg _ (funext fun a => Fin.ext ?_)
  obtain ⟨e0, e1, e2, e3, e4, e5, e6, e7, e8, e9, e10, e11⟩ := em_idx_facts t
  match a with
  | ⟨0, _⟩ => show win2_0.index t (0 : Fin 2) * 3200 + 1 * (j 0).val = win2_5.index t (0 : Fin 2) * 3200 + 1 * (j 0).val; omega
  | ⟨1, _⟩ => show win2_0.index t (1 : Fin 2) * 128 + 1 * k.val = k.val; omega

/-- The four parameter arrays' blocks are the arrays. -/
theorem em_rd_w1 (c : Dev nD) (t : Fin cfg2.N) (k : Fin 128) (h : Fin 256) :
    emblk V c 1 t (ix2 k h) = V c main_v81 (ix2 k h) := by
  show V c main_v81 (((cfg2.win 1).blk t).view.emb (ix2 k h)) = _
  refine congrArg _ (funext fun a => Fin.ext ?_)
  obtain ⟨e0, e1, e2, e3, e4, e5, e6, e7, e8, e9, e10, e11⟩ := em_idx_facts t
  match a with
  | ⟨0, _⟩ => show win2_1.index t (0 : Fin 2) * 128 + 1 * k.val = k.val; omega
  | ⟨1, _⟩ => show win2_1.index t (1 : Fin 2) * 256 + 1 * h.val = h.val; omega

theorem em_rd_b1 (c : Dev nD) (t : Fin cfg2.N) (h : Fin 256) :
    emblk V c 2 t (ix2 (0 : Fin 1) h) = V c main_v83 (ix2 (0 : Fin 1) h) := by
  show V c main_v83 (((cfg2.win 2).blk t).view.emb (ix2 (0 : Fin 1) h)) = _
  refine congrArg _ (funext fun a => Fin.ext ?_)
  obtain ⟨e0, e1, e2, e3, e4, e5, e6, e7, e8, e9, e10, e11⟩ := em_idx_facts t
  match a with
  | ⟨0, _⟩ => show win2_2.index t (0 : Fin 2) * 1 + 1 * 0 = 0; omega
  | ⟨1, _⟩ => show win2_2.index t (1 : Fin 2) * 256 + 1 * h.val = h.val; omega

theorem em_rd_w2 (c : Dev nD) (t : Fin cfg2.N) (h : Fin 256) (j : S3200x4.Idx) :
    emblk V c 3 t (ix2 h (j 1)) = V c main_v82 (ix2 h ((((cfg2.win 5).blk t).view.emb j) 1)) := by
  show V c main_v82 (((cfg2.win 3).blk t).view.emb (ix2 h (j 1))) = _
  refine congrArg _ (funext fun a => Fin.ext ?_)
  obtain ⟨e0, e1, e2, e3, e4, e5, e6, e7, e8, e9, e10, e11⟩ := em_idx_facts t
  match a with
  | ⟨0, _⟩ => show win2_3.index t (0 : Fin 2) * 256 + 1 * h.val = h.val; omega
  | ⟨1, _⟩ => show win2_3.index t (1 : Fin 2) * 4 + 1 * (j 1).val = win2_5.index t (1 : Fin 2) * 4 + 1 * (j 1).val; omega

theorem em_rd_b2 (c : Dev nD) (t : Fin cfg2.N) (j : S3200x4.Idx) :
    emblk V c 4 t (ix2 (0 : Fin 1) (j 1)) = V c main_v84 (ix2 (0 : Fin 1) ((((cfg2.win 5).blk t).view.emb j) 1)) := by
  show V c main_v84 (((cfg2.win 4).blk t).view.emb (ix2 (0 : Fin 1) (j 1))) = _
  refine congrArg _ (funext fun a => Fin.ext ?_)
  obtain ⟨e0, e1, e2, e3, e4, e5, e6, e7, e8, e9, e10, e11⟩ := em_idx_facts t
  match a with
  | ⟨0, _⟩ => show win2_4.index t (0 : Fin 2) * 1 + 1 * 0 = 0; omega
  | ⟨1, _⟩ => show win2_4.index t (1 : Fin 2) * 4 + 1 * (j 1).val = win2_5.index t (1 : Fin 2) * 4 + 1 * (j 1).val; omega

/-- What point `t` writes back is block `t` of the two-layer network of the arrays the region found. -/
theorem em_flushed_eq (c : Dev nD) (t : Fin cfg2.N) :
    (emdat V c).flushed 5 t = ((cfg2.win 5).blk t).view.read (Elt Ideal)
      (mlpRows (V c main_v80) (V c main_v81) (V c main_v83) (V c main_v82) (V c main_v84)) := by
  show (cfg2.win 5).cut (grid2.coords t) ((emdat V c).after 5 t) = _
  rw [emdat_after5]
  unfold emout
  rw [View.canon_unit_zero em_hz]
  simp only [View.ld_unit_zero (S := S3200x128) em_hz, View.ld_unit_zero (S := S128x256) em_hz, View.ld_unit_zero (S := S1x256) em_hz, View.ld_unit_zero (S := S256x4) em_hz, View.ld_unit_zero (S := S1x4) em_hz]
  funext j
  show k2_pay1 (F := Ideal) (emblk V c 0 t) (emblk V c 1 t) (emblk V c 2 t) (emblk V c 3 t) (emblk V c 4 t) j
    = mlpRows (V c main_v80) (V c main_v81) (V c main_v83) (V c main_v82) (V c main_v84) (((cfg2.win 5).blk t).view.emb j)
  refine (em_pay_at _ _ _ _ _ j).trans ?_
  unfold mlpRows
  simp only [em_rd_e V c t j, em_rd_w1 V c t, em_rd_b1 V c t, em_rd_w2 V c t _ j, em_rd_b2 V c t j]

/-- An index of the result array is in point `t`'s block iff each coordinate is in the block's range on its axis. -/
theorem em_mem_blk (t : Fin cfg2.N) (i : S800000x4.Idx) :
    i ∈ ((cfg2.win 5).blk t).view.set ↔ ∀ a : Fin 2, win2_5.index t a * S3200x4.size a ≤ (i a).val ∧ (i a).val < win2_5.index t a * S3200x4.size a + S3200x4.size a := by
  show i ∈ ((View.whole main_v85).slice (win2_5.rect t)).set ↔ _
  rw [View.set_slice_whole, Rect.mem_set_unit]
  exact Iff.rfl

/-- Every row of the result lies in the block of the point `row / 3200`, which is written back. -/
theorem em_covered (i : S800000x4.Idx) :
    ∃ t : Fin cfg2.N, (cfg2.win 5).flush t = true ∧ i ∈ ((cfg2.win 5).blk t).view.set := by
  have hi0 : (i 0).val < 800000 := (i 0).isLt
  have hi1 : (i 1).val < 4 := (i 1).isLt
  have ht : (i 0).val / 3200 < 250 := by omega
  refine ⟨⟨(i 0).val / 3200, ht⟩, flush2_5 _, ?_⟩
  rw [em_mem_blk]
  obtain ⟨e0, e1, e2, e3, e4, e5, e6, e7, e8, e9, e10, e11⟩ := em_idx_facts ⟨(i 0).val / 3200, ht⟩
  intro a
  match a with
  | ⟨0, _⟩ =>
    show win2_5.index ⟨(i 0).val / 3200, ht⟩ (0 : Fin 2) * 3200 ≤ (i 0).val ∧ (i 0).val < win2_5.index ⟨(i 0).val / 3200, ht⟩ (0 : Fin 2) * 3200 + 3200
    rw [e10]
    show (i 0).val / 3200 * 3200 ≤ (i 0).val ∧ (i 0).val < (i 0).val / 3200 * 3200 + 3200
    omega
  | ⟨1, _⟩ =>
    show win2_5.index ⟨(i 0).val / 3200, ht⟩ (1 : Fin 2) * 4 ≤ (i 1).val ∧ (i 1).val < win2_5.index ⟨(i 0).val / 3200, ht⟩ (1 : Fin 2) * 4 + 4
    rw [e11]
    omega

/-- After the edge network's pipeline the result array holds, entry by entry, the two-layer network of the edge
    representation the region found, with the weights and bias rows it found. -/
theorem em_final (c : Dev nD) :
    (emdat V c).arrAt 5 cfg2.N = mlpRows (V c main_v80) (V c main_v81) (V c main_v83) (V c main_v82) (V c main_v84) :=
  (emdat V c).arrAt_eq_of_cover 5 _ (fun t _ => em_flushed_eq V c t) em_covered

end Cert.KernelIdeal.Hand

end
-- ==== Proof.LibNary3.lean ====
/-
  A host operation over three operand buffers, read at its result.

  The general result lemma for an operation over a family of operand references leaves the operands' contents under a
  binder, `fun k => F (xs k)`, where no further result lemma applies to the reference `xs k`. For a literal family of
  three references the result is stated here with each operand's contents at its own reference, so that a rewriting
  pass goes on into the operands; the composed term is then the operation's function applied to the three contents
  (β, then the three cases of the index).
-/
import Idealize.ShloMosaic.Lib.StableHlo.Run

namespace Idealize.ShloMosaic.StableHlo

variable {nD : Nat} {τ : Topo} {sig : RefSig} {Val : EltTy → Type}

section

variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end

/-- What one buffer holds after a line of host operations, in one rewriting pass: each operation's result at its own
    result buffer is its function's value and at any other reference what was there, an operation over three
    literal operand references included. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KI.Chain.lean ====
import proofs.«139596_j14499809592003_1_alg».proof.Proof.KI.Run
import proofs.«139596_j14499809592003_1_alg».proof.Proof.KI.Terms
import proofs.«139596_j14499809592003_1_alg».proof.Proof.KI.Proj1Val
import proofs.«139596_j14499809592003_1_alg».proof.Proof.KI.Proj2Val
import proofs.«139596_j14499809592003_1_alg».proof.Proof.KI.EmlpVal
import proofs.«139596_j14499809592003_1_alg».proof.Proof.LibNary3
import Idealize.ShloMosaic.Lib.StableHlo.Run

set_option maxRecDepth 16384

noncomputable section

namespace Cert.KernelIdeal.Hand

open Cert.KernelIdeal Cert.KernelIdeal.Gen Cert.EdgeNet
open Idealize.ShloMosaic Idealize.ShloMosaic.TcCoe Idealize.SL.Sem Idealize.ShloMosaic.StableHlo

/-! # What the host stretches compute, buffer by buffer

Each lemma reads one buffer after a host stretch as a function of the buffers the stretch found, for ANY contents
found: the stretch's operations composed. -/

/-- One rewriting pass over a line of host operations: each operation's result at its own buffer is its function's
    value, at any other buffer what was there; an operation over three literal operands hands each its own contents. -/
macro "host_read" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, Fin.cons_succ]))

section Stages
variable {F : FTy → Type} [FloatOps F] (X : Valuation τ sig (Elt F))

theorem host0_src : StableHlo.after hostOps0 X (Proc.devRef .tc main_v1) = srcRow (X (Proc.devRef .tc main_arg1)) := by
  host_read <;> try rfl
theorem host0_dst : StableHlo.after hostOps0 X (Proc.devRef .tc main_v3) = dstRow (X (Proc.devRef .tc main_arg1)) := by
  host_read <;> try rfl
theorem host0_weights : StableHlo.after hostOps0 X (Proc.devRef .tc main_v5)
    = stackW1 (X (Proc.devRef .tc main_arg3)) (X (Proc.devRef .tc main_arg5)) (X (Proc.devRef .tc main_arg6)) := by
  host_read <;> try rfl
theorem host0_bias : StableHlo.after hostOps0 X (Proc.devRef .tc main_v8)
    = stackB (X (Proc.devRef .tc main_arg4)) (X (Proc.devRef .tc main_arg7)) := by
  host_read <;> try rfl

set_option maxHeartbeats 4000000 in
theorem host1_out : StableHlo.after hostOps1 X (Proc.devRef .tc main_v34)
    = layerOut (X (Proc.devRef .tc main_v9)) (X (Proc.devRef .tc main_v1)) (X (Proc.devRef .tc main_v3)) (X (Proc.devRef .tc main_arg2)) := by
  host_read <;> try rfl
set_option maxHeartbeats 4000000 in
theorem host1_weights : StableHlo.after hostOps1 X (Proc.devRef .tc main_v36)
    = stackW2 (X (Proc.devRef .tc main_arg8)) (X (Proc.devRef .tc main_arg10)) (X (Proc.devRef .tc main_arg11)) := by
  host_read <;> try rfl
set_option maxHeartbeats 4000000 in
theorem host1_bias : StableHlo.after hostOps1 X (Proc.devRef .tc main_v39)
    = stackB (X (Proc.devRef .tc main_arg9)) (X (Proc.devRef .tc main_arg12)) := by
  host_read <;> try rfl

set_option maxHeartbeats 4000000 in
theorem host2_edges : StableHlo.after hostOps2 X (Proc.devRef .tc main_v80)
    = edgeRep (layerOut (X (Proc.devRef .tc main_v40)) (X (Proc.devRef .tc main_v1)) (X (Proc.devRef .tc main_v3)) (X (Proc.devRef .tc main_arg2)))
        (X (Proc.devRef .tc main_v1)) (X (Proc.devRef .tc main_v3)) := by
  host_read <;> try rfl
set_option maxHeartbeats 4000000 in
theorem host2_w1 : StableHlo.after hostOps2 X (Proc.devRef .tc main_v81)
    = transpose S128x256 [1, 0] (X (Proc.devRef .tc main_arg13)) Facts₀.transposes_S256x128_S128x256_1_0 := by
  host_read <;> try rfl
set_option maxHeartbeats 4000000 in
theorem host2_w2 : StableHlo.after hostOps2 X (Proc.devRef .tc main_v82)
    = transpose S256x4 [1, 0] (X (Proc.devRef .tc main_arg15)) Facts₀.transposes_S4x256_S256x4_1_0 := by
  host_read <;> try rfl
set_option maxHeartbeats 4000000 in
theorem host2_b1 : StableHlo.after hostOps2 X (Proc.devRef .tc main_v83)
    = shapeCast S1x256 (X (Proc.devRef .tc main_arg14)) Facts₀.shapeCasts_S256_S1x256 := by
  host_read <;> try rfl
set_option maxHeartbeats 4000000 in
theorem host2_b2 : StableHlo.after hostOps2 X (Proc.devRef .tc main_v84)
    = shapeCast S1x4 (X (Proc.devRef .tc main_arg16)) Facts₀.shapeCasts_S4_S1x4 := by
  host_read <;> try rfl

end Stages

/-! # The result buffer as a function of the launch memory -/

section Result
variable (m : (ℓ : Loc nD τ sig) → Buf (Elt Ideal) ℓ) (ρ : Dev nD → PrngReg) (c : Dev nD)

/-- A buffer the first stretch does not write still holds its launch contents after it. -/
theorem W1_kept (b : Ref sig .tc) (h : b ∉ hostOps0_W) : W1 m ρ c (Proc.devRef .tc b) = m ((c : Thread nD τ).loc b) :=
  StableHlo.after_of_writes_sub hostOps0 _ hostOps0_writes h
theorem W3_kept (b : Ref sig .tc) (h : b ∉ hostOps1_W) : W3 m ρ c (Proc.devRef .tc b) = W2 m ρ c (Proc.devRef .tc b) :=
  StableHlo.after_of_writes_sub hostOps1 _ hostOps1_writes h
theorem W5_kept (b : Ref sig .tc) (h : b ∉ hostOps2_W) : W5 m ρ c (Proc.devRef .tc b) = W4 m ρ c (Proc.devRef .tc b) :=
  StableHlo.after_of_writes_sub hostOps2 _ hostOps2_writes h
/-- An argument no pipeline writes, read before the second pipeline, -/
theorem W2_arg (b : Ref sig .tc) (h0 : b ∉ hostOps0_W) (hp : ∀ w, Pipeline.arrRef spec0 w ≠ b) :
    W2 m ρ c (Proc.devRef .tc b) = m ((c : Thread nD τ).loc b) :=
  (W2_of_ne m ρ c b hp).trans (W1_kept m ρ c b h0)
/-- and before the third. -/
theorem W4_arg (b : Ref sig .tc) (h0 : b ∉ hostOps0_W) (h1 : b ∉ hostOps1_W) (hp : ∀ w, Pipeline.arrRef spec0 w ≠ b)
    (hq : ∀ w, Pipeline.arrRef spec1 w ≠ b) : W4 m ρ c (Proc.devRef .tc b) = m ((c : Thread nD τ).loc b) :=
  (W4_of_ne m ρ c b hq).trans ((W3_kept m ρ c b h1).trans (W2_arg m ρ c b h0 hp))

/-- The source endpoints, computed in the first stretch, are still there when the later stretches read them. -/
theorem W2_src : W2 m ρ c (Proc.devRef .tc main_v1) = srcRow (m ((c : Thread nD τ).loc main_arg1)) :=
  (W2_of_ne m ρ c main_v1 (by decide)).trans (host0_src _)
theorem W2_dst : W2 m ρ c (Proc.devRef .tc main_v3) = dstRow (m ((c : Thread nD τ).loc main_arg1)) :=
  (W2_of_ne m ρ c main_v3 (by decide)).trans (host0_dst _)
theorem W4_src : W4 m ρ c (Proc.devRef .tc main_v1) = srcRow (m ((c : Thread nD τ).loc main_arg1)) :=
  (W4_of_ne m ρ c main_v1 (by decide)).trans ((W3_kept m ρ c main_v1 (by decide)).trans (W2_src m ρ c))
theorem W4_dst : W4 m ρ c (Proc.devRef .tc main_v3) = dstRow (m ((c : Thread nD τ).loc main_arg1)) :=
  (W4_of_ne m ρ c main_v3 (by decide)).trans ((W3_kept m ρ c main_v3 (by decide)).trans (W2_dst m ρ c))

/-- Layer one's stacked projection, as the first pipeline leaves it. -/
def proj1 : Arr (F := Ideal) S50000x192 .f32 :=
  linRows (m ((c : Thread nD τ).loc main_arg0)) (stackW1 (m ((c : Thread nD τ).loc main_arg3)) (m ((c : Thread nD τ).loc main_arg5)) (m ((c : Thread nD τ).loc main_arg6))) (stackB (m ((c : Thread nD τ).loc main_arg4)) (m ((c : Thread nD τ).loc main_arg7)))
/-- Layer one's output. -/
def out1 : Arr (F := Ideal) S50000x64 .f32 := layerOut (proj1 m c) (srcRow (m ((c : Thread nD τ).loc main_arg1))) (dstRow (m ((c : Thread nD τ).loc main_arg1))) (m ((c : Thread nD τ).loc main_arg2))
/-- Layer two's stacked projection, as the second pipeline leaves it. -/
def proj2 : Arr (F := Ideal) S50000x192 .f32 :=
  linRows (out1 m c) (stackW2 (m ((c : Thread nD τ).loc main_arg8)) (m ((c : Thread nD τ).loc main_arg10)) (m ((c : Thread nD τ).loc main_arg11))) (stackB (m ((c : Thread nD τ).loc main_arg9)) (m ((c : Thread nD τ).loc main_arg12)))
/-- Layer two's output. -/
def out2 : Arr (F := Ideal) S50000x64 .f32 := layerOut (proj2 m c) (srcRow (m ((c : Thread nD τ).loc main_arg1))) (dstRow (m ((c : Thread nD τ).loc main_arg1))) (m ((c : Thread nD τ).loc main_arg2))
/-- The kernel program's result: the edge network on the edge representation of layer two's output. -/
def kresult : Arr (F := Ideal) S800000x4 .f32 :=
  mlpRows (edgeRep (out2 m c) (srcRow (m ((c : Thread nD τ).loc main_arg1))) (dstRow (m ((c : Thread nD τ).loc main_arg1))))
    (transpose S128x256 [1, 0] (m ((c : Thread nD τ).loc main_arg13)) Facts₀.transposes_S256x128_S128x256_1_0) (shapeCast S1x256 (m ((c : Thread nD τ).loc main_arg14)) Facts₀.shapeCasts_S256_S1x256)
    (transpose S256x4 [1, 0] (m ((c : Thread nD τ).loc main_arg15)) Facts₀.transposes_S4x256_S256x4_1_0) (shapeCast S1x4 (m ((c : Thread nD τ).loc main_arg16)) Facts₀.shapeCasts_S4_S1x4)

theorem W2_proj : W2 m ρ c (Proc.devRef .tc main_v9) = proj1 m c := by
  refine (W2_arr m ρ c 3).trans ?_
  rw [p1_final]
  show linRows (W1 m ρ c (Proc.devRef .tc main_arg0)) (W1 m ρ c (Proc.devRef .tc main_v5)) (W1 m ρ c (Proc.devRef .tc main_v8)) = _
  rw [W1_kept m ρ c main_arg0 (by decide), show W1 m ρ c (Proc.devRef .tc main_v5) = _ from host0_weights _,
    show W1 m ρ c (Proc.devRef .tc main_v8) = _ from host0_bias _]
  rfl

theorem W3_out : W3 m ρ c (Proc.devRef .tc main_v34) = out1 m c := by
  rw [show W3 m ρ c (Proc.devRef .tc main_v34) = _ from host1_out _, W2_proj, W2_src, W2_dst,
    W2_arg m ρ c main_arg2 (by decide) (by decide)]
  rfl

theorem W4_proj : W4 m ρ c (Proc.devRef .tc main_v40) = proj2 m c := by
  refine (W4_arr m ρ c 3).trans ?_
  rw [p2_final]
  show linRows (W3 m ρ c (Proc.devRef .tc main_v34)) (W3 m ρ c (Proc.devRef .tc main_v36)) (W3 m ρ c (Proc.devRef .tc main_v39)) = _
  rw [W3_out, show W3 m ρ c (Proc.devRef .tc main_v36) = _ from host1_weights _,
    show W3 m ρ c (Proc.devRef .tc main_v39) = _ from host1_bias _,
    W2_arg m ρ c main_arg8 (by decide) (by decide), W2_arg m ρ c main_arg10 (by decide) (by decide),
    W2_arg m ρ c main_arg11 (by decide) (by decide), W2_arg m ρ c main_arg9 (by decide) (by decide),
    W2_arg m ρ c main_arg12 (by decide) (by decide)]
  rfl

theorem W5_edges : W5 m ρ c (Proc.devRef .tc main_v80) = edgeRep (out2 m c) (srcRow (m ((c : Thread nD τ).loc main_arg1))) (dstRow (m ((c : Thread nD τ).loc main_arg1))) := by
  rw [show W5 m ρ c (Proc.devRef .tc main_v80) = _ from host2_edges _, W4_proj, W4_src, W4_dst,
    W4_arg m ρ c main_arg2 (by decide) (by decide) (by decide) (by decide)]
  rfl

/-- THE RESULT: after the run's last valuation the result buffer holds `kresult` of the launch memory. -/
theorem W6_result : W6 m ρ c (Proc.devRef .tc main_v85) = kresult m c := by
  refine (W6_arr m ρ c 5).trans ?_
  rw [em_final]
  show mlpRows (W5 m ρ c (Proc.devRef .tc main_v80)) (W5 m ρ c (Proc.devRef .tc main_v81)) (W5 m ρ c (Proc.devRef .tc main_v83))
    (W5 m ρ c (Proc.devRef .tc main_v82)) (W5 m ρ c (Proc.devRef .tc main_v84)) = _
  rw [W5_edges, show W5 m ρ c (Proc.devRef .tc main_v81) = _ from host2_w1 _, show W5 m ρ c (Proc.devRef .tc main_v83) = _ from host2_b1 _,
    show W5 m ρ c (Proc.devRef .tc main_v82) = _ from host2_w2 _, show W5 m ρ c (Proc.devRef .tc main_v84) = _ from host2_b2 _,
    W4_arg m ρ c main_arg13 (by decide) (by decide) (by decide) (by decide), W4_arg m ρ c main_arg14 (by decide) (by decide) (by decide) (by decide),
    W4_arg m ρ c main_arg15 (by decide) (by decide) (by decide) (by decide), W4_arg m ρ c main_arg16 (by decide) (by decide) (by decide) (by decide)]
  rfl

end Result

end Cert.KernelIdeal.Hand

end
-- ==== Proof.Bridge.RefTerms.lean ====
import proofs.«139596_j14499809592003_1_alg».proof.Proof.Gen.ReferenceIdeal.Run
import Idealize.ShloMosaic.Lib.ValueIdx

noncomputable section

namespace Cert.ReferenceIdeal.Hand

open Cert.ReferenceIdeal Cert.ReferenceIdeal.Facts₀ Cert.ReferenceIdeal.Facts Idealize.ShloMosaic Idealize.ShloMosaic.TcCoe Idealize.SL.Sem

variable {F : FTy → Type} [FloatOps F]

/-! # The reference program's result, folded into the functions it repeats

The reference computes each linear map separately (a product with a transposed weight matrix, a bias row added to
every row), runs the same round of message passing twice, and applies the two-layer network to the edge
representation. Its run states the result as one nested term; here that term is folded into named functions. -/

abbrev Arr (s : Shape) (e : EltTy) : Type := (⟨s, e⟩ : BufTy).Contents (Elt F)

def srcRow (ei : Arr (F := F) S2x800000 .i32) : Arr (F := F) S800000 .i32 :=
  shapeCast S800000 (extractStridedSlice S1x800000 ![0, 0] ei slices_S2x800000_S1x800000_0_0) shapeCasts_S1x800000_S800000
def dstRow (ei : Arr (F := F) S2x800000 .i32) : Arr (F := F) S800000 .i32 :=
  shapeCast S800000 (extractStridedSlice S1x800000 ![1, 0] ei slices_S2x800000_S1x800000_1_0) shapeCasts_S1x800000_S800000

def nodeCol (ix : Arr (F := F) S800000 .i32) : Arr (F := F) S800000x1 .i32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

def atNodes (x : Arr (F := F) S50000x64 .f32) (ix : Arr (F := F) S800000 .i32) : Arr (F := F) S800000x64 .f32 :=
  Host.gather gather_S50000x64_S800000x1_S800000x64_1_0_n_n_0_1_164 x (nodeCol ix)

def aggregate (a b : Arr (F := F) S50000x64 .f32) (src dst : Arr (F := F) S800000 .i32) (ew : Arr (F := F) S800000 .f32) :
    Arr (F := F) S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf (subf (atNodes a src) (atNodes b dst))
      (broadcastInDim S800000x64 ![0, 1] bcast_S800000x1_S800000x64_0_1 (broadcastInDim S800000x1 ![0] bcast_S800000_S800000x1_0 ew)))

/-- A product of the node features with a transposed 64 × 4 weight matrix. -/
def lin4 (x : Arr (F := F) S50000x4 .f32) (w : Arr (F := F) S64x4 .f32) : Arr (F := F) S50000x64 .f32 :=
  Host.dotGeneral dot_S50000x4_S4x64_S50000x64_1_0_0_1_n_n none x (transpose S4x64 [1, 0] w transposes_S64x4_S4x64_1_0)
/-- A product of a node array with a transposed 64 × 64 weight matrix. -/
def lin64 (q : Arr (F := F) S50000x64 .f32) (w : Arr (F := F) S64x64 .f32) : Arr (F := F) S50000x64 .f32 :=
  Host.dotGeneral dot_S50000x64_S64x64_S50000x64_1_0_0_1_n_n none q (transpose S64x64 [1, 0] w transposes_S64x64_S64x64_1_0)
/-- A bias vector added to every node's row. -/
def biasRows (b : Arr (F := F) S64 .f32) : Arr (F := F) S50000x64 .f32 :=
  broadcastInDim S50000x64 ![0, 1] bcast_S1x64_S50000x64_0_1 (broadcastInDim S1x64 ![1] bcast_S64_S1x64_1 b)

/-- A linear map of the node features with its bias. -/
def affine4 (x : Arr (F := F) S50000x4 .f32) (w : Arr (F := F) S64x4 .f32) (b : Arr (F := F) S64 .f32) : Arr (F := F) S50000x64 .f32 :=
  addf (lin4 x w) (biasRows b)
/-- A linear map of a node array with its bias. -/
def affine64 (q : Arr (F := F) S50000x64 .f32) (w : Arr (F := F) S64x64 .f32) (b : Arr (F := F) S64 .f32) : Arr (F := F) S50000x64 .f32 :=
  addf (lin64 q w) (biasRows b)

def layer4 (x : Arr (F := F) S50000x4 .f32) (w1 : Arr (F := F) S64x4 .f32) (b1 : Arr (F := F) S64 .f32) (w2 w3 : Arr (F := F) S64x4 .f32)
    (b3 : Arr (F := F) S64 .f32) (src dst : Arr (F := F) S800000 .i32) (ew : Arr (F := F) S800000 .f32) : Arr (F := F) S50000x64 .f32 :=
  addf (addf (aggregate (affine4 x w1 b1) (lin4 x w2) src dst ew) (lin4 x w3)) (biasRows b3)
def layer64 (q : Arr (F := F) S50000x64 .f32) (w1 : Arr (F := F) S64x64 .f32) (b1 : Arr (F := F) S64 .f32) (w2 w3 : Arr (F := F) S64x64 .f32)
    (b3 : Arr (F := F) S64 .f32) (src dst : Arr (F := F) S800000 .i32) (ew : Arr (F := F) S800000 .f32) : Arr (F := F) S50000x64 .f32 :=
  addf (addf (aggregate (affine64 q w1 b1) (lin64 q w2) src dst ew) (lin64 q w3)) (biasRows b3)

def edgeRep (q : Arr (F := F) S50000x64 .f32) (src dst : Arr (F := F) S800000 .i32) : Arr (F := F) S800000x128 .f32 :=
  concatenate S800000x128 1 [⟨S800000x64, atNodes q src⟩, ⟨S800000x64, atNodes q dst⟩] concatenates_S800000x64_S800000x64_S800000x128_d1

/-- The two-layer edge network on the whole edge representation. -/
def edgeNet (e : Arr (F := F) S800000x128 .f32) (w1 : Arr (F := F) S256x128 .f32) (b1 : Arr (F := F) S256 .f32)
    (w2 : Arr (F := F) S4x256 .f32) (b2 : Arr (F := F) S4 .f32) : Arr (F := F) S800000x4 .f32 :=
  addf (Host.dotGeneral dot_S800000x256_S256x4_S800000x4_1_0_0_1_n_n none
      (maximumf (addf (Host.dotGeneral dot_S800000x128_S128x256_S800000x256_1_0_0_1_n_n none e (transpose S128x256 [1, 0] w1 transposes_S256x128_S128x256_1_0))
          (broadcastInDim S800000x256 ![0, 1] bcast_S1x256_S800000x256_0_1 (broadcastInDim S1x256 ![1] bcast_S256_S1x256_1 b1)))
        (broadcastInDim S800000x256 ![] bcast_S_S800000x256 (constant (F := F) S_ .f32 0x00000000#32)))
      (transpose S256x4 [1, 0] w2 transposes_S4x256_S256x4_1_0))
    (broadcastInDim S800000x4 ![0, 1] bcast_S1x4_S800000x4_0_1 (broadcastInDim S1x4 ![1] bcast_S4_S1x4_1 b2))

/-- The reference's result as a function of the launch memory. -/
def result (m : (ℓ : Loc nD τ sig) → Buf (Elt F) ℓ) (c : Dev nD) : Arr (F := F) S800000x4 .f32 :=
  let ei := m ((c.tc : Thread nD τ).loc main_arg1)
  let ew := m ((c.tc : Thread nD τ).loc main_arg2)
  let q1 := layer4 (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (srcRow ei) (dstRow ei) ew
  let q2 := layer64 q1 (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) (srcRow ei) (dstRow ei) ew
  edgeNet (edgeRep q2 (srcRow ei) (dstRow ei)) (m ((c.tc : Thread nD τ).loc main_arg13)) (m ((c.tc : Thread nD τ).loc main_arg14))
    (m ((c.tc : Thread nD τ).loc main_arg15)) (m ((c.tc : Thread nD τ).loc main_arg16))

set_option maxRecDepth 8192 in
/-- The run's result term is that function: the same operations, grouped. -/
theorem result_eq (m : (ℓ : Loc nD τ sig) → Buf (Elt F) ℓ) (c : Dev nD) : Cert.ReferenceIdeal.Value.res_main_v97 m c = result m c := by
  unfold Cert.ReferenceIdeal.Value.res_main_v97; rfl

end Cert.ReferenceIdeal.Hand

end
-- ==== Proof.LibConcat3.lean ====
/-
  A concatenation of three vectors of one length, read at a row.

  Three vectors x, y, z of length n laid end to end along their one axis form a vector of length 3n whose entry at
  row i is x at i when i < n, y at i − n when n ≤ i < 2n, and z at i − 2n otherwise.
-/
import Idealize.ShloMosaic.Lib.Pipeline.Value
import Idealize.ShloMosaic.Lib.ValueIdx

namespace Idealize.ShloMosaic

open Idealize.ShloMosaic.ValueIdx

/-- Row `i` of the concatenation of three length-`n` vectors along their axis is the row of the piece whose span holds
    `i`, at `i` less the lengths before it. -/
theorem concatenate_three_apply {α : Type} (n N : Nat) (x y z : (⟨1, ![n]⟩ : Shape).Idx → α)
    (h : Shape.Concatenates [(⟨1, ![n]⟩ : Shape), ⟨1, ![n]⟩, ⟨1, ![n]⟩] (⟨1, ![N]⟩ : Shape) 0) (i : Fin N) :
    concatenate (⟨1, ![N]⟩ : Shape) 0 [⟨(⟨1, ![n]⟩ : Shape), x⟩, ⟨(⟨1, ![n]⟩ : Shape), y⟩, ⟨(⟨1, ![n]⟩ : Shape), z⟩] h (ix1 i)
      = if h1 : i.val < n then x (ix1 ⟨i.val, h1⟩)
        else if h2 : i.val < 2 * n then y (ix1 ⟨i.val - n, by omega⟩)
        else z (ix1 ⟨i.val - 2 * n, by
          have hN : N = n + (n + (n + 0)) := by
            have := h.2.2; simpa using this.symm
          have := i.isLt; omega⟩) := by
  have hN : N = n + (n + (n + 0)) := by
    have := h.2.2; simpa using this.symm
  split
  · rename_i h1
    refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
      0 (by simp) _ x rfl rfl 0 (by simp) (ix1 ⟨i.val, h1⟩) (fun b hb => absurd (Subsingleton.elim _ _) hb) ?_
    show 0 + i.val = i.val
    omega
  · rename_i h1
    split
    · rename_i h2
      refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
        1 (by simp) _ y rfl rfl n (by simp) (ix1 ⟨i.val - n, by omega⟩) (fun b hb => absurd (Subsingleton.elim _ _) hb) ?_
      show n + (i.val - n) = i.val
      omega
    · rename_i h2
      refine concatenate_apply_piece (t := (⟨1, ![N]⟩ : Shape)) (0 : Fin 1) [⟨(⟨1, ![n]⟩ : Shape), x⟩, ⟨(⟨1, ![n]⟩ : Shape), y⟩, ⟨(⟨1, ![n]⟩ : Shape), z⟩] h (ix1 i)
        2 (by simp) _ z rfl rfl (2 * n) (by simp; omega) (ix1 ⟨i.val - 2 * n, by have := i.isLt; omega⟩)
        (fun b hb => absurd (Subsingleton.elim _ _) hb) ?_
      show 2 * n + (i.val - 2 * n) = i.val
      omega

end Idealize.ShloMosaic
-- ==== Proof.Bridge.Lin4.lean ====
import proofs.«139596_j14499809592003_1_alg».proof.Proof.Arr
import proofs.«139596_j14499809592003_1_alg».proof.Proof.KI.Terms
import proofs.«139596_j14499809592003_1_alg».proof.Proof.Bridge.RefTerms
import proofs.«139596_j14499809592003_1_alg».proof.Proof.Gen.ReferenceIdeal.Read
import proofs.«139596_j14499809592003_1_alg».proof.Proof.LibConcat3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.EdgeNet Idealize.ShloMosaic Idealize.ShloMosaic.ValueIdx

/-- Kernel-side array types and reference-side array types at the ideal instance (the same types, named by each
    program's own shapes). -/
private abbrev KArr (s : Shape) (e : EltTy) : Type := Cert.KernelIdeal.Hand.Arr (F := Ideal) s e

section Panels
open Cert.KernelIdeal Cert.KernelIdeal.Hand
variable (p : KArr S50000x192 .f32)

/-- Panel A at (n, j) is the array at (n, j). -/
theorem panelA_apply (n : Fin 50000) (j : Fin 64) :
    panelA p (ix2 n j) = p (ix2 n (⟨j.val, by have := j.isLt; omega⟩ : Fin 192)) := by
  unfold panelA
  exact extractStridedSlice_apply ![0, 0] p _ (ix2 n j) (ix2 n ⟨j.val, _⟩) (fun a => match a with
    | ⟨0, _⟩ => by show n.val = 0 + n.val; omega
    | ⟨1, _⟩ => by show j.val = 0 + j.val; omega)

/-- Panel B at (n, j) is the array at (n, 64 + j). -/
theorem panelB_apply (n : Fin 50000) (j : Fin 64) :
    panelB p (ix2 n j) = p (ix2 n (⟨64 + j.val, by have := j.isLt; omega⟩ : Fin 192)) := by
  unfold panelB
  exact extractStridedSlice_apply ![0, 64] p _ (ix2 n j) (ix2 n ⟨64 + j.val, _⟩) (fun a => match a with
    | ⟨0, _⟩ => by show n.val = 0 + n.val; omega
    | ⟨1, _⟩ => by show 64 + j.val = 64 + j.val; omega)

/-- Panel C at (n, j) is the array at (n, 128 + j). -/
theorem panelC_apply (n : Fin 50000) (j : Fin 64) :
    panelC p (ix2 n j) = p (ix2 n (⟨128 + j.val, by have := j.isLt; omega⟩ : Fin 192)) := by
  unfold panelC
  exact extractStridedSlice_apply ![0, 128] p _ (ix2 n j) (ix2 n ⟨128 + j.val, _⟩) (fun a => match a with
    | ⟨0, _⟩ => by show n.val = 0 + n.val; omega
    | ⟨1, _⟩ => by show 128 + j.val = 128 + j.val; omega)
end Panels

section Stack
open Cert.KernelIdeal Cert.KernelIdeal.Hand
variable (w1 w2 w3 : KArr S64x4 .f32) (b1 b3 : KArr S64 .f32)

/-- Column j of the stacked, transposed weights is row j of the first matrix. -/
theorem stackW1_A (k : Fin 4) (j : Fin 64) :
    stackW1 w1 w2 w3 (ix2 k (⟨j.val, by have := j.isLt; omega⟩ : Fin 192)) = w1 (ix2 j k) := by
  unfold stackW1
  refine (transpose_apply [1, 0] _ _ (ix2 k (⟨j.val, by have := j.isLt; omega⟩ : Fin 192)) (ix2 (⟨j.val, by have := j.isLt; omega⟩ : Fin 192) k) (fun b => match b with
    | ⟨0, _⟩ => rfl
    | ⟨1, _⟩ => rfl)).trans ?_
  refine concatenate_apply_piece (t := S192x4) (0 : Fin 2) [⟨S64x4, w1⟩, ⟨S64x4, w2⟩, ⟨S64x4, w3⟩] _ _
    0 (by simp) _ w1 rfl rfl 0 (by simp) (ix2 j k) (fun b hb => match b, hb with
      | ⟨0, _⟩, hb => absurd rfl hb
      | ⟨1, _⟩, _ => rfl) ?_
  show 0 + j.val = j.val
  omega

/-- Column 64 + j of the stacked, transposed weights is row j of the second matrix. -/
theorem stackW1_B (k : Fin 4) (j : Fin 64) :
    stackW1 w1 w2 w3 (ix2 k (⟨64 + j.val, by have := j.isLt; omega⟩ : Fin 192)) = w2 (ix2 j k) := by
  unfold stackW1
  refine (transpose_apply [1, 0] _ _ (ix2 k (⟨64 + j.val, by have := j.isLt; omega⟩ : Fin 192)) (ix2 (⟨64 + j.val, by have := j.isLt; omega⟩ : Fin 192) k) (fun b => match b with
    | ⟨0, _⟩ => rfl
    | ⟨1, _⟩ => rfl)).trans ?_
  refine concatenate_apply_piece (t := S192x4) (0 : Fin 2) [⟨S64x4, w1⟩, ⟨S64x4, w2⟩, ⟨S64x4, w3⟩] _ _
    1 (by simp) _ w2 rfl rfl 64 (by simp) (ix2 j k) (fun b hb => match b, hb with
      | ⟨0, _⟩, hb => absurd rfl hb
      | ⟨1, _⟩, _ => rfl) ?_
  show 64 + j.val = 64 + j.val
  rfl

/-- Column 128 + j of the stacked, transposed weights is row j of the third matrix. -/
theorem stackW1_C (k : Fin 4) (j : Fin 64) :
    stackW1 w1 w2 w3 (ix2 k (⟨128 + j.val, by have := j.isLt; omega⟩ : Fin 192)) = w3 (ix2 j k) := by
  unfold stackW1
  refine (transpose_apply [1, 0] _ _ (ix2 k (⟨128 + j.val, by have := j.isLt; omega⟩ : Fin 192)) (ix2 (⟨128 + j.val, by have := j.isLt; omega⟩ : Fin 192) k) (fun b => match b with
    | ⟨0, _⟩ => rfl
    | ⟨1, _⟩ => rfl)).trans ?_
  refine concatenate_apply_piece (t := S192x4) (0 : Fin 2) [⟨S64x4, w1⟩, ⟨S64x4, w2⟩, ⟨S64x4, w3⟩] _ _
    2 (by simp) _ w3 rfl rfl 128 (by simp) (ix2 j k) (fun b hb => match b, hb with
      | ⟨0, _⟩, hb => absurd rfl hb
      | ⟨1, _⟩, _ => rfl) ?_
  show 128 + j.val = 128 + j.val
  rfl
end Stack

section Bias
open Cert.KernelIdeal Cert.KernelIdeal.Hand
variable (b1 b3 : KArr S64 .f32)

/-- A zero constant spread over a vector is zero at every row. -/
theorem zeros64_apply (h : S_.BroadcastsInDim S64 (![] : Fin 0 → Fin S64.rank)) (i : S64.Idx) :
    broadcastInDim S64 ![] h (constant (F := Ideal) S_ .f32 0x00000000#32) i = (0 : EReal) :=
  (broadcastInDim_apply _ h _ i ix0 (fun a => a.elim0)).trans Ideal.ofBits_zero_f32

/-- The stacked bias row at column c is the three-piece vector at row c. -/
theorem stackB_apply (c : Fin 192) :
    stackB b1 b3 (ix2 (0 : Fin 1) c)
      = (if h1 : c.val < 64 then b1 (ix1 ⟨c.val, h1⟩)
        else if h2 : c.val < 2 * 64 then (0 : EReal)
        else b3 (ix1 ⟨c.val - 2 * 64, by have := c.isLt; omega⟩)) := by
  unfold stackB
  refine (shapeCast_apply _ _ (ix2 (0 : Fin 1) c) (ix1 c) (by
    rewrite [Shape.rowMajor_val_two, Shape.rowMajor_val_one]; show c.val = 0 * 192 + c.val; omega)).trans ?_
  refine (concatenate_three_apply 64 192 b1 _ b3 _ c).trans ?_
  split
  · rfl
  · split
    · exact zeros64_apply _ _
    · rfl

theorem stackB_A (j : Fin 64) :
    stackB b1 b3 (ix2 (0 : Fin 1) (⟨j.val, by have := j.isLt; omega⟩ : Fin 192)) = b1 (ix1 j) := by
  rw [stackB_apply, dif_pos (show j.val < 64 from j.isLt)]

theorem stackB_B (j : Fin 64) :
    stackB b1 b3 (ix2 (0 : Fin 1) (⟨64 + j.val, by have := j.isLt; omega⟩ : Fin 192)) = 0 := by
  rw [stackB_apply, dif_neg (show ¬ 64 + j.val < 64 by omega), dif_pos (show 64 + j.val < 2 * 64 by have := j.isLt; omega)]

theorem stackB_C (j : Fin 64) :
    stackB b1 b3 (ix2 (0 : Fin 1) (⟨128 + j.val, by have := j.isLt; omega⟩ : Fin 192)) = b3 (ix1 j) := by
  rw [stackB_apply, dif_neg (show ¬ 128 + j.val < 64 by omega), dif_neg (show ¬ 128 + j.val < 2 * 64 by omega)]
  exact congrArg b3 (congrArg ix1 (Fin.ext (show 128 + j.val - 2 * 64 = j.val by omega)))
end Bias

section Ref
open Cert.ReferenceIdeal Cert.ReferenceIdeal.Hand Cert.ReferenceIdeal.Read
variable (x : KArr Cert.KernelIdeal.S50000x4 .f32) (w : KArr Cert.KernelIdeal.S64x4 .f32) (b : KArr Cert.KernelIdeal.S64 .f32)

/-- The reference's product with a transposed weight matrix at (n, j). -/
theorem lin4_apply (n : Fin 50000) (j : Fin 64) :
    Cert.ReferenceIdeal.Hand.lin4 x w (ix2 n j) = ∑ k : Fin 4, x (ix2 n k) * w (ix2 j k) := by
  refine (val_main_v5_apply x w (ix2 n j)).trans ?_
  refine Finset.sum_congr rfl fun k _ => ?_
  rw [val_main_v4_apply]
  have el : lidx_main_v5 (ix2 n j) k = ix2 n k := funext fun a => match a with
    | ⟨0, _⟩ => rfl
    | ⟨1, _⟩ => rfl
  have er : idx_main_v4 (ridx_main_v5 (ix2 n j) k) = ix2 j k := funext fun a => match a with
    | ⟨0, _⟩ => rfl
    | ⟨1, _⟩ => rfl
  rw [el, er]

/-- The reference's bias rows at (n, j). -/
theorem biasRows_apply (n : Fin 50000) (j : Fin 64) :
    Cert.ReferenceIdeal.Hand.biasRows b (ix2 n j) = b (ix1 j) := by
  refine (val_main_v7_apply b (ix2 n j)).trans ?_
  refine (val_main_v6_apply b _).trans ?_
  exact congrArg b (funext fun a => match a with
    | ⟨0, _⟩ => rfl)
end Ref

/-! # A stacked projection's panels are the reference's separate linear maps

The kernel multiplies once by the three weight matrices stacked and transposed, and adds the two biases with a zero
block between them; the reference multiplies by each transposed matrix separately and adds each bias to every row.
Entry by entry both are `∑ₖ x[n, k] · W[j, k] (+ b[j])`; the middle panel's added zero changes nothing. -/

section Layer1
open Cert.KernelIdeal Cert.KernelIdeal.Hand
variable (x : KArr S50000x4 .f32) (w1 w2 w3 : KArr S64x4 .f32) (b1 b3 : KArr S64 .f32)

/-- The stacked projection at (n, c): the sum over the four features, plus the bias row at c. -/
theorem linRows_apply (W : KArr S4x192 .f32) (B : KArr S1x192 .f32) (n : Fin 50000) (c : Fin 192) :
    linRows x W B (ix2 n c) = (∑ k : Fin 4, x (ix2 n k) * W (ix2 k c)) + B (ix2 (0 : Fin 1) c) := rfl

theorem panelA_lin4 : panelA (linRows x (stackW1 w1 w2 w3) (stackB b1 b3))
    = Cert.ReferenceIdeal.Hand.affine4 x w1 b1 := by
  funext i
  obtain ⟨n, j, rfl⟩ : ∃ (n : Fin 50000) (j : Fin 64), i = ix2 n j := ⟨i 0, i 1, eq_ix2 i⟩
  rw [panelA_apply, linRows_apply, stackB_A]
  show _ = Cert.ReferenceIdeal.Hand.lin4 x w1 (ix2 n j) + Cert.ReferenceIdeal.Hand.biasRows b1 (ix2 n j)
  rw [lin4_apply, biasRows_apply]
  refine congrArg (· + b1 (ix1 j)) (Finset.sum_congr rfl fun k _ => ?_)
  rw [stackW1_A]

theorem panelB_lin4 : panelB (linRows x (stackW1 w1 w2 w3) (stackB b1 b3)) = Cert.ReferenceIdeal.Hand.lin4 x w2 := by
  funext i
  obtain ⟨n, j, rfl⟩ : ∃ (n : Fin 50000) (j : Fin 64), i = ix2 n j := ⟨i 0, i 1, eq_ix2 i⟩
  rw [panelB_apply, linRows_apply, stackB_B, add_zero, lin4_apply]
  refine Finset.sum_congr rfl fun k _ => ?_
  rw [stackW1_B]

theorem panelC_lin4 : panelC (linRows x (stackW1 w1 w2 w3) (stackB b1 b3))
    = Cert.ReferenceIdeal.Hand.affine4 x w3 b3 := by
  funext i
  obtain ⟨n, j, rfl⟩ : ∃ (n : Fin 50000) (j : Fin 64), i = ix2 n j := ⟨i 0, i 1, eq_ix2 i⟩
  rw [panelC_apply, linRows_apply, stackB_C]
  show _ = Cert.ReferenceIdeal.Hand.lin4 x w3 (ix2 n j) + Cert.ReferenceIdeal.Hand.biasRows b3 (ix2 n j)
  rw [lin4_apply, biasRows_apply]
  refine congrArg (· + b3 (ix1 j)) (Finset.sum_congr rfl fun k _ => ?_)
  rw [stackW1_C]
end Layer1

end Cert.Bridge

end
-- ==== Proof.Bridge.Lin64.lean ====
import proofs.«139596_j14499809592003_1_alg».proof.Proof.Arr
import proofs.«139596_j14499809592003_1_alg».proof.Proof.KI.Terms
import proofs.«139596_j14499809592003_1_alg».proof.Proof.Bridge.RefTerms
import proofs.«139596_j14499809592003_1_alg».proof.Proof.Gen.ReferenceIdeal.Read
import proofs.«139596_j14499809592003_1_alg».proof.Proof.LibConcat3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.EdgeNet Idealize.ShloMosaic Idealize.ShloMosaic.ValueIdx

/-- Kernel-side array types and reference-side array types at the ideal instance (the same types, named by each
    program's own shapes). -/
private abbrev KArr (s : Shape) (e : EltTy) : Type := Cert.KernelIdeal.Hand.Arr (F := Ideal) s e

/-! # The second layer's stacked projection: its panels are the reference's separate linear maps

The kernel multiplies once by the three weight matrices stacked and transposed, and adds the two biases with a zero
block between them; the reference multiplies by each transposed matrix separately and adds each bias to every row.
Entry by entry both are `∑ₖ x[n, k] · W[j, k] (+ b[j])`; the middle panel's added zero changes nothing. -/

/-! ## The reference's operations read at an entry -/

section RefReads
open Cert.ReferenceIdeal Cert.ReferenceIdeal.Facts₀ Cert.ReferenceIdeal.Facts Cert.ReferenceIdeal.Read

/-- A product contracting the left operand's columns with the right operand's rows: entry `(n, j)` is
    `∑ₖ x[n, k] · y[k, j]`. -/
theorem dot64_apply (x : Cert.ReferenceIdeal.Hand.Arr (F := Ideal) S50000x64 .f32)
    (y : Cert.ReferenceIdeal.Hand.Arr (F := Ideal) S64x64 .f32) (n : Fin 50000) (j : Fin 64) :
    Host.dotGeneral (F := Ideal) (φ₁ := .f32) (φ₂ := .f32) dot_S50000x64_S64x64_S50000x64_1_0_0_1_n_n none x y (ix2 n j)
      = ∑ k : Fin 64, x (ix2 n k) * y (ix2 k j) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 n j)
      ((ValueIdx.contrEquiv1 dot_S50000x64_S64x64_S50000x64_1_0_0_1_n_n 64 rfl rfl).symm k) = ix2 n k :=
    funext fun a => Fin.ext (by
      match a with
      | ⟨0, _⟩ => exact lhs_main_v39_0 _ _
      | ⟨1, _⟩ => exact (lhs_main_v39_1 _ _).trans hk)
  have er : dot_S50000x64_S64x64_S50000x64_1_0_0_1_n_n.rhsIdx (ix2 n j)
      ((ValueIdx.contrEquiv1 dot_S50000x64_S64x64_S50000x64_1_0_0_1_n_n 64 rfl rfl).symm k) = ix2 k j :=
    funext fun a => Fin.ext (by
      match a with
      | ⟨0, _⟩ => exact (rhs_main_v39_0 _ _).trans hk
      | ⟨1, _⟩ => exact rhs_main_v39_1 _ _)
  rw [el, er]

/-- Entry `(n, j)` of the product with a transposed weight matrix is `∑ₖ q[n, k] · w[j, k]`. -/
theorem lin64_apply (q : Cert.ReferenceIdeal.Hand.Arr (F := Ideal) S50000x64 .f32)
    (w : Cert.ReferenceIdeal.Hand.Arr (F := Ideal) S64x64 .f32) (n : Fin 50000) (j : Fin 64) :
    Cert.ReferenceIdeal.Hand.lin64 q w (ix2 n j) = ∑ k : Fin 64, q (ix2 n k) * w (ix2 j k) := by
  unfold Cert.ReferenceIdeal.Hand.lin64
  rw [dot64_apply]
  refine Finset.sum_congr rfl fun k _ => ?_
  congr 1
  exact transpose_apply [1, 0] w transposes_S64x64_S64x64_1_0 (ix2 k j) (ix2 j k) (fun b => match b with
    | ⟨0, _⟩ => rfl
    | ⟨1, _⟩ => rfl)

/-- Every row of the broadcast bias is the bias vector. -/
private theorem biasRows_apply (b : Cert.ReferenceIdeal.Hand.Arr (F := Ideal) S64 .f32) (n : Fin 50000) (j : Fin 64) :
    Cert.ReferenceIdeal.Hand.biasRows b (ix2 n j) = b (ix1 j) := by
  unfold Cert.ReferenceIdeal.Hand.biasRows
  refine (broadcastInDim_apply _ bcast_S1x64_S50000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

end RefReads

/-! ## The kernel's stacking and slicing read at an entry -/

section KerReads
open Cert.KernelIdeal Cert.KernelIdeal.Facts₀ Cert.KernelIdeal.Facts Cert.KernelIdeal.Hand

/-- Column `j` of a 64-column panel that starts at column `c` is column `c + j` of the whole array. -/
private theorem panelA_apply (p : KArr S50000x192 .f32) (n : Fin 50000) (j : Fin 64) :
    panelA p (ix2 n j) = p (ix2 n (⟨j.val, by have := j.isLt; omega⟩ : Fin 192)) := by
  unfold panelA
  exact extractStridedSlice_apply _ p slices_S50000x192_S50000x64_0_0 (ix2 n j) (ix2 n (⟨j.val, by have := j.isLt; omega⟩ : Fin 192))
    (fun a => match a with
      | ⟨0, _⟩ => by show n.val = 0 + n.val; omega
      | ⟨1, _⟩ => by show j.val = 0 + j.val; omega)
private theorem panelB_apply (p : KArr S50000x192 .f32) (n : Fin 50000) (j : Fin 64) :
    panelB p (ix2 n j) = p (ix2 n (⟨64 + j.val, by have := j.isLt; omega⟩ : Fin 192)) := by
  unfold panelB
  exact extractStridedSlice_apply _ p slices_S50000x192_S50000x64_0_64 (ix2 n j) (ix2 n (⟨64 + j.val, by have := j.isLt; omega⟩ : Fin 192))
    (fun a => match a with
      | ⟨0, _⟩ => by show n.val = 0 + n.val; omega
      | ⟨1, _⟩ => by show 64 + j.val = 64 + j.val; rfl)
private theorem panelC_apply (p : KArr S50000x192 .f32) (n : Fin 50000) (j : Fin 64) :
    panelC p (ix2 n j) = p (ix2 n (⟨128 + j.val, by have := j.isLt; omega⟩ : Fin 192)) := by
  unfold panelC
  exact extractStridedSlice_apply _ p slices_S50000x192_S50000x64_0_128 (ix2 n j) (ix2 n (⟨128 + j.val, by have := j.isLt; omega⟩ : Fin 192))
    (fun a => match a with
      | ⟨0, _⟩ => by show n.val = 0 + n.val; omega
      | ⟨1, _⟩ => by show 128 + j.val = 128 + j.val; rfl)

/-- The stacked, transposed weights: column `64 p + j` holds row `j` of the `p`-th matrix. -/
theorem stackW2_apply_A (w1 w2 w3 : KArr S64x64 .f32) (k j : Fin 64) :
    stackW2 w1 w2 w3 (ix2 k (⟨j.val, by have := j.isLt; omega⟩ : Fin 192)) = w1 (ix2 j k) := by
  unfold stackW2
  refine (transpose_apply [1, 0] _ transposes_S192x64_S64x192_1_0 (ix2 k (⟨j.val, by have := j.isLt; omega⟩ : Fin 192))
    (ix2 (⟨j.val, by have := j.isLt; omega⟩ : Fin 192) k) (fun b => match b with
      | ⟨0, _⟩ => rfl
      | ⟨1, _⟩ => rfl)).trans ?_
  refine concatenate_apply_piece (t := S192x64) (0 : Fin 2) [⟨S64x64, w1⟩, ⟨S64x64, w2⟩, ⟨S64x64, w3⟩]
    concatenates_S64x64_S64x64_S64x64_S192x64_d0 (ix2 (⟨j.val, by have := j.isLt; omega⟩ : Fin 192) k)
    0 (by simp) _ w1 rfl rfl 0 (by simp) (ix2 j k) (fun b hb => match b, hb with
      | ⟨0, _⟩, hb => absurd rfl hb
      | ⟨1, _⟩, _ => rfl) ?_
  show 0 + j.val = j.val
  omega
theorem stackW2_apply_B (w1 w2 w3 : KArr S64x64 .f32) (k j : Fin 64) :
    stackW2 w1 w2 w3 (ix2 k (⟨64 + j.val, by have := j.isLt; omega⟩ : Fin 192)) = w2 (ix2 j k) := by
  unfold stackW2
  refine (transpose_apply [1, 0] _ transposes_S192x64_S64x192_1_0 (ix2 k (⟨64 + j.val, by have := j.isLt; omega⟩ : Fin 192))
    (ix2 (⟨64 + j.val, by have := j.isLt; omega⟩ : Fin 192) k) (fun b => match b with
      | ⟨0, _⟩ => rfl
      | ⟨1, _⟩ => rfl)).trans ?_
  refine concatenate_apply_piece (t := S192x64) (0 : Fin 2) [⟨S64x64, w1⟩, ⟨S64x64, w2⟩, ⟨S64x64, w3⟩]
    concatenates_S64x64_S64x64_S64x64_S192x64_d0 (ix2 (⟨64 + j.val, by have := j.isLt; omega⟩ : Fin 192) k)
    1 (by simp) _ w2 rfl rfl 64 (by simp) (ix2 j k) (fun b hb => match b, hb with
      | ⟨0, _⟩, hb => absurd rfl hb
      | ⟨1, _⟩, _ => rfl) ?_
  show 64 + j.val = 64 + j.val
  rfl
theorem stackW2_apply_C (w1 w2 w3 : KArr S64x64 .f32) (k j : Fin 64) :
    stackW2 w1 w2 w3 (ix2 k (⟨128 + j.val, by have := j.isLt; omega⟩ : Fin 192)) = w3 (ix2 j k) := by
  unfold stackW2
  refine (transpose_apply [1, 0] _ transposes_S192x64_S64x192_1_0 (ix2 k (⟨128 + j.val, by have := j.isLt; omega⟩ : Fin 192))
    (ix2 (⟨128 + j.val, by have := j.isLt; omega⟩ : Fin 192) k) (fun b => match b with
      | ⟨0, _⟩ => rfl
      | ⟨1, _⟩ => rfl)).trans ?_
  refine concatenate_apply_piece (t := S192x64) (0 : Fin 2) [⟨S64x64, w1⟩, ⟨S64x64, w2⟩, ⟨S64x64, w3⟩]
    concatenates_S64x64_S64x64_S64x64_S192x64_d0 (ix2 (⟨128 + j.val, by have := j.isLt; omega⟩ : Fin 192) k)
    2 (by simp) _ w3 rfl rfl 128 (by simp) (ix2 j k) (fun b hb => match b, hb with
      | ⟨0, _⟩, hb => absurd rfl hb
      | ⟨1, _⟩, _ => rfl) ?_
  show 128 + j.val = 128 + j.val
  rfl

/-- The stacked bias row: the first bias, then 64 zeros, then the third bias. -/
theorem stackB_apply_A (b1 b3 : KArr S64 .f32) (j : Fin 64) :
    stackB b1 b3 (ix2 (0 : Fin 1) (⟨j.val, by have := j.isLt; omega⟩ : Fin 192)) = b1 (ix1 j) := by
  unfold stackB
  refine (shapeCast_apply _ shapeCasts_S192_S1x192 (ix2 (0 : Fin 1) (⟨j.val, by have := j.isLt; omega⟩ : Fin 192))
    (ix1 (⟨j.val, by have := j.isLt; omega⟩ : Fin 192)) ?_).trans ?_
  · rw [Shape.rowMajor_val_one, Shape.rowMajor_val_two]
    show j.val = 0 * 192 + j.val
    omega
  · refine (concatenate_three_apply 64 192 b1 _ b3 concatenates_S64_S64_S64_S192_d0 (⟨j.val, by have := j.isLt; omega⟩ : Fin 192)).trans ?_
    rw [dif_pos (show j.val < 64 from j.isLt)]
theorem stackB_apply_B (b1 b3 : KArr S64 .f32) (j : Fin 64) :
    stackB b1 b3 (ix2 (0 : Fin 1) (⟨64 + j.val, by have := j.isLt; omega⟩ : Fin 192)) = 0 := by
  unfold stackB
  refine (shapeCast_apply _ shapeCasts_S192_S1x192 (ix2 (0 : Fin 1) (⟨64 + j.val, by have := j.isLt; omega⟩ : Fin 192))
    (ix1 (⟨64 + j.val, by have := j.isLt; omega⟩ : Fin 192)) ?_).trans ?_
  · rw [Shape.rowMajor_val_one, Shape.rowMajor_val_two]
    show 64 + j.val = 0 * 192 + (64 + j.val)
    omega
  · refine (concatenate_three_apply 64 192 b1 _ b3 concatenates_S64_S64_S64_S192_d0 (⟨64 + j.val, by have := j.isLt; omega⟩ : Fin 192)).trans ?_
    rw [dif_neg (show ¬ (64 + j.val < 64) by omega), dif_pos (show 64 + j.val < 2 * 64 by have := j.isLt; omega)]
    refine (broadcastInDim_apply _ bcast_S_S64 _ _ ix0 (fun a => a.elim0)).trans ?_
    rw [constant_apply]
    exact Ideal.ofBits_zero_f32
theorem stackB_apply_C (b1 b3 : KArr S64 .f32) (j : Fin 64) :
    stackB b1 b3 (ix2 (0 : Fin 1) (⟨128 + j.val, by have := j.isLt; omega⟩ : Fin 192)) = b3 (ix1 j) := by
  unfold stackB
  refine (shapeCast_apply _ shapeCasts_S192_S1x192 (ix2 (0 : Fin 1) (⟨128 + j.val, by have := j.isLt; omega⟩ : Fin 192))
    (ix1 (⟨128 + j.val, by have := j.isLt; omega⟩ : Fin 192)) ?_).trans ?_
  · rw [Shape.rowMajor_val_one, Shape.rowMajor_val_two]
    show 128 + j.val = 0 * 192 + (128 + j.val)
    omega
  · refine (concatenate_three_apply 64 192 b1 _ b3 concatenates_S64_S64_S64_S192_d0 (⟨128 + j.val, by have := j.isLt; omega⟩ : Fin 192)).trans ?_
    rw [dif_neg (show ¬ (128 + j.val < 64) by omega), dif_neg (show ¬ (128 + j.val < 2 * 64) by omega)]
    exact congrArg b3 (congrArg ix1 (Fin.ext (by show 128 + j.val - 2 * 64 = j.val; omega)))

end KerReads

section Layer2
open Cert.KernelIdeal Cert.KernelIdeal.Hand
variable (q : KArr S50000x64 .f32) (w1 w2 w3 : KArr S64x64 .f32) (b1 b3 : KArr S64 .f32)

theorem panelA_lin64 : panelA (linRows q (stackW2 w1 w2 w3) (stackB b1 b3))
    = Cert.ReferenceIdeal.Hand.affine64 q w1 b1 := by
  funext i
  obtain ⟨n, j, rfl⟩ : ∃ (n : Fin 50000) (j : Fin 64), i = ix2 n j := ⟨i 0, i 1, eq_ix2 i⟩
  rw [panelA_apply]
  unfold Cert.ReferenceIdeal.Hand.affine64
  rw [addf_apply, lin64_apply, biasRows_apply]
  show (∑ k : Fin 64, q (ix2 n k) * stackW2 w1 w2 w3 (ix2 k (⟨j.val, by have := j.isLt; omega⟩ : Fin 192)))
      + stackB b1 b3 (ix2 (0 : Fin 1) (⟨j.val, by have := j.isLt; omega⟩ : Fin 192)) = _
  rw [stackB_apply_A]
  congr 1
  exact Finset.sum_congr rfl fun k _ => by rw [stackW2_apply_A]
theorem panelB_lin64 : panelB (linRows q (stackW2 w1 w2 w3) (stackB b1 b3)) = Cert.ReferenceIdeal.Hand.lin64 q w2 := by
  funext i
  obtain ⟨n, j, rfl⟩ : ∃ (n : Fin 50000) (j : Fin 64), i = ix2 n j := ⟨i 0, i 1, eq_ix2 i⟩
  rw [panelB_apply, lin64_apply]
  show (∑ k : Fin 64, q (ix2 n k) * stackW2 w1 w2 w3 (ix2 k (⟨64 + j.val, by have := j.isLt; omega⟩ : Fin 192)))
      + stackB b1 b3 (ix2 (0 : Fin 1) (⟨64 + j.val, by have := j.isLt; omega⟩ : Fin 192)) = _
  rw [stackB_apply_B, add_zero]
  exact Finset.sum_congr rfl fun k _ => by rw [stackW2_apply_B]
theorem panelC_lin64 : panelC (linRows q (stackW2 w1 w2 w3) (stackB b1 b3))
    = Cert.ReferenceIdeal.Hand.affine64 q w3 b3 := by
  funext i
  obtain ⟨n, j, rfl⟩ : ∃ (n : Fin 50000) (j : Fin 64), i = ix2 n j := ⟨i 0, i 1, eq_ix2 i⟩
  rw [panelC_apply]
  unfold Cert.ReferenceIdeal.Hand.affine64
  rw [addf_apply, lin64_apply, biasRows_apply]
  show (∑ k : Fin 64, q (ix2 n k) * stackW2 w1 w2 w3 (ix2 k (⟨128 + j.val, by have := j.isLt; omega⟩ : Fin 192)))
      + stackB b1 b3 (ix2 (0 : Fin 1) (⟨128 + j.val, by have := j.isLt; omega⟩ : Fin 192)) = _
  rw [stackB_apply_C]
  congr 1
  exact Finset.sum_congr rfl fun k _ => by rw [stackW2_apply_C]
end Layer2

end Cert.Bridge

end
-- ==== Proof.Bridge.Mlp.lean ====
import proofs.«139596_j14499809592003_1_alg».proof.Proof.Arr
import proofs.«139596_j14499809592003_1_alg».proof.Proof.KI.Terms
import proofs.«139596_j14499809592003_1_alg».proof.Proof.Bridge.RefTerms
import proofs.«139596_j14499809592003_1_alg».proof.Proof.Gen.ReferenceIdeal.Read
import proofs.«139596_j14499809592003_1_alg».proof.Proof.LibConcat3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.EdgeNet Idealize.ShloMosaic Idealize.ShloMosaic.ValueIdx

/-- Kernel-side array types and reference-side array types at the ideal instance (the same types, named by each
    program's own shapes). -/
private abbrev KArr (s : Shape) (e : EltTy) : Type := Cert.KernelIdeal.Hand.Arr (F := Ideal) s e

/-! # The edge network row by row is the reference's edge network on the whole array

The kernel's pipeline applies `max(e · W1ᵀ + b1, 0) · W2ᵀ + b2` to blocks of rows with the weights transposed and the
biases reshaped to rows beforehand; the reference applies the same two products and two bias additions to the whole
800000 × 128 array. Entry by entry both are `∑ₕ max(∑ₖ e[n, k] · W1[h, k] + b1[h], 0) · W2[j, h] + b2[j]`. -/

/-! ## Each operation of the network read at one entry -/

section Reads

variable {α : Type}

/-- The transposed `256 × 128` matrix at `(k, c)` is the matrix at `(c, k)`. -/
theorem transpose_256x128_apply (x : (⟨2, ![256, 128]⟩ : Shape).Idx → α)
    (h : (⟨2, ![256, 128]⟩ : Shape).Transposes [1, 0] ⟨2, ![128, 256]⟩) (k : Fin 128) (c : Fin 256) :
    transpose ⟨2, ![128, 256]⟩ [1, 0] x h (ix2 k c) = x (ix2 c k) :=
  transpose_apply [1, 0] x h (ix2 k c) (ix2 c k) (fun b => match b with
    | ⟨0, _⟩ => rfl
    | ⟨1, _⟩ => rfl)

/-- The transposed `4 × 256` matrix at `(c, j)` is the matrix at `(j, c)`. -/
theorem transpose_4x256_apply (x : (⟨2, ![4, 256]⟩ : Shape).Idx → α)
    (h : (⟨2, ![4, 256]⟩ : Shape).Transposes [1, 0] ⟨2, ![256, 4]⟩) (c : Fin 256) (j : Fin 4) :
    transpose ⟨2, ![256, 4]⟩ [1, 0] x h (ix2 c j) = x (ix2 j c) :=
  transpose_apply [1, 0] x h (ix2 c j) (ix2 j c) (fun b => match b with
    | ⟨0, _⟩ => rfl
    | ⟨1, _⟩ => rfl)

end Reads

section RefReads

open Cert.ReferenceIdeal Cert.ReferenceIdeal.Facts₀ Cert.ReferenceIdeal.Facts Cert.ReferenceIdeal.Read

/-- The length-256 bias broadcast over the rows: entry `(n, c)` is `b[c]`. -/
theorem bias256_apply (b : (⟨S256, .f32⟩ : BufTy).Contents (Elt Ideal)) (n : Fin 800000) (c : Fin 256) :
    broadcastInDim S800000x256 ![0, 1] bcast_S1x256_S800000x256_0_1 (broadcastInDim S1x256 ![1] bcast_S256_S1x256_1 b) (ix2 n c)
      = b (ix1 c) := by
  refine (broadcastInDim_apply _ bcast_S1x256_S800000x256_0_1 _ (ix2 n c) (ix2 (0 : Fin 1) c) (fun a => match a with
    | ⟨0, _⟩ => by show 0 = if (1 : Nat) = 1 then 0 else n.val; rw [if_pos rfl]
    | ⟨1, _⟩ => by show c.val = if (256 : Nat) = 1 then 0 else c.val; rw [if_neg (by decide)])).trans ?_
  exact broadcastInDim_apply _ bcast_S256_S1x256_1 b (ix2 (0 : Fin 1) c) (ix1 c) (fun a => match a with
    | ⟨0, _⟩ => by show c.val = if (256 : Nat) = 1 then 0 else c.val; rw [if_neg (by decide)])

/-- The length-4 bias broadcast over the rows: entry `(n, j)` is `b[j]`. -/
theorem bias4_apply (b : (⟨S4, .f32⟩ : BufTy).Contents (Elt Ideal)) (n : Fin 800000) (j : Fin 4) :
    broadcastInDim S800000x4 ![0, 1] bcast_S1x4_S800000x4_0_1 (broadcastInDim S1x4 ![1] bcast_S4_S1x4_1 b) (ix2 n j)
      = b (ix1 j) := by
  refine (broadcastInDim_apply _ bcast_S1x4_S800000x4_0_1 _ (ix2 n j) (ix2 (0 : Fin 1) j) (fun a => match a with
    | ⟨0, _⟩ => by show 0 = if (1 : Nat) = 1 then 0 else n.val; rw [if_pos rfl]
    | ⟨1, _⟩ => by show j.val = if (4 : Nat) = 1 then 0 else j.val; rw [if_neg (by decide)])).trans ?_
  exact broadcastInDim_apply _ bcast_S4_S1x4_1 b (ix2 (0 : Fin 1) j) (ix1 j) (fun a => match a with
    | ⟨0, _⟩ => by show j.val = if (4 : Nat) = 1 then 0 else j.val; rw [if_neg (by decide)])

/-- The broadcast zero constant is `0` at every entry. -/
theorem zero256_apply (i : S800000x256.Idx) :
    broadcastInDim S800000x256 ![] bcast_S_S800000x256 (constant (F := Ideal) S_ .f32 0x00000000#32) i = (0 : EReal) :=
  (broadcastInDim_apply _ bcast_S_S800000x256 _ i (fun a => a.elim0) (fun a => a.elim0)).trans Ideal.ofBits_zero_f32

/-- The first product: entry `(n, c)` is the sum over the 128 contracted positions. -/
theorem dot128_apply (x : (⟨S800000x128, .f32⟩ : BufTy).Contents (Elt Ideal)) (y : (⟨S128x256, .f32⟩ : BufTy).Contents (Elt Ideal))
    (n : Fin 800000) (c : Fin 256) :
    Host.dotGeneral (F := Ideal) (φ₁ := .f32) (φ₂ := .f32) dot_S800000x128_S128x256_S800000x256_1_0_0_1_n_n none x y (ix2 n c) = ∑ k : Fin 128, x (ix2 n k) * y (ix2 k c) := by
  simp only [Host.dotGeneral]
  rw [Ideal.dotGeneral_apply, ← Equiv.sum_comp (ValueIdx.contrEquiv1 dot_S800000x128_S128x256_S800000x256_1_0_0_1_n_n 128 rfl rfl).symm]
  refine Finset.sum_congr rfl fun k _ => ?_
  have hk := ValueIdx.contrEquiv1_symm_val dot_S800000x128_S128x256_S800000x256_1_0_0_1_n_n 128 rfl rfl k
  have el : dot_S800000x128_S128x256_S800000x256_1_0_0_1_n_n.lhsIdx (ix2 n c) ((ValueIdx.contrEquiv1 dot_S800000x128_S128x256_S800000x256_1_0_0_1_n_n 128 rfl rfl).symm k) = ix2 n k := funext fun a => Fin.ext (by
    match a with
    | ⟨0, _⟩ => exact lhs_main_v88_0 _ _
    | ⟨1, _⟩ => exact (lhs_main_v88_1 _ _).trans hk)
  have er : dot_S800000x128_S128x256_S800000x256_1_0_0_1_n_n.rhsIdx (ix2 n c) ((ValueIdx.contrEquiv1 dot_S800000x128_S128x256_S800000x256_1_0_0_1_n_n 128 rfl rfl).symm k) = ix2 k c := funext fun a => Fin.ext (by
    match a with
    | ⟨0, _⟩ => exact (rhs_main_v88_0 _ _).trans hk
    | ⟨1, _⟩ => exact rhs_main_v88_1 _ _)
  rw [el, er]

/-- The second product: entry `(n, j)` is the sum over the 256 contracted positions. -/
theorem dot256_apply (x : (⟨S800000x256, .f32⟩ : BufTy).Contents (Elt Ideal)) (y : (⟨S256x4, .f32⟩ : BufTy).Contents (Elt Ideal))
    (n : Fin 800000) (j : Fin 4) :
    Host.dotGeneral (F := Ideal) (φ₁ := .f32) (φ₂ := .f32) dot_S800000x256_S256x4_S800000x4_1_0_0_1_n_n none x y (ix2 n j) = ∑ c : Fin 256, x (ix2 n c) * y (ix2 c j) := by
  simp only [Host.dotGeneral]
  rw [Ideal.dotGeneral_apply, ← Equiv.sum_comp (ValueIdx.contrEquiv1 dot_S800000x256_S256x4_S800000x4_1_0_0_1_n_n 256 rfl rfl).symm]
  refine Finset.sum_congr rfl fun k _ => ?_
  have hk := ValueIdx.contrEquiv1_symm_val dot_S800000x256_S256x4_S800000x4_1_0_0_1_n_n 256 rfl rfl k
  have el : dot_S800000x256_S256x4_S800000x4_1_0_0_1_n_n.lhsIdx (ix2 n j) ((ValueIdx.contrEquiv1 dot_S800000x256_S256x4_S800000x4_1_0_0_1_n_n 256 rfl rfl).symm k) = ix2 n k := funext fun a => Fin.ext (by
    match a with
    | ⟨0, _⟩ => exact lhs_main_v94_0 _ _
    | ⟨1, _⟩ => exact (lhs_main_v94_1 _ _).trans hk)
  have er : dot_S800000x256_S256x4_S800000x4_1_0_0_1_n_n.rhsIdx (ix2 n j) ((ValueIdx.contrEquiv1 dot_S800000x256_S256x4_S800000x4_1_0_0_1_n_n 256 rfl rfl).symm k) = ix2 k j := funext fun a => Fin.ext (by
    match a with
    | ⟨0, _⟩ => exact (rhs_main_v94_0 _ _).trans hk
    | ⟨1, _⟩ => exact rhs_main_v94_1 _ _)
  rw [el, er]

/-- The reference's network at entry `(n, j)`. -/
theorem edgeNet_apply (e : (⟨S800000x128, .f32⟩ : BufTy).Contents (Elt Ideal)) (w1 : (⟨S256x128, .f32⟩ : BufTy).Contents (Elt Ideal))
    (b1 : (⟨S256, .f32⟩ : BufTy).Contents (Elt Ideal)) (w2 : (⟨S4x256, .f32⟩ : BufTy).Contents (Elt Ideal))
    (b2 : (⟨S4, .f32⟩ : BufTy).Contents (Elt Ideal)) (n : Fin 800000) (j : Fin 4) :
    Cert.ReferenceIdeal.Hand.edgeNet e w1 b1 w2 b2 (ix2 n j)
      = (∑ c : Fin 256, max ((∑ k : Fin 128, e (ix2 n k) * w1 (ix2 c k)) + b1 (ix1 c)) 0 * w2 (ix2 j c)) + b2 (ix1 j) := by
  unfold Cert.ReferenceIdeal.Hand.edgeNet
  rw [addf_apply, dot256_apply, bias4_apply]
  refine congrArg (· + b2 (ix1 j)) (Finset.sum_congr rfl fun c _ => ?_)
  rw [maximumf_apply, addf_apply, dot128_apply, bias256_apply, zero256_apply, transpose_4x256_apply]
  refine congrArg (fun t => max (t + b1 (ix1 c)) 0 * w2 (ix2 j c)) (Finset.sum_congr rfl fun k _ => ?_)
  rw [transpose_256x128_apply]

end RefReads

open Cert.KernelIdeal Cert.KernelIdeal.Facts₀ Cert.KernelIdeal.Facts in
theorem mlpRows_edgeNet (e : KArr Cert.KernelIdeal.S800000x128 .f32) (w1 : KArr Cert.KernelIdeal.S256x128 .f32) (b1 : KArr Cert.KernelIdeal.S256 .f32)
    (w2 : KArr Cert.KernelIdeal.S4x256 .f32) (b2 : KArr Cert.KernelIdeal.S4 .f32) :
    mlpRows e (transpose S128x256 [1, 0] w1 transposes_S256x128_S128x256_1_0) (shapeCast S1x256 b1 shapeCasts_S256_S1x256)
        (transpose S256x4 [1, 0] w2 transposes_S4x256_S256x4_1_0) (shapeCast S1x4 b2 shapeCasts_S4_S1x4)
      = Cert.ReferenceIdeal.Hand.edgeNet e w1 b1 w2 b2 := by
  funext i
  obtain ⟨n, j, rfl⟩ : ∃ (n : Fin 800000) (j : Fin 4), i = ix2 n j := ⟨i 0, i 1, eq_ix2 i⟩
  refine Eq.trans ?_ (edgeNet_apply e w1 b1 w2 b2 n j).symm
  show (∑ c : Fin 256, max ((∑ k : Fin 128, e (ix2 n k) * transpose S128x256 [1, 0] w1 transposes_S256x128_S128x256_1_0 (ix2 k c))
      + shapeCast S1x256 b1 shapeCasts_S256_S1x256 (ix2 (0 : Fin 1) c)) 0 * transpose S256x4 [1, 0] w2 transposes_S4x256_S256x4_1_0 (ix2 c j))
      + shapeCast S1x4 b2 shapeCasts_S4_S1x4 (ix2 (0 : Fin 1) j) = _
  rw [shapeCast_a_1a_apply]
  refine congrArg (· + b2 (ix1 j)) (Finset.sum_congr rfl fun c _ => ?_)
  rw [shapeCast_a_1a_apply, transpose_4x256_apply]
  refine congrArg (fun t => max (t + b1 (ix1 c)) 0 * w2 (ix2 j c)) (Finset.sum_congr rfl fun k _ => ?_)
  rw [transpose_256x128_apply]

end Cert.Bridge

end
-- ==== Proof.Bridge.Top.lean ====
import proofs.«139596_j14499809592003_1_alg».proof.Proof.KI.Chain
import proofs.«139596_j14499809592003_1_alg».proof.Proof.Bridge.RefTerms
import proofs.«139596_j14499809592003_1_alg».proof.Proof.Bridge.Lin4
import proofs.«139596_j14499809592003_1_alg».proof.Proof.Bridge.Lin64
import proofs.«139596_j14499809592003_1_alg».proof.Proof.Bridge.Mlp

set_option maxRecDepth 16384

noncomputable section

namespace Cert.Bridge

open Cert.EdgeNet Idealize.ShloMosaic Idealize.ShloMosaic.TcCoe Idealize.SL.Sem

/-- Kernel-side arrays at the ideal instance. -/
private abbrev KArr (s : Shape) (e : EltTy) : Type := Cert.KernelIdeal.Hand.Arr (F := Ideal) s e

/-! # The kernel program's result is the reference's

Both programs run the same two rounds of message passing and the same edge network; they differ only in how a
layer's three linear maps are computed (one stacked product against three separate ones) and in where the last bias
is added (`agg + (x·W3ᵀ + b3)` against `(agg + x·W3ᵀ) + b3`: addition of extended reals is associative). -/

/-- The shared host functions of the two programs are the same functions (each program names the operations'
    dimension records in its own namespace; the records are equal). -/
theorem aggregate_eq (a b : KArr Cert.KernelIdeal.S50000x64 .f32) (src dst : KArr Cert.KernelIdeal.S800000 .i32) (ew : KArr Cert.KernelIdeal.S800000 .f32) :
    Cert.KernelIdeal.Hand.aggregate a b src dst ew = Cert.ReferenceIdeal.Hand.aggregate a b src dst ew := rfl
theorem edgeRep_eq (q : KArr Cert.KernelIdeal.S50000x64 .f32) (src dst : KArr Cert.KernelIdeal.S800000 .i32) :
    Cert.KernelIdeal.Hand.edgeRep q src dst = Cert.ReferenceIdeal.Hand.edgeRep q src dst := rfl
theorem srcRow_eq (ei : KArr Cert.KernelIdeal.S2x800000 .i32) : Cert.KernelIdeal.Hand.srcRow ei = Cert.ReferenceIdeal.Hand.srcRow ei := rfl
theorem dstRow_eq (ei : KArr Cert.KernelIdeal.S2x800000 .i32) : Cert.KernelIdeal.Hand.dstRow ei = Cert.ReferenceIdeal.Hand.dstRow ei := rfl

/-- Array addition is associative, entry by entry on the extended reals. -/
theorem addf_assoc {s : Shape} (a b d : FVec Ideal s .f32) : addf a (addf b d) = addf (addf a b) d :=
  funext fun i => (add_assoc (a i) (b i) (d i)).symm

/-- Layer one: the kernel's output from its stacked projection is the reference's layer. -/
theorem layer1_eq (x : KArr Cert.KernelIdeal.S50000x4 .f32) (w1 : KArr Cert.KernelIdeal.S64x4 .f32) (b1 : KArr Cert.KernelIdeal.S64 .f32)
    (w2 w3 : KArr Cert.KernelIdeal.S64x4 .f32) (b3 : KArr Cert.KernelIdeal.S64 .f32) (src dst : KArr Cert.KernelIdeal.S800000 .i32)
    (ew : KArr Cert.KernelIdeal.S800000 .f32) :
    Cert.KernelIdeal.Hand.layerOut (linRows x (Cert.KernelIdeal.Hand.stackW1 w1 w2 w3) (Cert.KernelIdeal.Hand.stackB b1 b3)) src dst ew
      = Cert.ReferenceIdeal.Hand.layer4 x w1 b1 w2 w3 b3 src dst ew := by
  unfold Cert.KernelIdeal.Hand.layerOut Cert.ReferenceIdeal.Hand.layer4
  rw [panelA_lin4, panelB_lin4, panelC_lin4, aggregate_eq]
  exact addf_assoc _ _ _

/-- Layer two, the same with 64 input channels. -/
theorem layer2_eq (q : KArr Cert.KernelIdeal.S50000x64 .f32) (w1 : KArr Cert.KernelIdeal.S64x64 .f32) (b1 : KArr Cert.KernelIdeal.S64 .f32)
    (w2 w3 : KArr Cert.KernelIdeal.S64x64 .f32) (b3 : KArr Cert.KernelIdeal.S64 .f32) (src dst : KArr Cert.KernelIdeal.S800000 .i32)
    (ew : KArr Cert.KernelIdeal.S800000 .f32) :
    Cert.KernelIdeal.Hand.layerOut (linRows q (Cert.KernelIdeal.Hand.stackW2 w1 w2 w3) (Cert.KernelIdeal.Hand.stackB b1 b3)) src dst ew
      = Cert.ReferenceIdeal.Hand.layer64 q w1 b1 w2 w3 b3 src dst ew := by
  unfold Cert.KernelIdeal.Hand.layerOut Cert.ReferenceIdeal.Hand.layer64
  rw [panelA_lin64, panelB_lin64, panelC_lin64, aggregate_eq]
  exact addf_assoc _ _ _

/-- From memories that agree on the arguments, the kernel program's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.KernelIdeal.Hand.kresult m c = Cert.ReferenceIdeal.Hand.result m' c := by
  unfold Cert.KernelIdeal.Hand.kresult Cert.KernelIdeal.Hand.out2 Cert.KernelIdeal.Hand.proj2 Cert.KernelIdeal.Hand.out1
    Cert.KernelIdeal.Hand.proj1 Cert.ReferenceIdeal.Hand.result
  dsimp only
  rw [h0, h1, h2, h3, h4, h5, h6, h7, h8, h9, h10, h11, h12, h13, h14, h15, h16]
  rw [layer1_eq, layer2_eq, mlpRows_edgeNet, edgeRep_eq, srcRow_eq, dstRow_eq]

end Cert.Bridge

end
-- ==== Proof.lean ====
/-
  The certificate of a two-layer graph network with an edge head: the kernel program runs each layer's three linear
  maps as ONE tiled product on the matrix unit (weights stacked, biases in one row with a zero block) and the edge
  network as one tiled pipeline, with the gathers, the scatter-add and the slicing on the host; the reference runs
  every linear map separately on the host.

  * The frames of the two kernel programs: @main is three host stretches and three pipelines; each pipeline's body
    loads whole blocks and stores one whole block, and the run follows every buffer from the launch memory to the
    end (Proof/K/Run.lean at the word level, Proof/KI/Run.lean at the ideal instance: one text, generic in the float
    instance).
  * The reference's frame and value: its generated run.
  * The value claim: each pipeline's result array is a closed entry-by-entry function of the arrays it found
    (Proof/KI/Proj1Val, Proj2Val, EmlpVal); the host stretches compose (Proof/KI/Chain); a stacked projection's three
    panels are the reference's three linear maps, the middle one's added zero block changing nothing, and
    `agg + (x·W3ᵀ + b3) = (agg + x·W3ᵀ) + b3` by associativity on the extended reals (Proof/Bridge). No finiteness of
    the inputs is used.
-/
import proofs.«139596_j14499809592003_1_alg».proof.Defs
import proofs.«139596_j14499809592003_1_alg».proof.Proof.Gen.Kernel
import proofs.«139596_j14499809592003_1_alg».proof.Proof.Gen.KernelIdeal
import proofs.«139596_j14499809592003_1_alg».proof.Proof.Gen.ReferenceIdeal
import proofs.«139596_j14499809592003_1_alg».proof.Proof.Gen.ReferenceIdeal.Run
import proofs.«139596_j14499809592003_1_alg».proof.Proof.Gen.Pre_finite_inputs
import proofs.«139596_j14499809592003_1_alg».proof.Proof.K.Run
import proofs.«139596_j14499809592003_1_alg».proof.Proof.KI.Run
import proofs.«139596_j14499809592003_1_alg».proof.Proof.KI.Chain
import proofs.«139596_j14499809592003_1_alg».proof.Proof.Bridge.Top
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result buffer at one function of the (agreeing) arguments. -/
theorem algebraic : Cert.algebraic_KernelIdeal_ReferenceIdeal := by
  intro m ρ m' ρ' _ hagree
  refine ⟨fun c => Cert.KernelIdeal.Hand.kresult m c, ?_, ?_⟩
  · refine (θ_run Cert.KernelIdeal.defs _ _).mono (fun r h c => ⟨?_, (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c),
      (h c _ (Cert.KernelIdeal.Hand.mem_uc Cert.KernelIdeal.main_arg11 (by decide))).trans (Cert.KernelIdeal.Hand.W6_main_arg11 m ρ c),
      (h c _ (Cert.KernelIdeal.Hand.mem_uc Cert.KernelIdeal.main_arg12 (by decide))).trans (Cert.KernelIdeal.Hand.W6_main_arg12 m ρ c),
      (h c _ (Cert.KernelIdeal.Hand.mem_uc Cert.KernelIdeal.main_arg13 (by decide))).trans (Cert.KernelIdeal.Hand.W6_main_arg13 m ρ c),
      (h c _ (Cert.KernelIdeal.Hand.mem_uc Cert.KernelIdeal.main_arg14 (by decide))).trans (Cert.KernelIdeal.Hand.W6_main_arg14 m ρ c),
      (h c _ (Cert.KernelIdeal.Hand.mem_uc Cert.KernelIdeal.main_arg15 (by decide))).trans (Cert.KernelIdeal.Hand.W6_main_arg15 m ρ c),
      (h c _ (Cert.KernelIdeal.Hand.mem_uc Cert.KernelIdeal.main_arg16 (by decide))).trans (Cert.KernelIdeal.Hand.W6_main_arg16 m ρ c),
      (h c _ (Cert.KernelIdeal.Hand.mem_uc Cert.KernelIdeal.main_arg17 (by decide))).trans (Cert.KernelIdeal.Hand.W6_main_arg17 m ρ c),
      (h c _ (Cert.KernelIdeal.Hand.mem_uc Cert.KernelIdeal.main_arg18 (by decide))).trans (Cert.KernelIdeal.Hand.W6_main_arg18 m ρ c),
      (h c _ (Cert.KernelIdeal.Hand.mem_uc Cert.KernelIdeal.main_arg19 (by decide))).trans (Cert.KernelIdeal.Hand.W6_main_arg19 m ρ c),
      (h c _ (Cert.KernelIdeal.Hand.mem_uc Cert.KernelIdeal.main_arg20 (by decide))).trans (Cert.KernelIdeal.Hand.W6_main_arg20 m ρ c)⟩)
      (Cert.KernelIdeal.Hand.run_all (F := Ideal) m ρ)
    exact (h c _ (Cert.KernelIdeal.Hand.mem_uc Cert.KernelIdeal.main_v85 (by decide))).trans (Cert.KernelIdeal.Hand.W6_result m ρ c)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20⟩ := hagree c
    rw [Cert.ReferenceIdeal.Hand.result_eq]
    exact (Cert.Bridge.result_eq m m' c a0 a1 a2 a3 a4 a5 a6 a7 a8 a9 a10 a11 a12 a13 a14 a15 a16).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
